-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S_ : Shape := ⟨0, ![]⟩

abbrev nBuf : Space → Nat
  | .hbm => 32
  | .vmem => 24
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_36 : BitVec 32 := 0#32
  let v69 : BitVec 1 := Scalar.cmpi .ne v68 c0_i32_36
  v69

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .bf16 = 32 ∨ (Rect.block (s := S8192x128) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .bf16 = 32 ∨ (Rect.block (s := S8192x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_3) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Base.lean ====
/-
  Region-entry blocks and the per-point arithmetic of the two kernel regions, stated once over literal
  vector types and generic in the float instance.

  Region 0 (row normalisation, 8 points of 1024 rows): the one output block is the body's single payload of
  the input block. Region 1 (the pairwise reduction, a 16 × 16 grid of 512 × 512 tiles): four column
  accumulators, one per reduced quantity, are reset at column tile 0, added to at every column tile, and
  copied to the four output blocks at column tile 15. "step" is one column tile's update of the four
  accumulators; "scAt" is what the accumulators hold after each grid point, by recursion on the point.
-/
import proofs.«124807_j51797305589975_1_alg».proof.Proof.Gen.Kernel.Launch
import proofs.«124807_j51797305589975_1_alg».proof.Proof.Gen.Kernel.Skeleton
import proofs.«124807_j51797305589975_1_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

/-- The contents of core c's TensorCore buffers when a region is entered: the parameter both regions' data are stated at. -/
abbrev Entry (F : FTy → Type) : Type := (c : Dev nD) → (b : Ref sig .tc) → Buf (Elt F) ((c : Thread nD τ).loc b)

variable (V : Entry F)

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 1024 × 128 block of rows region 0 normalises at point t. -/
abbrev xblk (c : Dev nD) (t : Fin cfg0.N) : Vec F S1024x128 .f32 := iblk0 V c 0 t

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's 512 normalised rows, the column tile's 512 normalised rows, the row tile's labels (a column) and the
    column tile's labels (a row) at point t. -/
abbrev qblk (c : Dev nD) (t : Fin cfg1.N) : Vec F S512x128 .bf16 := iblk1 V c 0 t
abbrev kblk (c : Dev nD) (t : Fin cfg1.N) : Vec F S512x128 .bf16 := iblk1 V c 1 t
abbrev qlab (c : Dev nD) (t : Fin cfg1.N) : Vec F S512x1 .i32 := iblk1 V c 2 t
abbrev klab (c : Dev nD) (t : Fin cfg1.N) : Vec F S1x512 .i32 := iblk1 V c 3 t

/-- The four accumulators' contents, as one tuple. -/
abbrev Acc (F : FTy → Type) : Type := Vec F S512x1 .f32 × Vec F S512x1 .f32 × Vec F S512x1 .f32 × Vec F S512x1 .f32

/-- The accumulators as the reset at column tile 0 leaves them. -/
def acc0 : Acc F := (k1_pay1, k1_pay2, k1_pay3, k1_pay4)

/-- One grid point's update: each accumulator plus this tile's partial row sum of its quantity
    (masked exponentials over same-label off-diagonal pairs, over different-label pairs; masked similarities likewise). -/
def step (i : grid1.Coords) (q k : Vec F S512x128 .bf16) (ql : Vec F S512x1 .i32) (kl : Vec F S1x512 .i32) (a : Acc F) : Acc F :=
  (k1_pay12 (k1_pay10 i q k ql kl) a.1,
   k1_pay13 (k1_pay11 q k ql kl) a.2.1,
   k1_pay14 (k1_pay5 q k) (k1_pay7 i ql kl) a.2.2.1,
   k1_pay15 (k1_pay5 q k) (k1_pay8 ql kl) a.2.2.2)

/-- What the accumulators hold after grid point n: the point's update of the reset contents at a column tile 0, else of
    what the point before left. -/
def scAt (c : Dev nD) : (n : ℕ) → n < cfg1.N → Acc F
  | 0, h => step (grid1.coords ⟨0, h⟩) (qblk V c ⟨0, h⟩) (kblk V c ⟨0, h⟩) (qlab V c ⟨0, h⟩) (klab V c ⟨0, h⟩) acc0
  | n + 1, h => step (grid1.coords ⟨n + 1, h⟩) (qblk V c ⟨n + 1, h⟩) (kblk V c ⟨n + 1, h⟩) (qlab V c ⟨n + 1, h⟩) (klab V c ⟨n + 1, h⟩)
      (if (n + 1) % 16 = 0 then acc0 else scAt c n (Nat.lt_of_succ_lt h))

/-- At a column tile 0 the update starts from the reset contents. -/
theorem scAt_reset (c : Dev nD) (t : Fin cfg1.N) (h0 : t.val % 16 = 0) :
    scAt V c t.val t.isLt = step (grid1.coords t) (qblk V c t) (kblk V c t) (qlab V c t) (klab V c t) acc0 := by
  obtain ⟨n, hn⟩ := t
  cases n with
  | zero => rfl
  | succ n => exact congrArg _ (if_pos h0)

/-- At any other column tile it starts from what the point before left. -/
theorem scAt_acc (c : Dev nD) (t : Fin cfg1.N) (h0 : ¬ t.val % 16 = 0) :
    scAt V c t.val t.isLt = step (grid1.coords t) (qblk V c t) (kblk V c t) (qlab V c t) (klab V c t)
      (scAt V c (t.val - 1) (Nat.lt_of_le_of_lt (Nat.sub_le _ _) t.isLt)) := by
  obtain ⟨n, hn⟩ := t
  cases n with
  | zero => exact absurd (Nat.zero_mod _) h0
  | succ n => exact congrArg _ (if_neg h0)

end Cert.Kernel.Hand

end
-- ==== Proof.KB.Reg0.lean ====
/-
  Region 0, the row normalisation: its proof data and body obligation at any entry contents.
  The body loads the 1024 × 128 input block, divides each row by the larger of its Euclidean norm and the
  floor constant, and stores the result whole into the output block; so after the body the output's staging
  buffer holds that one payload of the input block, the input's buffer its block, and the region's
  invariant is the untouched scoped rest.
-/
import proofs.«124807_j51797305589975_1_alg».proof.Proof.KB.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The proof data of region 0 on core c: arrays as entered; after the body the input's buffer at its block and the
    output's at the normalised block; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (xblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (xblk V c t) := by dsimp only [dat0]

/-- The input's current staging buffer holds its block at every point: the window is fetched at every point, never cut
    and never idle, and the body leaves the block in place, so fetched or not the buffer reads the array's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body's accesses -/

/-- The one rectangle the body loads and stores through: the whole 1024 × 128 buffer at zero offsets. -/
abbrev r0_0 : Rect S1024x128 := Rect.unit (s := S1024x128) ![0, 0] S1024x128.size inb_S1024x128_S1024x128_0_0

/-- Its offsets are zero on both axes. -/
theorem zeros0 : (![0, 0] : Fin S1024x128.rank → Nat) = fun _ => 0 := by
  funext a; fin_cases a <;> rfl

/-- The one store covers the output buffer: every index lies in the whole-buffer rectangle. -/
theorem cover0_1 (p0 : Vec F S1024x128 .bf16) (y : S1024x128.Idx) :
    ∃ pc ∈ ([⟨r0_0, p0⟩] : List (View.Piece (Elt F) S1024x128 .bf16)), y ∈ pc.1.set :=
  ⟨_, List.mem_singleton_self _, View.mem_set_unit_zero zeros0 inb_S1024x128_S1024x128_0_0 y⟩

/-! ## The body's triple -/

set_option maxHeartbeats 1000000 in
/-- The kernel body on whole staging buffers, the input's at contents x0 and the output's at anything, runs to the
    continuation with the input's buffer as it was and the output's at the payload of x0: the load reads x0 through
    the whole-buffer rectangle, the second load's value is never used, and the single store through the same rectangle
    overwrites every entry with the payload. -/
theorem sound_kernel0 (c : Dev nD) (E : Set ℕ) (i : grid0.Coords)
    (arg0 : Memref sig .tc .vmem S1024x128 .f32) (harg0 : arg0.IsWhole)
    (arg1 : Memref sig .tc .vmem S1024x128 .bf16) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k0_pay1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover0_1 _), View.canon_unit_zero zeros0]
  simp only [View.readAt_eq_ld, View.ld_unit_zero (S := S1024x128) zeros0]

/-! ## The body obligation, at a generic point -/

/-- What the body is called with at point t: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant and debts, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies at that block; the
    invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (xblk V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1Run.lean ====
/-
  Region 1's kernel body on any whole staging memrefs, in each of the three cases its two conditionals meet
  on the 16 × 16 grid: column tile 0 (the accumulators are reset, then added to; the output blocks are not touched),
  a middle column tile (added to only), column tile 15 (added to, then copied into the four output blocks).
  In every case the inputs' buffers are handed back as found and each accumulator ends at "step" of what the
  additions started from.
-/
import proofs.«124807_j51797305589975_1_alg».proof.Proof.KB.Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset's condition, from the grid coordinates: column tile 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out's condition: column tile 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The whole-buffer rectangle's offsets are zero on both axes. -/
theorem run1_hz : (![0, 0] : Fin 2 → ℕ) = fun _ => 0 := funext fun a => by fin_cases a <;> rfl

/-- A buffer read after a store through its whole shape, the last of any stores, holds that store's payload:
    the last piece covers every index, and over it the canonical contents are its payload. -/
theorem run1_read_store {sg : RefSig} {κ : Kind} {sp : Space} {S : Shape} {e : EltTy} (v : View sg κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 4000000 in
/-- Column tile 0: the accumulators, found at anything, end at the update of the reset contents; the output
    blocks' buffers are handed back untouched. -/
theorem run1_A (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : cond1_0 i) (hc1 : ¬cond1_1 i) (q k : Vec F S512x128 .bf16) (ql : Vec F S512x1 .i32) (kl : Vec F S1x512 .i32) (x4 x5 x6 x7 : Vec F S512x1 .f32) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (step i q k ql kl acc0).1 ∗ owns (c : Thread nD τ) arg11 fullShare (step i q k ql kl acc0).2.1 ∗ owns (c : Thread nD τ) arg12 fullShare (step i q k ql kl acc0).2.2.1 ∗ owns (c : Thread nD τ) arg13 fullShare (step i q k ql kl acc0).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    rotate_left
    · iexact H10
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  · iexists _; isplitr
    rotate_left
    · iexact H13
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl

set_option maxHeartbeats 4000000 in
/-- A middle column tile: each accumulator ends at the update of what it held. -/
theorem run1_B (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : ¬cond1_1 i) (q k : Vec F S512x128 .bf16) (ql : Vec F S512x1 .i32) (kl : Vec F S1x512 .i32) (a : Acc F) (x4 x5 x6 x7 : Vec F S512x1 .f32) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (step i q k ql kl a).1 ∗ owns (c : Thread nD τ) arg11 fullShare (step i q k ql kl a).2.1 ∗ owns (c : Thread nD τ) arg12 fullShare (step i q k ql kl a).2.2.1 ∗ owns (c : Thread nD τ) arg13 fullShare (step i q k ql kl a).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    rotate_left
    · iexact H10
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  iexists _; isplitr
  rotate_left
  · iexact H13
  · ipureintro
    refine (run1_read_store _ _ run1_hz _ _ []).trans ?_
    simp only [View.readAt_eq_ld, harg2.read_unread, harg3.read_unread, harg4.read_unread, harg5.read_unread,
      harg10.read_unread, harg11.read_unread, harg12.read_unread, harg13.read_unread,
      View.ld_unit_zero (S := S512x1) run1_hz, View.ld_unit_zero (S := S512x128) run1_hz, View.ld_unit_zero (S := S1x512) run1_hz]
    rfl

set_option maxHeartbeats 4000000 in
/-- Column tile 15: as a middle tile, and each output block's buffer, found at anything, ends at its accumulator's
    new contents. -/
theorem run1_C (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : cond1_1 i) (q k : Vec F S512x128 .bf16) (ql : Vec F S512x1 .i32) (kl : Vec F S1x512 .i32) (a : Acc F) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare (step i q k ql kl a).1 ∗ owns (c : Thread nD τ) arg7 fullShare (step i q k ql kl a).2.1 ∗ owns (c : Thread nD τ) arg8 fullShare (step i q k ql kl a).2.2.1 ∗ owns (c : Thread nD τ) arg9 fullShare (step i q k ql kl a).2.2.2
            ∗ owns (c : Thread nD τ) arg10 fullShare (step i q k ql kl a).1 ∗ owns (c : Thread nD τ) arg11 fullShare (step i q k ql kl a).2.1 ∗ owns (c : Thread nD τ) arg12 fullShare (step i q k ql kl a).2.2.1 ∗ owns (c : Thread nD τ) arg13 fullShare (step i q k ql kl a).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left
    · iexact H6
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H7]
  · iexists _; isplitr
    rotate_left
    · iexact H7
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H8]
  · iexists _; isplitr
    rotate_left
    · iexact H8
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H9]
  · iexists _; isplitr
    rotate_left
    · iexact H9
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H10]
  · iexists _; isplitr
    rotate_left
    · iexact H10
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  · iexists _; isplitr
    rotate_left
    · iexact H13
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl

end Cert.Kernel.Hand

end
-- ==== Proof.KB.Reg1.lean ====
/-
  Region 1, the pairwise reduction: its proof data and body obligation at any entry contents.
  The four accumulators are scratch buffers the kernel carries from grid point to grid point, so the region's
  invariant before point n + 1 names their contents after point n ("scAt"); before the first point it is the
  untouched scoped rest. The four output windows are idle except at column tile 15, where each is handed the
  accumulator's contents and written back. The two operands of the similarity product are windows of ONE array,
  held at the two halves of the full share.
-/
import proofs.«124807_j51797305589975_1_alg».proof.Proof.KB.Base
import proofs.«124807_j51797305589975_1_alg».proof.Proof.KB.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The four accumulators: whole scoped buffers of the kernel's own. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2
abbrev scM3 : Memref sig .tc .vmem S512x1 .f32 := Memref.whole cc1_scratch3

/-- The scoped buffers of the core that are neither a staging buffer nor an accumulator of this region (the row
    normalisation's four staging buffers), each whole at some contents: the region never touches them. -/
def otherS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position n: at the first point the scoped rest at anything and the generator
    register; afterwards each accumulator at what the point before left, the untouched scoped buffers at anything,
    and the generator register. -/
def PhiS (c : Dev nD) : (n : ℕ) → n ≤ cfg1.N → sProp 𝕄
  | 0, _ => Pipeline.ΦA spec1 c
  | n + 1, hn => iprop(owns (c : Thread nD τ) scM0 fullShare (scAt V c n hn).1 ∗ owns (c : Thread nD τ) scM1 fullShare (scAt V c n hn).2.1
      ∗ owns (c : Thread nD τ) scM2 fullShare (scAt V c n hn).2.2.1 ∗ owns (c : Thread nD τ) scM3 fullShare (scAt V c n hn).2.2.2
      ∗ otherS (F := F) c ∗ (∃ r, prngReg c r))

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (scAt V c t.val t.isLt).1
    | ⟨5, _⟩ => (scAt V c t.val t.isLt).2.1
    | ⟨6, _⟩ => (scAt V c t.val t.isLt).2.2.1
    | ⟨7, _⟩ => (scAt V c t.val t.isLt).2.2.2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = (scAt V c t.val t.isLt).1 := by dsimp only [dat1]
theorem after1_5 (c : Dev nD) (t : Fin cfg1.N) : (dat1 V c).after 5 t = (scAt V c t.val t.isLt).2.1 := by dsimp only [dat1]
theorem after1_6 (c : Dev nD) (t : Fin cfg1.N) : (dat1 V c).after 6 t = (scAt V c t.val t.isLt).2.2.1 := by dsimp only [dat1]
theorem after1_7 (c : Dev nD) (t : Fin cfg1.N) : (dat1 V c).after 7 t = (scAt V c t.val t.isLt).2.2.2 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-! ## The invariant, position by position -/

theorem PhiS_zero (c : Dev nD) (n : ℕ) (h : n ≤ cfg1.N) (hz : n = 0) : PhiS V c n h = Pipeline.ΦA spec1 c := by
  subst hz; rfl

/-- Before point n + 1: the accumulators at what point n left. -/
theorem PhiS_succ (c : Dev nD) (n : ℕ) (hn : n < cfg1.N) :
    PhiS V c (n + 1) hn = iprop(owns (c : Thread nD τ) scM0 fullShare (scAt V c n hn).1 ∗ owns (c : Thread nD τ) scM1 fullShare (scAt V c n hn).2.1
      ∗ owns (c : Thread nD τ) scM2 fullShare (scAt V c n hn).2.2.1 ∗ owns (c : Thread nD τ) scM3 fullShare (scAt V c n hn).2.2.2
      ∗ otherS (F := F) c ∗ (∃ r, prngReg c r)) := rfl

/-- Before a point that is not the first: the accumulators at what the point before left. -/
theorem PhiS_pos (c : Dev nD) (n : ℕ) (h : n ≤ cfg1.N) (hz : n ≠ 0) :
    PhiS V c n h = iprop(owns (c : Thread nD τ) scM0 fullShare (scAt V c (n - 1) (by omega)).1 ∗ owns (c : Thread nD τ) scM1 fullShare (scAt V c (n - 1) (by omega)).2.1
      ∗ owns (c : Thread nD τ) scM2 fullShare (scAt V c (n - 1) (by omega)).2.2.1 ∗ owns (c : Thread nD τ) scM3 fullShare (scAt V c (n - 1) (by omega)).2.2.2
      ∗ otherS (F := F) c ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The launch's invariant with the scoped rest enumerated: the untouched four buffers, then each accumulator as a
    whole memref owned at some contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-! ## The input windows' buffers at every point -/

/-- Each input's current staging buffer holds its block at every point, fetched there or not: where it is not
    fetched its block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off column tile 15 the four outputs are idle: the body stores nothing into them. -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
/-- At column tile 15 they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel
/-- Off column tile 15 the pipeline does not write the outputs' blocks back. -/
theorem noFlush1_4 (t : Fin cfg1.N) (h : ¬t.val % 16 = 15) : (cfg1.win 4).flush t = false :=
  Bool.eq_false_iff.mpr fun e => h ((flush1_4 t).mp e)
theorem noFlush1_5 (t : Fin cfg1.N) (h : ¬t.val % 16 = 15) : (cfg1.win 5).flush t = false :=
  Bool.eq_false_iff.mpr fun e => h ((flush1_5 t).mp e)
theorem noFlush1_6 (t : Fin cfg1.N) (h : ¬t.val % 16 = 15) : (cfg1.win 6).flush t = false :=
  Bool.eq_false_iff.mpr fun e => h ((flush1_6 t).mp e)
theorem noFlush1_7 (t : Fin cfg1.N) (h : ¬t.val % 16 = 15) : (cfg1.win 7).flush t = false :=
  Bool.eq_false_iff.mpr fun e => h ((flush1_7 t).mp e)

/-! ## The staging memrefs the pipeline passes -/

/-- Each window's current staging memref at point t, as the pipeline passes it to the body, and its wholeness. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)

/-! ## The invariant forgets to the launch's, and back -/

/-- The accumulators at anything, the untouched scoped buffers, the generator register: what every position's
    invariant gives when the accumulators' contents are forgotten. -/
def anyAcc (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d)
    ∗ otherS (F := F) c ∗ (∃ r, prngReg c r))

theorem PhiA1_open (c : Dev nD) : (Pipeline.ΦA spec1 c : sProp 𝕄) ⊢ anyAcc (F := F) c := by
  rw [PhiA1_eq]; unfold anyAcc otherS
  iintro ⟨⟨HA, HB, HC, HD, HS0, HS1, HS2, HS3⟩, Hg⟩
  isplitl [HS0]; · iexact HS0
  isplitl [HS1]; · iexact HS1
  isplitl [HS2]; · iexact HS2
  isplitl [HS3]; · iexact HS3
  isplitr [Hg]
  · isplitl [HA]; · iexact HA
    isplitl [HB]; · iexact HB
    isplitl [HC]; · iexact HC
    iexact HD
  iexact Hg

theorem PhiA1_close (c : Dev nD) : anyAcc (F := F) c ⊢ (Pipeline.ΦA spec1 c : sProp 𝕄) := by
  rw [PhiA1_eq]; unfold anyAcc otherS
  iintro ⟨HS0, HS1, HS2, HS3, ⟨HA, HB, HC, HD⟩, Hg⟩
  isplitr [Hg]
  · isplitl [HA]; · iexact HA
    isplitl [HB]; · iexact HB
    isplitl [HC]; · iexact HC
    isplitl [HD]; · iexact HD
    isplitl [HS0]; · iexact HS0
    isplitl [HS1]; · iexact HS1
    isplitl [HS2]; · iexact HS2
    iexact HS3
  iexact Hg

/-- Every position's invariant, with the accumulators' contents forgotten. -/
theorem PhiS_forget (c : Dev nD) (n : ℕ) (h : n ≤ cfg1.N) : PhiS V c n h ⊢ anyAcc (F := F) c := by
  cases n with
  | zero => exact PhiA1_open c
  | succ n =>
    rw [PhiS_succ]; unfold anyAcc
    iintro ⟨HS0, HS1, HS2, HS3, HO, Hg⟩
    isplitl [HS0]; · iexists _; iexact HS0
    isplitl [HS1]; · iexists _; iexact HS1
    isplitl [HS2]; · iexists _; iexact HS2
    isplitl [HS3]; · iexists _; iexact HS3
    isplitl [HO]; · iexact HO
    iexact Hg

/-! ## What the body hands back, window by window -/

theorem leaves1_0 (c : Dev nD) (t : Fin cfg1.N) : (dat1 V c).leavesExact 0 t = owns (c : Thread nD τ) (ms1_0 t) fullShare (qblk V c t) := by
  unfold Dat.leavesExact; rw [liveAt1_0 t, after1_0]
theorem leaves1_1 (c : Dev nD) (t : Fin cfg1.N) : (dat1 V c).leavesExact 1 t = owns (c : Thread nD τ) (ms1_1 t) fullShare (kblk V c t) := by
  unfold Dat.leavesExact; rw [liveAt1_1 t, after1_1]
theorem leaves1_2 (c : Dev nD) (t : Fin cfg1.N) : (dat1 V c).leavesExact 2 t = owns (c : Thread nD τ) (ms1_2 t) fullShare (qlab V c t) := by
  unfold Dat.leavesExact; rw [liveAt1_2 t, after1_2]
theorem leaves1_3 (c : Dev nD) (t : Fin cfg1.N) : (dat1 V c).leavesExact 3 t = owns (c : Thread nD τ) (ms1_3 t) fullShare (klab V c t) := by
  unfold Dat.leavesExact; rw [liveAt1_3 t, after1_3]

/-- Off column tile 15 an output's buffer is handed back as found. -/
theorem leaves1_4_idle (c : Dev nD) (t : Fin cfg1.N) (h1 : ¬t.val % 16 = 15) :
    (dat1 V c).leavesExact 4 t = iprop(∃ d, owns (c : Thread nD τ) (ms1_4 t) fullShare ((dat1 V c).before 4 t d)) :=
  Dat.leavesExact_idle (dat1 V c) 4 t (idleAt1_4 t fun h => h1 ((hcond1_1 t).mp h)) (noFlush1_4 t h1)
theorem leaves1_5_idle (c : Dev nD) (t : Fin cfg1.N) (h1 : ¬t.val % 16 = 15) :
    (dat1 V c).leavesExact 5 t = iprop(∃ d, owns (c : Thread nD τ) (ms1_5 t) fullShare ((dat1 V c).before 5 t d)) :=
  Dat.leavesExact_idle (dat1 V c) 5 t (idleAt1_5 t fun h => h1 ((hcond1_1 t).mp h)) (noFlush1_5 t h1)
theorem leaves1_6_idle (c : Dev nD) (t : Fin cfg1.N) (h1 : ¬t.val % 16 = 15) :
    (dat1 V c).leavesExact 6 t = iprop(∃ d, owns (c : Thread nD τ) (ms1_6 t) fullShare ((dat1 V c).before 6 t d)) :=
  Dat.leavesExact_idle (dat1 V c) 6 t (idleAt1_6 t fun h => h1 ((hcond1_1 t).mp h)) (noFlush1_6 t h1)
theorem leaves1_7_idle (c : Dev nD) (t : Fin cfg1.N) (h1 : ¬t.val % 16 = 15) :
    (dat1 V c).leavesExact 7 t = iprop(∃ d, owns (c : Thread nD τ) (ms1_7 t) fullShare ((dat1 V c).before 7 t d)) :=
  Dat.leavesExact_idle (dat1 V c) 7 t (idleAt1_7 t fun h => h1 ((hcond1_1 t).mp h)) (noFlush1_7 t h1)

/-- At column tile 15 it is handed back at the accumulator's new contents. -/
theorem leaves1_4_live (c : Dev nD) (t : Fin cfg1.N) (h1 : t.val % 16 = 15) :
    (dat1 V c).leavesExact 4 t = owns (c : Thread nD τ) (ms1_4 t) fullShare (scAt V c t.val t.isLt).1 := by
  unfold Dat.leavesExact; rw [liveAt1_4 t ((hcond1_1 t).mpr h1), after1_4]
theorem leaves1_5_live (c : Dev nD) (t : Fin cfg1.N) (h1 : t.val % 16 = 15) :
    (dat1 V c).leavesExact 5 t = owns (c : Thread nD τ) (ms1_5 t) fullShare (scAt V c t.val t.isLt).2.1 := by
  unfold Dat.leavesExact; rw [liveAt1_5 t ((hcond1_1 t).mpr h1), after1_5]
theorem leaves1_6_live (c : Dev nD) (t : Fin cfg1.N) (h1 : t.val % 16 = 15) :
    (dat1 V c).leavesExact 6 t = owns (c : Thread nD τ) (ms1_6 t) fullShare (scAt V c t.val t.isLt).2.2.1 := by
  unfold Dat.leavesExact; rw [liveAt1_6 t ((hcond1_1 t).mpr h1), after1_6]
theorem leaves1_7_live (c : Dev nD) (t : Fin cfg1.N) (h1 : t.val % 16 = 15) :
    (dat1 V c).leavesExact 7 t = owns (c : Thread nD τ) (ms1_7 t) fullShare (scAt V c t.val t.isLt).2.2.2 := by
  unfold Dat.leavesExact; rw [liveAt1_7 t ((hcond1_1 t).mpr h1), after1_7]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t ∗ (dat1 V c).leavesExact 7 t)

set_option maxHeartbeats 1600000 in
/-- Column tile 0: the accumulators are found at anything (the first point) or at what the row tile before left;
    the body resets them and adds this tile's sums; the outputs' buffers go back as found. -/
theorem sound_A (c : Dev nD) (t : Fin cfg1.N) (h0 : t.val % 16 = 0) :
    bodyPre1 V c t ⊢ wp frame (wpE (defs₀ (F := F)) Variants.none c none) Set.univ (bodyAt1 t) (fun _ => bodyPost1 V c t) := by
  have h1 : ¬t.val % 16 = 15 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_idle V c t h1, leaves1_5_idle V c t h1, leaves1_6_idle V c t h1, leaves1_7_idle V c t h1]
  rw [scAt_reset V c t h0, PhiS_castSucc V c t]
  refine (sep_mono_left (PhiS_forget V c _ _)).trans ?_
  unfold anyAcc
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) ((hcond1_0 t).mpr h0) (fun h => h1 ((hcond1_1 t).mp h)) (qblk V c t) (kblk V c t) (qlab V c t) (klab V c t) ((dat1 V c).before 4 t d4) ((dat1 V c).before 5 t d5) ((dat1 V c).before 6 t d6) ((dat1 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

set_option maxHeartbeats 1600000 in
/-- A middle column tile: the accumulators are found at what the point before left and each ends at this tile's
    update of it; the outputs' buffers go back as found. -/
theorem sound_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_idle V c t h1, leaves1_5_idle V c t h1, leaves1_6_idle V c t h1, leaves1_7_idle V c t h1]
  rw [scAt_acc V c t h0, PhiS_castSucc V c t, PhiS_pos V c _ _ hz]
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) (fun h => h0 ((hcond1_0 t).mp h)) (fun h => h1 ((hcond1_1 t).mp h)) (qblk V c t) (kblk V c t) (qlab V c t) (klab V c t) (scAt V c (t.val - 1) (Nat.lt_of_le_of_lt (Nat.sub_le _ _) t.isLt)) ((dat1 V c).before 4 t d4) ((dat1 V c).before 5 t d5) ((dat1 V c).before 6 t d6) ((dat1 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

set_option maxHeartbeats 1600000 in
/-- Column tile 15: as a middle tile, and each output's buffer, found at anything, is handed back at its
    accumulator's new contents, which the pipeline then writes back. -/
theorem sound_C (c : Dev nD) (t : Fin cfg1.N) (h1 : t.val % 16 = 15) :
    bodyPre1 V c t ⊢ wp frame (wpE (defs₀ (F := F)) Variants.none c none) Set.univ (bodyAt1 t) (fun _ => bodyPost1 V c t) := by
  have h0 : ¬t.val % 16 = 0 := by omega
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_live V c t h1, leaves1_5_live V c t h1, leaves1_6_live V c t h1, leaves1_7_live V c t h1]
  rw [scAt_acc V c t h0, PhiS_castSucc V c t, PhiS_pos V c _ _ hz]
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) (fun h => h0 ((hcond1_0 t).mp h)) ((hcond1_1 t).mpr h1) (qblk V c t) (kblk V c t) (qlab V c t) (klab V c t) (scAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point: the column tile says which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_A V c t h0
  · by_cases h1 : t.val % 16 = 15
    · exact sound_C V c t h1
    · exact sound_B V c t h0 h1

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_forget V c _ _).trans (PhiA1_close c)

end Cert.Kernel.Hand

end
-- ==== Proof.KB.Shares.lean ====
/-
  Region 1 reads ONE array, the normalised rows, through two windows (the row tile's block and the column tile's
  block). The seven distinct buffers behind its eight windows' arrays, each held whole, are the pipeline's
  "arrays" with that one buffer's full share split into its two halves, one per window; and back.
-/
import proofs.«124807_j51797305589975_1_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The distinct buffers behind region 1's eight windows: the normalised rows (windows 0 and 1), the two label
    arrays, and the four outputs. -/
theorem arrRefs1 : Finset.univ.image (Pipeline.arrRef spec1)
    = [main_v0, main_v1, main_v2, main_v3_0, main_v3_1, main_v3_2, main_v3_3].toFinset := by decide

/-- Those buffers, whole at V', one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = bigSepL [main_v0, main_v1, main_v2, main_v3_0, main_v3_1, main_v3_2, main_v3_3]
          (fun b => (((c.tc : Thread nD τ).loc b) ↦{fullShare} V' b : sProp 𝕄)) := by
  unfold Pipeline.arrBufs
  exact bigSep_eq_bigSepL_of_eq _ arrRefs1 (by decide) _

/-- The shares the proof data holds the arrays at: the two halves for the shared input, full elsewhere. -/
theorem share1_0 (c : Dev nD) : (dat1 V c).share 0 = fullShare.left := by
  unfold Dat.share; dsimp only [dat1]; rfl
theorem share1_1 (c : Dev nD) : (dat1 V c).share 1 = fullShare.right := by
  unfold Dat.share; dsimp only [dat1]; rfl
theorem share1_2 (c : Dev nD) : (dat1 V c).share 2 = fullShare := by
  unfold Dat.share; dsimp only [dat1]; rfl
theorem share1_3 (c : Dev nD) : (dat1 V c).share 3 = fullShare := by
  unfold Dat.share; dsimp only [dat1]; rfl
theorem share1_4 (c : Dev nD) : (dat1 V c).share 4 = fullShare := by
  unfold Dat.share; dsimp only [dat1]; rfl
theorem share1_5 (c : Dev nD) : (dat1 V c).share 5 = fullShare := by
  unfold Dat.share; dsimp only [dat1]; rfl
theorem share1_6 (c : Dev nD) : (dat1 V c).share 6 = fullShare := by
  unfold Dat.share; dsimp only [dat1]; rfl
theorem share1_7 (c : Dev nD) : (dat1 V c).share 7 = fullShare := by
  unfold Dat.share; dsimp only [dat1]; rfl

/-- The pipeline's arrays, window by window, each a whole buffer at its share. -/
theorem arrays1_eq (c : Dev nD)
    (Fa : (w : Fin cfg1.W) → Buf (Elt F) ((cfg1.win w).arr.view.loc (c.tc : Thread nD τ))) :
    (dat1 V c).arrays Fa = iprop(
      ((cfg1.win 0).arr.view.loc (c.tc : Thread nD τ) ↦{fullShare.left} Fa 0)
      ∗ ((cfg1.win 1).arr.view.loc (c.tc : Thread nD τ) ↦{fullShare.right} Fa 1)
      ∗ ((cfg1.win 2).arr.view.loc (c.tc : Thread nD τ) ↦{fullShare} Fa 2)
      ∗ ((cfg1.win 3).arr.view.loc (c.tc : Thread nD τ) ↦{fullShare} Fa 3)
      ∗ ((cfg1.win 4).arr.view.loc (c.tc : Thread nD τ) ↦{fullShare} Fa 4)
      ∗ ((cfg1.win 5).arr.view.loc (c.tc : Thread nD τ) ↦{fullShare} Fa 5)
      ∗ ((cfg1.win 6).arr.view.loc (c.tc : Thread nD τ) ↦{fullShare} Fa 6)
      ∗ ((cfg1.win 7).arr.view.loc (c.tc : Thread nD τ) ↦{fullShare} Fa 7)) := by
  unfold Dat.arrays
  rw [bigSep_W1]
  simp only [share1_0, share1_1, share1_2, share1_3, share1_4, share1_5, share1_6, share1_7, View.set_whole]

/-- ENTRY: the distinct buffers behind region 1's arrays, whole at contents V', make the pipeline's arrays at any
    family Fa that reads V' — the shared buffer's share split in two. -/
theorem arrays1_of_bufs (c : Dev nD) (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    (Pipeline.arrBufs (Ix := Unit) (Name := ℕ) (U := UR sig nD τ) (Lvl := ℕ) spec1 c V' : sProp 𝕄) ⊢ (dat1 V c).arrays Fa := by
  rw [arrBufs1_eq, arrays1_eq, hF 0, hF 1, hF 2, hF 3, hF 4, hF 5, hF 6, hF 7]
  dsimp only [bigSepL]
  refine (sep_mono (pointsTo_share (PosShare.mem_left_op_right fullShare)).1 .rfl).trans ?_
  exact sep_assoc.1

/-- EXIT: the pipeline's arrays at a family Fa that reads V' are those buffers whole at V' — the two halves joined. -/
theorem bufs_of_arrays1 (c : Dev nD) (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    (dat1 V c).arrays Fa ⊢ (Pipeline.arrBufs (Ix := Unit) (Name := ℕ) (U := UR sig nD τ) (Lvl := ℕ) spec1 c V' : sProp 𝕄) := by
  rw [arrBufs1_eq, arrays1_eq, hF 0, hF 1, hF 2, hF 3, hF 4, hF 5, hF 6, hF 7]
  dsimp only [bigSepL]
  refine sep_assoc.2.trans ?_
  exact sep_mono (pointsTo_share (PosShare.mem_left_op_right fullShare)).2 .rfl

end Cert.Kernel.Hand

end
-- ==== Proof.KB.Launch.lean ====
/-
  The run of @main: region 0, a stretch of two host operations, region 1, a stretch of twenty-three host operations.
  The contents of core c's unscoped buffers are named at each boundary: as launched; after region 0 (the normalised
  rows written back block by block into the second region's operand); after the label broadcasts; after region 1
  (its four result columns written back at each row tile's last column tile); after the closing host operations.
  Every weakly fair execution ends with every unscoped buffer at the last of these; the frame and the results'
  values are read off it.
-/
import proofs.«124807_j51797305589975_1_alg».proof.Proof.KB.Reg0
import proofs.«124807_j51797305589975_1_alg».proof.Proof.KB.Reg1
import proofs.«124807_j51797305589975_1_alg».proof.Proof.KB.Shares
import proofs.«124807_j51797305589975_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- As launched. -/
abbrev W0 (c : Dev nD) : Valuation τ sig (Elt F) := fun b => m (c, b)
abbrev E0 : Entry F := fun c b => W0 m c b
/-- After region 0: its arrays at what the write-backs leave, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : Entry F := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)
/-- After the label broadcasts. -/
abbrev W2 (c : Dev nD) : Valuation τ sig (Elt F) := StableHlo.after hostOps1 (W1 m c)
abbrev E2 : Entry F := fun c b => W2 m c b
/-- The four result columns as region 1 leaves them. -/
abbrev o4 (c : Dev nD) : Buf (Elt F) ((c : Thread nD τ).loc main_v3_0) := (dat1 (E2 m) c).arrAt 4 cfg1.N
abbrev o5 (c : Dev nD) : Buf (Elt F) ((c : Thread nD τ).loc main_v3_1) := (dat1 (E2 m) c).arrAt 5 cfg1.N
abbrev o6 (c : Dev nD) : Buf (Elt F) ((c : Thread nD τ).loc main_v3_2) := (dat1 (E2 m) c).arrAt 6 cfg1.N
abbrev o7 (c : Dev nD) : Buf (Elt F) ((c : Thread nD τ).loc main_v3_3) := (dat1 (E2 m) c).arrAt 7 cfg1.N
/-- After region 1: the four result columns replaced, every other buffer as entered. -/
def W3 (c : Dev nD) : Valuation τ sig (Elt F) :=
  Function.update (Function.update (Function.update (Function.update (W2 m c) main_v3_0 (o4 m c)) main_v3_1 (o5 m c)) main_v3_2 (o6 m c)) main_v3_3 (o7 m c)
abbrev E3 : Entry F := fun c b => W3 m c b
/-- After the closing host operations. -/
abbrev W4 (c : Dev nD) : Valuation τ sig (Elt F) := StableHlo.after hostOps2 (W3 m c)

theorem W3_of (c : Dev nD) (r : Ref sig .tc) (h : r ∉ ([main_v3_0, main_v3_1, main_v3_2, main_v3_3] : List (Ref sig .tc))) :
    W3 m c r = W2 m c r := by
  simp only [W3, Function.update_of_ne (StableHlo.devRef_ne_of_ne (List.ne_of_not_mem_cons h) : (Proc.devRef .tc r : DevRef τ sig) ≠ Proc.devRef .tc main_v3_0),
    Function.update_of_ne (StableHlo.devRef_ne_of_ne (List.ne_of_not_mem_cons (List.not_mem_of_not_mem_cons h)) : (Proc.devRef .tc r : DevRef τ sig) ≠ Proc.devRef .tc main_v3_1),
    Function.update_of_ne (StableHlo.devRef_ne_of_ne (List.ne_of_not_mem_cons (List.not_mem_of_not_mem_cons (List.not_mem_of_not_mem_cons h))) : (Proc.devRef .tc r : DevRef τ sig) ≠ Proc.devRef .tc main_v3_2),
    Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v3_3)]
theorem W3_o4 (c : Dev nD) : W3 m c main_v3_0 = o4 m c := by
  simp only [W3, Function.update_of_ne (StableHlo.devRef_ne_of_ne (by decide) : (Proc.devRef .tc main_v3_0 : DevRef τ sig) ≠ Proc.devRef .tc main_v3_1),
    Function.update_of_ne (StableHlo.devRef_ne_of_ne (by decide) : (Proc.devRef .tc main_v3_0 : DevRef τ sig) ≠ Proc.devRef .tc main_v3_2),
    Function.update_of_ne (StableHlo.devRef_ne_of_ne (by decide) : (Proc.devRef .tc main_v3_0 : DevRef τ sig) ≠ Proc.devRef .tc main_v3_3), Function.update_self]
theorem W3_o5 (c : Dev nD) : W3 m c main_v3_1 = o5 m c := by
  simp only [W3, Function.update_of_ne (StableHlo.devRef_ne_of_ne (by decide) : (Proc.devRef .tc main_v3_1 : DevRef τ sig) ≠ Proc.devRef .tc main_v3_2),
    Function.update_of_ne (StableHlo.devRef_ne_of_ne (by decide) : (Proc.devRef .tc main_v3_1 : DevRef τ sig) ≠ Proc.devRef .tc main_v3_3), Function.update_self]
theorem W3_o6 (c : Dev nD) : W3 m c main_v3_2 = o6 m c := by
  simp only [W3, Function.update_of_ne (StableHlo.devRef_ne_of_ne (by decide) : (Proc.devRef .tc main_v3_2 : DevRef τ sig) ≠ Proc.devRef .tc main_v3_3), Function.update_self]
theorem W3_o7 (c : Dev nD) : W3 m c main_v3_3 = o7 m c := by
  simp only [W3, Function.update_self]

/-- Region 1's arrays at exit are the exit valuation read at them: the four inputs unchanged, the four results. -/
theorem hF1 (c : Dev nD) (w : Fin cfg1.W) : (dat1 (E2 m) c).arrAt w cfg1.N = E3 m c (Pipeline.arrRef spec1 w) := by
  match w with
  | ⟨0, _⟩ => exact (((dat1 (E2 m) c).arrAt_in 0 rfl _).trans (A_eq1 (E2 m) c 0)).trans (W3_of m c main_v0 (by decide)).symm
  | ⟨1, _⟩ => exact (((dat1 (E2 m) c).arrAt_in 1 rfl _).trans (A_eq1 (E2 m) c 1)).trans (W3_of m c main_v0 (by decide)).symm
  | ⟨2, _⟩ => exact (((dat1 (E2 m) c).arrAt_in 2 rfl _).trans (A_eq1 (E2 m) c 2)).trans (W3_of m c main_v1 (by decide)).symm
  | ⟨3, _⟩ => exact (((dat1 (E2 m) c).arrAt_in 3 rfl _).trans (A_eq1 (E2 m) c 3)).trans (W3_of m c main_v2 (by decide)).symm
  | ⟨4, _⟩ => exact (W3_o4 m c).symm
  | ⟨5, _⟩ => exact (W3_o5 m c).symm
  | ⟨6, _⟩ => exact (W3_o6 m c).symm
  | ⟨7, _⟩ => exact (W3_o7 m c).symm
theorem hrest1 (c : Dev nD) : ∀ b, b ∉ Finset.univ.image (Pipeline.arrRef spec1) → E3 m c b = E2 m c b := by
  intro b hb
  refine W3_of m c b fun hmem => hb ?_
  simp only [List.mem_cons, List.mem_nil_iff, or_false] at hmem
  rcases hmem with rfl | rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩
  · exact Finset.mem_image.mpr ⟨7, Finset.mem_univ _, rfl⟩

/-! ## The arguments end as launched -/

/-- What a host stretch does not write it leaves. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <|
    (W1_arr m c 0).trans (((dat0 (E0 m) c).arrAt_in 0 rfl _).trans (A_eq0 (E0 m) c 0))
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <|
    W1_of_ne m c main_arg1 (by decide)

/-! ## The proof data family and the thread state -/

abbrev adm' : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer as launched, left at the first boundary. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The proof-data family's configuration for region 1 is the printed one: the two spellings of a datum's arrays and of
    its arrays after n points are the same terms. -/
theorem cfg_arrays (c : Dev nD) (Fa : (w : Fin cfg1.W) → Buf (Elt F) ((cfg1.win w).arr.view.loc (c.tc : Thread nD τ))) :
    ((dat1 (E2 m) c).arrays Fa : sProp 𝕄) = (Dat.arrays (cfg := Pipeline.pin (pcfgs (F := F)) adm' 1) (dat1 (E2 m) c) Fa) := rfl
set_option backward.isDefEq.respectTransparency.types false in
theorem cfg_arrAt (c : Dev nD) (w : Fin cfg1.W) :
    (dat1 (E2 m) c).arrAt w cfg1.N = Dat.arrAt (cfg := Pipeline.pin (pcfgs (F := F)) adm' 1) (dat1 (E2 m) c) w cfg1.N := rfl

/-- Region 1's arrays at exit, any family reading the third boundary: the distinct buffers behind them, whole. -/
theorem exit1_gen (c : Dev nD) (Fa : (w : Fin cfg1.W) → Buf (Elt F) ((cfg1.win w).arr.view.loc (c.tc : Thread nD τ)))
    (hF : ∀ w, Fa w = E3 m c (Pipeline.arrRef spec1 w)) :
    (dat1 (E2 m) c).arrays Fa ⊢ (Pipeline.arrBufs (Ix := Unit) (Name := ℕ) (U := UR sig nD τ) (Lvl := ℕ) spec1 c (E3 m c) : sProp 𝕄) :=
  bufs_of_arrays1 (E2 m) c (E3 m c) Fa hF
/-- The same at what the write-backs leave. -/
theorem exit1_bufs (c : Dev nD) :
    (dat1 (E2 m) c).arrays (fun w => (dat1 (E2 m) c).arrAt w cfg1.N)
      ⊢ (Pipeline.arrBufs (Ix := Unit) (Name := ℕ) (U := UR sig nD τ) (Lvl := ℕ) spec1 c (E3 m c) : sProp 𝕄) :=
  exit1_gen m c _ (hF1 m c)

set_option maxHeartbeats 1000000 in
set_option backward.isDefEq.respectTransparency.types false in
/-- Region 1's exit, the arrays' part: its arrays at what the write-backs leave and the other unscoped buffers as
    entered are every unscoped buffer at the third boundary — stated for any datum equal to region 1's, so that the
    launch instantiates it at the proof-data family's own spelling. -/
theorem exit1 (c : Dev nD) (D : Dat τ (Elt F) Unit ℕ (UR sig nD τ) ℕ (Pipeline.pin (pcfgs (F := F)) adm' 1) c)
    (hD : D = dat1 (E2 m) c) (N' : ℕ) (hN : N' = cfg1.N) :
    (iprop(D.arrays (D.arrAt · N') ∗ Pipeline.unscopedRest spec1 c (E2 m c)) : sProp 𝕄)
      ⊢ StableHlo.held (c : Thread nD τ) (Pipeline.ucRefs τ sig) (W3 m c) := by
  subst hD; subst hN
  have hsplit := Pipeline.unscopedBufs_split₀ (Ix := Unit) (Name := ℕ) (U := UR sig nD τ) (Lvl := ℕ) (Pipeline.pin (pcfgs (F := F)) adm') 1 winFacts₀1.arr_unscoped c (E3 m c)
  rw [Pipeline.unscopedBufs_held] at hsplit
  have hrestEq : (Pipeline.unscopedRest (Ix := Unit) (Name := ℕ) (U := UR sig nD τ) (Lvl := ℕ) spec1 c (E2 m c) : sProp 𝕄)
      = Pipeline.unscopedRest spec1 c (E3 m c) := by
    unfold Pipeline.unscopedRest
    exact bigSep_congr fun b hb => by rw [hrest1 m c b (Finset.mem_sdiff.mp hb).2]
  have e : (Dat.arrays (cfg := Pipeline.pin (pcfgs (F := F)) adm' 1) (dat1 (E2 m) c)
        (fun w => Dat.arrAt (cfg := Pipeline.pin (pcfgs (F := F)) adm' 1) (dat1 (E2 m) c) w cfg1.N) : sProp 𝕄)
      = (dat1 (E2 m) c).arrays (fun w => (dat1 (E2 m) c).arrAt w cfg1.N) :=
    (congrArg (Dat.arrays (cfg := Pipeline.pin (pcfgs (F := F)) adm' 1) (dat1 (E2 m) c)) (funext fun w => (cfg_arrAt m c w).symm)).trans
      (cfg_arrays m c _).symm
  have h1 : ((dat1 (E2 m) c).arrays (fun w => (dat1 (E2 m) c).arrAt w cfg1.N) : sProp 𝕄)
      ⊢ Pipeline.arrBufs (Ix := Unit) (Name := ℕ) (U := UR sig nD τ) (Lvl := ℕ) spec1 c (E3 m c) := exit1_bufs m c
  have h2 : (iprop((dat1 (E2 m) c).arrays (fun w => (dat1 (E2 m) c).arrAt w cfg1.N) ∗ Pipeline.unscopedRest spec1 c (E3 m c)) : sProp 𝕄)
      ⊢ iprop(Pipeline.arrBufs (Ix := Unit) (Name := ℕ) (U := UR sig nD τ) (Lvl := ℕ) spec1 c (E3 m c) ∗ Pipeline.unscopedRest spec1 c (E3 m c)) :=
    sep_mono h1 .rfl
  have hsplit1 : (StableHlo.held (c : Thread nD τ) (Pipeline.ucRefs τ sig) (W3 m c) : sProp 𝕄)
      = iprop(Pipeline.arrBufs (Ix := Unit) (Name := ℕ) (U := UR sig nD τ) (Lvl := ℕ) spec1 c (E3 m c) ∗ Pipeline.unscopedRest spec1 c (E3 m c)) := hsplit
  rw [e, hrestEq, hsplit1]
  exact h2

set_option backward.isDefEq.respectTransparency.types false in
/-- Region 1 over the thread state: entered from the second boundary, left at the third. Its arrays are split out of
    the unscoped buffers with the shared operand's share halved, and joined back at the exit. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.unscopedBufs_split₀ (Ix := Unit) (Name := ℕ) (U := UR sig nD τ) (Lvl := ℕ) (Pipeline.pin (pcfgs (F := F)) adm') 1 winFacts₀1.arr_unscoped c (E2 m c)
    rw [Pipeline.unscopedBufs_held] at hsplit
    have harrs := arrays1_of_bufs (E2 m) c (E2 m c) ((dat1 (E2 m) c).arrAt · 0) (fun w => A_eq1 (E2 m) c w)
    show iprop(iprop(StableHlo.held (c : Thread nD τ) (Pipeline.ucRefs τ sig) (W2 m c) ∗ R c) ∗ emp ∗ levAts L lv)
      ⊢ |={Set.univ}=> iprop((dat1 (E2 m) c).arrays ((dat1 (E2 m) c).arrAt · 0) ∗ Pipeline.prefHeld (pcfgs (F := F) 1).pre c (fun _ => fullShare) (adm' 1).1
        ∗ (dat1 (E2 m) c).owesAt () 0 ∗ (∃ r, prngReg c r) ∗ Pipeline.unscopedRest spec1 c (E2 m c))
    have hsplit' : StableHlo.held (c : Thread nD τ) (Pipeline.ucRefs τ sig) (W2 m c)
        ⊢ (iprop((dat1 (E2 m) c).arrays ((dat1 (E2 m) c).arrAt · 0) ∗ Pipeline.unscopedRest spec1 c (E2 m c)) : sProp 𝕄) := by
      rw [hsplit]; exact sep_mono harrs .rfl
    iintro ⟨⟨Hub, Hp, HO⟩, -, -⟩
    ihave H := hsplit' $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld (pcfgs (F := F) 1).pre c (fun _ => fullShare) (adm' 1).1 ∗ Pipeline.scopedRest spec1 c) ⊢ (dat1 (E2 m) c).Φ 0
    have h := hin1 (E2 m) c
    unfold Pipeline.ΦA at h
    iintro ⟨Hp, -, Hr⟩
    iapply h
    isplitl [Hr]; · iexact Hr
    iexact Hp
  hout c := by
    rw [Pipeline.ownSems0_none]
    show (dat1 (E2 m) c).Φ (Fin.last cfg1.N) ⊢ iprop((∃ r, prngReg c r) ∗ emp ∗ Pipeline.scopedRest spec1 c)
    have h := hout1 (E2 m) c
    unfold Pipeline.ΦA at h
    iintro HΦ
    ihave H := h $$ HΦ
    icases H with ⟨Hr, Hp⟩
    isplitl [Hp]; · iexact Hp
    isplitr; · iempintro
    iexact Hr
  hexit c := by
    iintro ⟨Ha, HO, HY, Hrest⟩
    imodintro
    isplitl [Ha Hrest]
    · iapply (exit1 m c (pdats m 1 c) rfl (Pipeline.pin (pcfgs (F := F)) adm' 1).N rfl); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩; isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m c),
    (h c _ (mem_uc main_arg1 (by decide))).trans (W4_main_arg1 m c)⟩) (run_all m ρ)

end Cert.Kernel.Hand

end
-- ==== Proof.KI.Base.lean ====
/-
  Region-entry blocks and the per-point arithmetic of the two kernel regions, stated once over literal
  vector types and generic in the float instance.

  Region 0 (row normalisation, 8 points of 1024 rows): the one output block is the body's single payload of
  the input block. Region 1 (the pairwise reduction, a 16 × 16 grid of 512 × 512 tiles): four column
  accumulators, one per reduced quantity, are reset at column tile 0, added to at every column tile, and
  copied to the four output blocks at column tile 15. "step" is one column tile's update of the four
  accumulators; "scAt" is what the accumulators hold after each grid point, by recursion on the point.
-/
import proofs.«124807_j51797305589975_1_alg».proof.Proof.Gen.KernelIdeal.Launch
import proofs.«124807_j51797305589975_1_alg».proof.Proof.Gen.KernelIdeal.Skeleton
import proofs.«124807_j51797305589975_1_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The contents of core c's TensorCore buffers when a region is entered: the parameter both regions' data are stated at. -/
abbrev Entry (F : FTy → Type) : Type := (c : Dev nD) → (b : Ref sig .tc) → Buf (Elt F) ((c : Thread nD τ).loc b)

variable (V : Entry F)

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 1024 × 128 block of rows region 0 normalises at point t. -/
abbrev xblk (c : Dev nD) (t : Fin cfg0.N) : Vec F S1024x128 .f32 := iblk0 V c 0 t

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's 512 normalised rows, the column tile's 512 normalised rows, the row tile's labels (a column) and the
    column tile's labels (a row) at point t. -/
abbrev qblk (c : Dev nD) (t : Fin cfg1.N) : Vec F S512x128 .bf16 := iblk1 V c 0 t
abbrev kblk (c : Dev nD) (t : Fin cfg1.N) : Vec F S512x128 .bf16 := iblk1 V c 1 t
abbrev qlab (c : Dev nD) (t : Fin cfg1.N) : Vec F S512x1 .i32 := iblk1 V c 2 t
abbrev klab (c : Dev nD) (t : Fin cfg1.N) : Vec F S1x512 .i32 := iblk1 V c 3 t

/-- The four accumulators' contents, as one tuple. -/
abbrev Acc (F : FTy → Type) : Type := Vec F S512x1 .f32 × Vec F S512x1 .f32 × Vec F S512x1 .f32 × Vec F S512x1 .f32

/-- The accumulators as the reset at column tile 0 leaves them. -/
def acc0 : Acc F := (k1_pay1, k1_pay2, k1_pay3, k1_pay4)

/-- One grid point's update: each accumulator plus this tile's partial row sum of its quantity
    (masked exponentials over same-label off-diagonal pairs, over different-label pairs; masked similarities likewise). -/
def step (i : grid1.Coords) (q k : Vec F S512x128 .bf16) (ql : Vec F S512x1 .i32) (kl : Vec F S1x512 .i32) (a : Acc F) : Acc F :=
  (k1_pay12 (k1_pay10 i q k ql kl) a.1,
   k1_pay13 (k1_pay11 q k ql kl) a.2.1,
   k1_pay14 (k1_pay5 q k) (k1_pay7 i ql kl) a.2.2.1,
   k1_pay15 (k1_pay5 q k) (k1_pay8 ql kl) a.2.2.2)

/-- What the accumulators hold after grid point n: the point's update of the reset contents at a column tile 0, else of
    what the point before left. -/
def scAt (c : Dev nD) : (n : ℕ) → n < cfg1.N → Acc F
  | 0, h => step (grid1.coords ⟨0, h⟩) (qblk V c ⟨0, h⟩) (kblk V c ⟨0, h⟩) (qlab V c ⟨0, h⟩) (klab V c ⟨0, h⟩) acc0
  | n + 1, h => step (grid1.coords ⟨n + 1, h⟩) (qblk V c ⟨n + 1, h⟩) (kblk V c ⟨n + 1, h⟩) (qlab V c ⟨n + 1, h⟩) (klab V c ⟨n + 1, h⟩)
      (if (n + 1) % 16 = 0 then acc0 else scAt c n (Nat.lt_of_succ_lt h))

/-- At a column tile 0 the update starts from the reset contents. -/
theorem scAt_reset (c : Dev nD) (t : Fin cfg1.N) (h0 : t.val % 16 = 0) :
    scAt V c t.val t.isLt = step (grid1.coords t) (qblk V c t) (kblk V c t) (qlab V c t) (klab V c t) acc0 := by
  obtain ⟨n, hn⟩ := t
  cases n with
  | zero => rfl
  | succ n => exact congrArg _ (if_pos h0)

/-- At any other column tile it starts from what the point before left. -/
theorem scAt_acc (c : Dev nD) (t : Fin cfg1.N) (h0 : ¬ t.val % 16 = 0) :
    scAt V c t.val t.isLt = step (grid1.coords t) (qblk V c t) (kblk V c t) (qlab V c t) (klab V c t)
      (scAt V c (t.val - 1) (Nat.lt_of_le_of_lt (Nat.sub_le _ _) t.isLt)) := by
  obtain ⟨n, hn⟩ := t
  cases n with
  | zero => exact absurd (Nat.zero_mod _) h0
  | succ n => exact congrArg _ (if_neg h0)

end Cert.KernelIdeal.Hand

end
-- ==== Proof.KI.Reg0.lean ====
/-
  Region 0, the row normalisation: its proof data and body obligation at any entry contents.
  The body loads the 1024 × 128 input block, divides each row by the larger of its Euclidean norm and the
  floor constant, and stores the result whole into the output block; so after the body the output's staging
  buffer holds that one payload of the input block, the input's buffer its block, and the region's
  invariant is the untouched scoped rest.
-/
import proofs.«124807_j51797305589975_1_alg».proof.Proof.KI.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The proof data of region 0 on core c: arrays as entered; after the body the input's buffer at its block and the
    output's at the normalised block; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (xblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (xblk V c t) := by dsimp only [dat0]

/-- The input's current staging buffer holds its block at every point: the window is fetched at every point, never cut
    and never idle, and the body leaves the block in place, so fetched or not the buffer reads the array's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body's accesses -/

/-- The one rectangle the body loads and stores through: the whole 1024 × 128 buffer at zero offsets. -/
abbrev r0_0 : Rect S1024x128 := Rect.unit (s := S1024x128) ![0, 0] S1024x128.size inb_S1024x128_S1024x128_0_0

/-- Its offsets are zero on both axes. -/
theorem zeros0 : (![0, 0] : Fin S1024x128.rank → Nat) = fun _ => 0 := by
  funext a; fin_cases a <;> rfl

/-- The one store covers the output buffer: every index lies in the whole-buffer rectangle. -/
theorem cover0_1 (p0 : Vec F S1024x128 .bf16) (y : S1024x128.Idx) :
    ∃ pc ∈ ([⟨r0_0, p0⟩] : List (View.Piece (Elt F) S1024x128 .bf16)), y ∈ pc.1.set :=
  ⟨_, List.mem_singleton_self _, View.mem_set_unit_zero zeros0 inb_S1024x128_S1024x128_0_0 y⟩

/-! ## The body's triple -/

set_option maxHeartbeats 1000000 in
/-- The kernel body on whole staging buffers, the input's at contents x0 and the output's at anything, runs to the
    continuation with the input's buffer as it was and the output's at the payload of x0: the load reads x0 through
    the whole-buffer rectangle, the second load's value is never used, and the single store through the same rectangle
    overwrites every entry with the payload. -/
theorem sound_kernel0 (c : Dev nD) (E : Set ℕ) (i : grid0.Coords)
    (arg0 : Memref sig .tc .vmem S1024x128 .f32) (harg0 : arg0.IsWhole)
    (arg1 : Memref sig .tc .vmem S1024x128 .bf16) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k0_pay1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover0_1 _), View.canon_unit_zero zeros0]
  simp only [View.readAt_eq_ld, View.ld_unit_zero (S := S1024x128) zeros0]

/-! ## The body obligation, at a generic point -/

/-- What the body is called with at point t: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant and debts, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies at that block; the
    invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (xblk V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Run.lean ====
/-
  Region 1's kernel body on any whole staging memrefs, in each of the three cases its two conditionals meet
  on the 16 × 16 grid: column tile 0 (the accumulators are reset, then added to; the output blocks are not touched),
  a middle column tile (added to only), column tile 15 (added to, then copied into the four output blocks).
  In every case the inputs' buffers are handed back as found and each accumulator ends at "step" of what the
  additions started from.
-/
import proofs.«124807_j51797305589975_1_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset's condition, from the grid coordinates: column tile 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out's condition: column tile 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The whole-buffer rectangle's offsets are zero on both axes. -/
theorem run1_hz : (![0, 0] : Fin 2 → ℕ) = fun _ => 0 := funext fun a => by fin_cases a <;> rfl

/-- A buffer read after a store through its whole shape, the last of any stores, holds that store's payload:
    the last piece covers every index, and over it the canonical contents are its payload. -/
theorem run1_read_store {sg : RefSig} {κ : Kind} {sp : Space} {S : Shape} {e : EltTy} (v : View sg κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 4000000 in
/-- Column tile 0: the accumulators, found at anything, end at the update of the reset contents; the output
    blocks' buffers are handed back untouched. -/
theorem run1_A (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : cond1_0 i) (hc1 : ¬cond1_1 i) (q k : Vec F S512x128 .bf16) (ql : Vec F S512x1 .i32) (kl : Vec F S1x512 .i32) (x4 x5 x6 x7 : Vec F S512x1 .f32) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (step i q k ql kl acc0).1 ∗ owns (c : Thread nD τ) arg11 fullShare (step i q k ql kl acc0).2.1 ∗ owns (c : Thread nD τ) arg12 fullShare (step i q k ql kl acc0).2.2.1 ∗ owns (c : Thread nD τ) arg13 fullShare (step i q k ql kl acc0).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    rotate_left
    · iexact H10
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl
  · iexists _; isplitr
    rotate_left
    · iexact H13
    · ipureintro
      refine (run1_read_store _ _ run1_hz _ _ _).trans ?_
      sl_unfold_words
      simp only [View.readAt_eq_ld, harg2.read_unread, harg3.read_unread, harg4.read_unread, harg5.read_unread,
        View.readCov_unit_zero (S := S512x1) _ run1_hz,
        View.ld_unit_zero (S := S512x1) run1_hz, View.ld_unit_zero (S := S512x128) run1_hz, View.ld_unit_zero (S := S1x512) run1_hz]
      rfl

set_option maxHeartbeats 4000000 in
/-- A middle column tile: each accumulator ends at the update of what it held. -/
theorem run1_B (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : ¬cond1_1 i) (q k : Vec F S512x128 .bf16) (ql : Vec F S512x1 .i32) (kl : Vec F S1x512 .i32) (a : Acc F) (x4 x5 x6 x7 : Vec F S512x1 .f32) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (step i q k ql kl a).1 ∗ owns (c : Thread nD τ) arg11 fullShare (step i q k ql kl a).2.1 ∗ owns (c : Thread nD τ) arg12 fullShare (step i q k ql kl a).2.2.1 ∗ owns (c : Thread nD τ) arg13 fullShare (step i q k ql kl a).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    rotate_left
    · iexact H10
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  iexists _; isplitr
  rotate_left
  · iexact H13
  · ipureintro
    refine (run1_read_store _ _ run1_hz _ _ []).trans ?_
    simp only [View.readAt_eq_ld, harg2.read_unread, harg3.read_unread, harg4.read_unread, harg5.read_unread,
      harg10.read_unread, harg11.read_unread, harg12.read_unread, harg13.read_unread,
      View.ld_unit_zero (S := S512x1) run1_hz, View.ld_unit_zero (S := S512x128) run1_hz, View.ld_unit_zero (S := S1x512) run1_hz]
    rfl

set_option maxHeartbeats 4000000 in
/-- Column tile 15: as a middle tile, and each output block's buffer, found at anything, ends at its accumulator's
    new contents. -/
theorem run1_C (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : cond1_1 i) (q k : Vec F S512x128 .bf16) (ql : Vec F S512x1 .i32) (kl : Vec F S1x512 .i32) (a : Acc F) (E : Set ℕ) (K : PUnit → sProp 𝕄) :
    iprop(owns (c : Thread nD τ) arg2 fullShare q ∗ owns (c : Thread nD τ) arg3 fullShare k ∗ owns (c : Thread nD τ) arg4 fullShare ql ∗ owns (c : Thread nD τ) arg5 fullShare kl
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare q ∗ owns (c : Thread nD τ) arg3 fullShare k ∗ owns (c : Thread nD τ) arg4 fullShare ql ∗ owns (c : Thread nD τ) arg5 fullShare kl
            ∗ owns (c : Thread nD τ) arg6 fullShare (step i q k ql kl a).1 ∗ owns (c : Thread nD τ) arg7 fullShare (step i q k ql kl a).2.1 ∗ owns (c : Thread nD τ) arg8 fullShare (step i q k ql kl a).2.2.1 ∗ owns (c : Thread nD τ) arg9 fullShare (step i q k ql kl a).2.2.2
            ∗ owns (c : Thread nD τ) arg10 fullShare (step i q k ql kl a).1 ∗ owns (c : Thread nD τ) arg11 fullShare (step i q k ql kl a).2.1 ∗ owns (c : Thread nD τ) arg12 fullShare (step i q k ql kl a).2.2.1 ∗ owns (c : Thread nD τ) arg13 fullShare (step i q k ql kl a).2.2.2) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9 arg10 harg10 arg11 harg11 arg12 harg12 arg13 harg13) K := by
  simp only [cc1__sim_kernel_eq_skeleton]; unfold cc1__sim_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left
    · iexact H6
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H7]
  · iexists _; isplitr
    rotate_left
    · iexact H7
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H8]
  · iexists _; isplitr
    rotate_left
    · iexact H8
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H9]
  · iexists _; isplitr
    rotate_left
    · iexact H9
    · ipureintro
      refine (run1_read_store _ _ run1_hz _ _ []).trans ?_
      sl_unfold_words
      refine (View.readCov_unit_zero _ run1_hz _ _).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H10]
  · iexists _; isplitr
    rotate_left
    · iexact H10
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H11]
  · iexists _; isplitr
    rotate_left
    · iexact H11
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  isplitl [H12]
  · iexists _; isplitr
    rotate_left
    · iexact H12
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl
  · iexists _; isplitr
    rotate_left
    · iexact H13
    · ipureintro
      refine (run1_read_store _ _ run1_hz _ _ []).trans ?_
      simp only [View.readAt_eq_ld, harg2.read_unread, harg3.read_unread, harg4.read_unread, harg5.read_unread,
        harg10.read_unread, harg11.read_unread, harg12.read_unread, harg13.read_unread,
        View.ld_unit_zero (S := S512x1) run1_hz, View.ld_unit_zero (S := S512x128) run1_hz, View.ld_unit_zero (S := S1x512) run1_hz]
      rfl

end Cert.KernelIdeal.Hand

end
-- ==== Proof.KI.Reg1.lean ====
/-
  Region 1, the pairwise reduction: its proof data and body obligation at any entry contents.
  The four accumulators are scratch buffers the kernel carries from grid point to grid point, so the region's
  invariant before point n + 1 names their contents after point n ("scAt"); before the first point it is the
  untouched scoped rest. The four output windows are idle except at column tile 15, where each is handed the
  accumulator's contents and written back. The two operands of the similarity product are windows of ONE array,
  held at the two halves of the full share.
-/
import proofs.«124807_j51797305589975_1_alg».proof.Proof.KI.Base
import proofs.«124807_j51797305589975_1_alg».proof.Proof.KI.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The four accumulators: whole scoped buffers of the kernel's own. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2
abbrev scM3 : Memref sig .tc .vmem S512x1 .f32 := Memref.whole cc1_scratch3

/-- The scoped buffers of the core that are neither a staging buffer nor an accumulator of this region (the row
    normalisation's four staging buffers), each whole at some contents: the region never touches them. -/
def otherS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position n: at the first point the scoped rest at anything and the generator
    register; afterwards each accumulator at what the point before left, the untouched scoped buffers at anything,
    and the generator register. -/
def PhiS (c : Dev nD) : (n : ℕ) → n ≤ cfg1.N → sProp 𝕄
  | 0, _ => Pipeline.ΦA spec1 c
  | n + 1, hn => iprop(owns (c : Thread nD τ) scM0 fullShare (scAt V c n hn).1 ∗ owns (c : Thread nD τ) scM1 fullShare (scAt V c n hn).2.1
      ∗ owns (c : Thread nD τ) scM2 fullShare (scAt V c n hn).2.2.1 ∗ owns (c : Thread nD τ) scM3 fullShare (scAt V c n hn).2.2.2
      ∗ otherS (F := F) c ∗ (∃ r, prngReg c r))

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (scAt V c t.val t.isLt).1
    | ⟨5, _⟩ => (scAt V c t.val t.isLt).2.1
    | ⟨6, _⟩ => (scAt V c t.val t.isLt).2.2.1
    | ⟨7, _⟩ => (scAt V c t.val t.isLt).2.2.2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = (scAt V c t.val t.isLt).1 := by dsimp only [dat1]
theorem after1_5 (c : Dev nD) (t : Fin cfg1.N) : (dat1 V c).after 5 t = (scAt V c t.val t.isLt).2.1 := by dsimp only [dat1]
theorem after1_6 (c : Dev nD) (t : Fin cfg1.N) : (dat1 V c).after 6 t = (scAt V c t.val t.isLt).2.2.1 := by dsimp only [dat1]
theorem after1_7 (c : Dev nD) (t : Fin cfg1.N) : (dat1 V c).after 7 t = (scAt V c t.val t.isLt).2.2.2 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-! ## The invariant, position by position -/

theorem PhiS_zero (c : Dev nD) (n : ℕ) (h : n ≤ cfg1.N) (hz : n = 0) : PhiS V c n h = Pipeline.ΦA spec1 c := by
  subst hz; rfl

/-- Before point n + 1: the accumulators at what point n left. -/
theorem PhiS_succ (c : Dev nD) (n : ℕ) (hn : n < cfg1.N) :
    PhiS V c (n + 1) hn = iprop(owns (c : Thread nD τ) scM0 fullShare (scAt V c n hn).1 ∗ owns (c : Thread nD τ) scM1 fullShare (scAt V c n hn).2.1
      ∗ owns (c : Thread nD τ) scM2 fullShare (scAt V c n hn).2.2.1 ∗ owns (c : Thread nD τ) scM3 fullShare (scAt V c n hn).2.2.2
      ∗ otherS (F := F) c ∗ (∃ r, prngReg c r)) := rfl

/-- Before a point that is not the first: the accumulators at what the point before left. -/
theorem PhiS_pos (c : Dev nD) (n : ℕ) (h : n ≤ cfg1.N) (hz : n ≠ 0) :
    PhiS V c n h = iprop(owns (c : Thread nD τ) scM0 fullShare (scAt V c (n - 1) (by omega)).1 ∗ owns (c : Thread nD τ) scM1 fullShare (scAt V c (n - 1) (by omega)).2.1
      ∗ owns (c : Thread nD τ) scM2 fullShare (scAt V c (n - 1) (by omega)).2.2.1 ∗ owns (c : Thread nD τ) scM3 fullShare (scAt V c (n - 1) (by omega)).2.2.2
      ∗ otherS (F := F) c ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The launch's invariant with the scoped rest enumerated: the untouched four buffers, then each accumulator as a
    whole memref owned at some contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-! ## The input windows' buffers at every point -/

/-- Each input's current staging buffer holds its block at every point, fetched there or not: where it is not
    fetched its block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off column tile 15 the four outputs are idle: the body stores nothing into them. -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
/-- At column tile 15 they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel
/-- Off column tile 15 the pipeline does not write the outputs' blocks back. -/
theorem noFlush1_4 (t : Fin cfg1.N) (h : ¬t.val % 16 = 15) : (cfg1.win 4).flush t = false :=
  Bool.eq_false_iff.mpr fun e => h ((flush1_4 t).mp e)
theorem noFlush1_5 (t : Fin cfg1.N) (h : ¬t.val % 16 = 15) : (cfg1.win 5).flush t = false :=
  Bool.eq_false_iff.mpr fun e => h ((flush1_5 t).mp e)
theorem noFlush1_6 (t : Fin cfg1.N) (h : ¬t.val % 16 = 15) : (cfg1.win 6).flush t = false :=
  Bool.eq_false_iff.mpr fun e => h ((flush1_6 t).mp e)
theorem noFlush1_7 (t : Fin cfg1.N) (h : ¬t.val % 16 = 15) : (cfg1.win 7).flush t = false :=
  Bool.eq_false_iff.mpr fun e => h ((flush1_7 t).mp e)

/-! ## The staging memrefs the pipeline passes -/

/-- Each window's current staging memref at point t, as the pipeline passes it to the body, and its wholeness. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)

/-! ## The invariant forgets to the launch's, and back -/

/-- The accumulators at anything, the untouched scoped buffers, the generator register: what every position's
    invariant gives when the accumulators' contents are forgotten. -/
def anyAcc (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d)
    ∗ otherS (F := F) c ∗ (∃ r, prngReg c r))

theorem PhiA1_open (c : Dev nD) : (Pipeline.ΦA spec1 c : sProp 𝕄) ⊢ anyAcc (F := F) c := by
  rw [PhiA1_eq]; unfold anyAcc otherS
  iintro ⟨⟨HA, HB, HC, HD, HS0, HS1, HS2, HS3⟩, Hg⟩
  isplitl [HS0]; · iexact HS0
  isplitl [HS1]; · iexact HS1
  isplitl [HS2]; · iexact HS2
  isplitl [HS3]; · iexact HS3
  isplitr [Hg]
  · isplitl [HA]; · iexact HA
    isplitl [HB]; · iexact HB
    isplitl [HC]; · iexact HC
    iexact HD
  iexact Hg

theorem PhiA1_close (c : Dev nD) : anyAcc (F := F) c ⊢ (Pipeline.ΦA spec1 c : sProp 𝕄) := by
  rw [PhiA1_eq]; unfold anyAcc otherS
  iintro ⟨HS0, HS1, HS2, HS3, ⟨HA, HB, HC, HD⟩, Hg⟩
  isplitr [Hg]
  · isplitl [HA]; · iexact HA
    isplitl [HB]; · iexact HB
    isplitl [HC]; · iexact HC
    isplitl [HD]; · iexact HD
    isplitl [HS0]; · iexact HS0
    isplitl [HS1]; · iexact HS1
    isplitl [HS2]; · iexact HS2
    iexact HS3
  iexact Hg

/-- Every position's invariant, with the accumulators' contents forgotten. -/
theorem PhiS_forget (c : Dev nD) (n : ℕ) (h : n ≤ cfg1.N) : PhiS V c n h ⊢ anyAcc (F := F) c := by
  cases n with
  | zero => exact PhiA1_open c
  | succ n =>
    rw [PhiS_succ]; unfold anyAcc
    iintro ⟨HS0, HS1, HS2, HS3, HO, Hg⟩
    isplitl [HS0]; · iexists _; iexact HS0
    isplitl [HS1]; · iexists _; iexact HS1
    isplitl [HS2]; · iexists _; iexact HS2
    isplitl [HS3]; · iexists _; iexact HS3
    isplitl [HO]; · iexact HO
    iexact Hg

/-! ## What the body hands back, window by window -/

theorem leaves1_0 (c : Dev nD) (t : Fin cfg1.N) : (dat1 V c).leavesExact 0 t = owns (c : Thread nD τ) (ms1_0 t) fullShare (qblk V c t) := by
  unfold Dat.leavesExact; rw [liveAt1_0 t, after1_0]
theorem leaves1_1 (c : Dev nD) (t : Fin cfg1.N) : (dat1 V c).leavesExact 1 t = owns (c : Thread nD τ) (ms1_1 t) fullShare (kblk V c t) := by
  unfold Dat.leavesExact; rw [liveAt1_1 t, after1_1]
theorem leaves1_2 (c : Dev nD) (t : Fin cfg1.N) : (dat1 V c).leavesExact 2 t = owns (c : Thread nD τ) (ms1_2 t) fullShare (qlab V c t) := by
  unfold Dat.leavesExact; rw [liveAt1_2 t, after1_2]
theorem leaves1_3 (c : Dev nD) (t : Fin cfg1.N) : (dat1 V c).leavesExact 3 t = owns (c : Thread nD τ) (ms1_3 t) fullShare (klab V c t) := by
  unfold Dat.leavesExact; rw [liveAt1_3 t, after1_3]

/-- Off column tile 15 an output's buffer is handed back as found. -/
theorem leaves1_4_idle (c : Dev nD) (t : Fin cfg1.N) (h1 : ¬t.val % 16 = 15) :
    (dat1 V c).leavesExact 4 t = iprop(∃ d, owns (c : Thread nD τ) (ms1_4 t) fullShare ((dat1 V c).before 4 t d)) :=
  Dat.leavesExact_idle (dat1 V c) 4 t (idleAt1_4 t fun h => h1 ((hcond1_1 t).mp h)) (noFlush1_4 t h1)
theorem leaves1_5_idle (c : Dev nD) (t : Fin cfg1.N) (h1 : ¬t.val % 16 = 15) :
    (dat1 V c).leavesExact 5 t = iprop(∃ d, owns (c : Thread nD τ) (ms1_5 t) fullShare ((dat1 V c).before 5 t d)) :=
  Dat.leavesExact_idle (dat1 V c) 5 t (idleAt1_5 t fun h => h1 ((hcond1_1 t).mp h)) (noFlush1_5 t h1)
theorem leaves1_6_idle (c : Dev nD) (t : Fin cfg1.N) (h1 : ¬t.val % 16 = 15) :
    (dat1 V c).leavesExact 6 t = iprop(∃ d, owns (c : Thread nD τ) (ms1_6 t) fullShare ((dat1 V c).before 6 t d)) :=
  Dat.leavesExact_idle (dat1 V c) 6 t (idleAt1_6 t fun h => h1 ((hcond1_1 t).mp h)) (noFlush1_6 t h1)
theorem leaves1_7_idle (c : Dev nD) (t : Fin cfg1.N) (h1 : ¬t.val % 16 = 15) :
    (dat1 V c).leavesExact 7 t = iprop(∃ d, owns (c : Thread nD τ) (ms1_7 t) fullShare ((dat1 V c).before 7 t d)) :=
  Dat.leavesExact_idle (dat1 V c) 7 t (idleAt1_7 t fun h => h1 ((hcond1_1 t).mp h)) (noFlush1_7 t h1)

/-- At column tile 15 it is handed back at the accumulator's new contents. -/
theorem leaves1_4_live (c : Dev nD) (t : Fin cfg1.N) (h1 : t.val % 16 = 15) :
    (dat1 V c).leavesExact 4 t = owns (c : Thread nD τ) (ms1_4 t) fullShare (scAt V c t.val t.isLt).1 := by
  unfold Dat.leavesExact; rw [liveAt1_4 t ((hcond1_1 t).mpr h1), after1_4]
theorem leaves1_5_live (c : Dev nD) (t : Fin cfg1.N) (h1 : t.val % 16 = 15) :
    (dat1 V c).leavesExact 5 t = owns (c : Thread nD τ) (ms1_5 t) fullShare (scAt V c t.val t.isLt).2.1 := by
  unfold Dat.leavesExact; rw [liveAt1_5 t ((hcond1_1 t).mpr h1), after1_5]
theorem leaves1_6_live (c : Dev nD) (t : Fin cfg1.N) (h1 : t.val % 16 = 15) :
    (dat1 V c).leavesExact 6 t = owns (c : Thread nD τ) (ms1_6 t) fullShare (scAt V c t.val t.isLt).2.2.1 := by
  unfold Dat.leavesExact; rw [liveAt1_6 t ((hcond1_1 t).mpr h1), after1_6]
theorem leaves1_7_live (c : Dev nD) (t : Fin cfg1.N) (h1 : t.val % 16 = 15) :
    (dat1 V c).leavesExact 7 t = owns (c : Thread nD τ) (ms1_7 t) fullShare (scAt V c t.val t.isLt).2.2.2 := by
  unfold Dat.leavesExact; rw [liveAt1_7 t ((hcond1_1 t).mpr h1), after1_7]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t ∗ (dat1 V c).leavesExact 7 t)

set_option maxHeartbeats 1600000 in
/-- Column tile 0: the accumulators are found at anything (the first point) or at what the row tile before left;
    the body resets them and adds this tile's sums; the outputs' buffers go back as found. -/
theorem sound_A (c : Dev nD) (t : Fin cfg1.N) (h0 : t.val % 16 = 0) :
    bodyPre1 V c t ⊢ wp frame (wpE (defs₀ (F := F)) Variants.none c none) Set.univ (bodyAt1 t) (fun _ => bodyPost1 V c t) := by
  have h1 : ¬t.val % 16 = 15 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_idle V c t h1, leaves1_5_idle V c t h1, leaves1_6_idle V c t h1, leaves1_7_idle V c t h1]
  rw [scAt_reset V c t h0, PhiS_castSucc V c t]
  refine (sep_mono_left (PhiS_forget V c _ _)).trans ?_
  unfold anyAcc
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) ((hcond1_0 t).mpr h0) (fun h => h1 ((hcond1_1 t).mp h)) (qblk V c t) (kblk V c t) (qlab V c t) (klab V c t) ((dat1 V c).before 4 t d4) ((dat1 V c).before 5 t d5) ((dat1 V c).before 6 t d6) ((dat1 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

set_option maxHeartbeats 1600000 in
/-- A middle column tile: the accumulators are found at what the point before left and each ends at this tile's
    update of it; the outputs' buffers go back as found. -/
theorem sound_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_idle V c t h1, leaves1_5_idle V c t h1, leaves1_6_idle V c t h1, leaves1_7_idle V c t h1]
  rw [scAt_acc V c t h0, PhiS_castSucc V c t, PhiS_pos V c _ _ hz]
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) (fun h => h0 ((hcond1_0 t).mp h)) (fun h => h1 ((hcond1_1 t).mp h)) (qblk V c t) (kblk V c t) (qlab V c t) (klab V c t) (scAt V c (t.val - 1) (Nat.lt_of_le_of_lt (Nat.sub_le _ _) t.isLt)) ((dat1 V c).before 4 t d4) ((dat1 V c).before 5 t d5) ((dat1 V c).before 6 t d6) ((dat1 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

set_option maxHeartbeats 1600000 in
/-- Column tile 15: as a middle tile, and each output's buffer, found at anything, is handed back at its
    accumulator's new contents, which the pipeline then writes back. -/
theorem sound_C (c : Dev nD) (t : Fin cfg1.N) (h1 : t.val % 16 = 15) :
    bodyPre1 V c t ⊢ wp frame (wpE (defs₀ (F := F)) Variants.none c none) Set.univ (bodyAt1 t) (fun _ => bodyPost1 V c t) := by
  have h0 : ¬t.val % 16 = 0 := by omega
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4_live V c t h1, leaves1_5_live V c t h1, leaves1_6_live V c t h1, leaves1_7_live V c t h1]
  rw [scAt_acc V c t h0, PhiS_castSucc V c t, PhiS_pos V c _ _ hz]
  iintro ⟨⟨HS0, HS1, HS2, HS3, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM0 (Memref.isWhole_whole _) scM1 (Memref.isWhole_whole _) scM2 (Memref.isWhole_whole _) scM3 (Memref.isWhole_whole _) (fun h => h0 ((hcond1_0 t).mp h)) ((hcond1_1 t).mpr h1) (qblk V c t) (kblk V c t) (qlab V c t) (klab V c t) (scAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HO Hg]
  · isplitl [HS0]; · iexact HS0
    isplitl [HS1]; · iexact HS1
    isplitl [HS2]; · iexact HS2
    isplitl [HS3]; · iexact HS3
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point: the column tile says which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_A V c t h0
  · by_cases h1 : t.val % 16 = 15
    · exact sound_C V c t h1
    · exact sound_B V c t h0 h1

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_forget V c _ _).trans (PhiA1_close c)

end Cert.KernelIdeal.Hand

end
-- ==== Proof.KI.Shares.lean ====
/-
  Region 1 reads ONE array, the normalised rows, through two windows (the row tile's block and the column tile's
  block). The seven distinct buffers behind its eight windows' arrays, each held whole, are the pipeline's
  "arrays" with that one buffer's full share split into its two halves, one per window; and back.
-/
import proofs.«124807_j51797305589975_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The distinct buffers behind region 1's eight windows: the normalised rows (windows 0 and 1), the two label
    arrays, and the four outputs. -/
theorem arrRefs1 : Finset.univ.image (Pipeline.arrRef spec1)
    = [main_v0, main_v1, main_v2, main_v3_0, main_v3_1, main_v3_2, main_v3_3].toFinset := by decide

/-- Those buffers, whole at V', one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = bigSepL [main_v0, main_v1, main_v2, main_v3_0, main_v3_1, main_v3_2, main_v3_3]
          (fun b => (((c.tc : Thread nD τ).loc b) ↦{fullShare} V' b : sProp 𝕄)) := by
  unfold Pipeline.arrBufs
  exact bigSep_eq_bigSepL_of_eq _ arrRefs1 (by decide) _

/-- The shares the proof data holds the arrays at: the two halves for the shared input, full elsewhere. -/
theorem share1_0 (c : Dev nD) : (dat1 V c).share 0 = fullShare.left := by
  unfold Dat.share; dsimp only [dat1]; rfl
theorem share1_1 (c : Dev nD) : (dat1 V c).share 1 = fullShare.right := by
  unfold Dat.share; dsimp only [dat1]; rfl
theorem share1_2 (c : Dev nD) : (dat1 V c).share 2 = fullShare := by
  unfold Dat.share; dsimp only [dat1]; rfl
theorem share1_3 (c : Dev nD) : (dat1 V c).share 3 = fullShare := by
  unfold Dat.share; dsimp only [dat1]; rfl
theorem share1_4 (c : Dev nD) : (dat1 V c).share 4 = fullShare := by
  unfold Dat.share; dsimp only [dat1]; rfl
theorem share1_5 (c : Dev nD) : (dat1 V c).share 5 = fullShare := by
  unfold Dat.share; dsimp only [dat1]; rfl
theorem share1_6 (c : Dev nD) : (dat1 V c).share 6 = fullShare := by
  unfold Dat.share; dsimp only [dat1]; rfl
theorem share1_7 (c : Dev nD) : (dat1 V c).share 7 = fullShare := by
  unfold Dat.share; dsimp only [dat1]; rfl

/-- The pipeline's arrays, window by window, each a whole buffer at its share. -/
theorem arrays1_eq (c : Dev nD)
    (Fa : (w : Fin cfg1.W) → Buf (Elt F) ((cfg1.win w).arr.view.loc (c.tc : Thread nD τ))) :
    (dat1 V c).arrays Fa = iprop(
      ((cfg1.win 0).arr.view.loc (c.tc : Thread nD τ) ↦{fullShare.left} Fa 0)
      ∗ ((cfg1.win 1).arr.view.loc (c.tc : Thread nD τ) ↦{fullShare.right} Fa 1)
      ∗ ((cfg1.win 2).arr.view.loc (c.tc : Thread nD τ) ↦{fullShare} Fa 2)
      ∗ ((cfg1.win 3).arr.view.loc (c.tc : Thread nD τ) ↦{fullShare} Fa 3)
      ∗ ((cfg1.win 4).arr.view.loc (c.tc : Thread nD τ) ↦{fullShare} Fa 4)
      ∗ ((cfg1.win 5).arr.view.loc (c.tc : Thread nD τ) ↦{fullShare} Fa 5)
      ∗ ((cfg1.win 6).arr.view.loc (c.tc : Thread nD τ) ↦{fullShare} Fa 6)
      ∗ ((cfg1.win 7).arr.view.loc (c.tc : Thread nD τ) ↦{fullShare} Fa 7)) := by
  unfold Dat.arrays
  rw [bigSep_W1]
  simp only [share1_0, share1_1, share1_2, share1_3, share1_4, share1_5, share1_6, share1_7, View.set_whole]

/-- ENTRY: the distinct buffers behind region 1's arrays, whole at contents V', make the pipeline's arrays at any
    family Fa that reads V' — the shared buffer's share split in two. -/
theorem arrays1_of_bufs (c : Dev nD) (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    (Pipeline.arrBufs (Ix := Unit) (Name := ℕ) (U := UR sig nD τ) (Lvl := ℕ) spec1 c V' : sProp 𝕄) ⊢ (dat1 V c).arrays Fa := by
  rw [arrBufs1_eq, arrays1_eq, hF 0, hF 1, hF 2, hF 3, hF 4, hF 5, hF 6, hF 7]
  dsimp only [bigSepL]
  refine (sep_mono (pointsTo_share (PosShare.mem_left_op_right fullShare)).1 .rfl).trans ?_
  exact sep_assoc.1

/-- EXIT: the pipeline's arrays at a family Fa that reads V' are those buffers whole at V' — the two halves joined. -/
theorem bufs_of_arrays1 (c : Dev nD) (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    (dat1 V c).arrays Fa ⊢ (Pipeline.arrBufs (Ix := Unit) (Name := ℕ) (U := UR sig nD τ) (Lvl := ℕ) spec1 c V' : sProp 𝕄) := by
  rw [arrBufs1_eq, arrays1_eq, hF 0, hF 1, hF 2, hF 3, hF 4, hF 5, hF 6, hF 7]
  dsimp only [bigSepL]
  refine sep_assoc.2.trans ?_
  exact sep_mono (pointsTo_share (PosShare.mem_left_op_right fullShare)).2 .rfl

end Cert.KernelIdeal.Hand

end
-- ==== Proof.KI.Launch.lean ====
/-
  The run of @main: region 0, a stretch of two host operations, region 1, a stretch of twenty-three host operations.
  The contents of core c's unscoped buffers are named at each boundary: as launched; after region 0 (the normalised
  rows written back block by block into the second region's operand); after the label broadcasts; after region 1
  (its four result columns written back at each row tile's last column tile); after the closing host operations.
  Every weakly fair execution ends with every unscoped buffer at the last of these; the frame and the results'
  values are read off it.
-/
import proofs.«124807_j51797305589975_1_alg».proof.Proof.KI.Reg0
import proofs.«124807_j51797305589975_1_alg».proof.Proof.KI.Reg1
import proofs.«124807_j51797305589975_1_alg».proof.Proof.KI.Shares
import proofs.«124807_j51797305589975_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- As launched. -/
abbrev W0 (c : Dev nD) : Valuation τ sig (Elt F) := fun b => m (c, b)
abbrev E0 : Entry F := fun c b => W0 m c b
/-- After region 0: its arrays at what the write-backs leave, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : Entry F := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)
/-- After the label broadcasts. -/
abbrev W2 (c : Dev nD) : Valuation τ sig (Elt F) := StableHlo.after hostOps1 (W1 m c)
abbrev E2 : Entry F := fun c b => W2 m c b
/-- The four result columns as region 1 leaves them. -/
abbrev o4 (c : Dev nD) : Buf (Elt F) ((c : Thread nD τ).loc main_v3_0) := (dat1 (E2 m) c).arrAt 4 cfg1.N
abbrev o5 (c : Dev nD) : Buf (Elt F) ((c : Thread nD τ).loc main_v3_1) := (dat1 (E2 m) c).arrAt 5 cfg1.N
abbrev o6 (c : Dev nD) : Buf (Elt F) ((c : Thread nD τ).loc main_v3_2) := (dat1 (E2 m) c).arrAt 6 cfg1.N
abbrev o7 (c : Dev nD) : Buf (Elt F) ((c : Thread nD τ).loc main_v3_3) := (dat1 (E2 m) c).arrAt 7 cfg1.N
/-- After region 1: the four result columns replaced, every other buffer as entered. -/
def W3 (c : Dev nD) : Valuation τ sig (Elt F) :=
  Function.update (Function.update (Function.update (Function.update (W2 m c) main_v3_0 (o4 m c)) main_v3_1 (o5 m c)) main_v3_2 (o6 m c)) main_v3_3 (o7 m c)
abbrev E3 : Entry F := fun c b => W3 m c b
/-- After the closing host operations. -/
abbrev W4 (c : Dev nD) : Valuation τ sig (Elt F) := StableHlo.after hostOps2 (W3 m c)

theorem W3_of (c : Dev nD) (r : Ref sig .tc) (h : r ∉ ([main_v3_0, main_v3_1, main_v3_2, main_v3_3] : List (Ref sig .tc))) :
    W3 m c r = W2 m c r := by
  simp only [W3, Function.update_of_ne (StableHlo.devRef_ne_of_ne (List.ne_of_not_mem_cons h) : (Proc.devRef .tc r : DevRef τ sig) ≠ Proc.devRef .tc main_v3_0),
    Function.update_of_ne (StableHlo.devRef_ne_of_ne (List.ne_of_not_mem_cons (List.not_mem_of_not_mem_cons h)) : (Proc.devRef .tc r : DevRef τ sig) ≠ Proc.devRef .tc main_v3_1),
    Function.update_of_ne (StableHlo.devRef_ne_of_ne (List.ne_of_not_mem_cons (List.not_mem_of_not_mem_cons (List.not_mem_of_not_mem_cons h))) : (Proc.devRef .tc r : DevRef τ sig) ≠ Proc.devRef .tc main_v3_2),
    Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v3_3)]
theorem W3_o4 (c : Dev nD) : W3 m c main_v3_0 = o4 m c := by
  simp only [W3, Function.update_of_ne (StableHlo.devRef_ne_of_ne (by decide) : (Proc.devRef .tc main_v3_0 : DevRef τ sig) ≠ Proc.devRef .tc main_v3_1),
    Function.update_of_ne (StableHlo.devRef_ne_of_ne (by decide) : (Proc.devRef .tc main_v3_0 : DevRef τ sig) ≠ Proc.devRef .tc main_v3_2),
    Function.update_of_ne (StableHlo.devRef_ne_of_ne (by decide) : (Proc.devRef .tc main_v3_0 : DevRef τ sig) ≠ Proc.devRef .tc main_v3_3), Function.update_self]
theorem W3_o5 (c : Dev nD) : W3 m c main_v3_1 = o5 m c := by
  simp only [W3, Function.update_of_ne (StableHlo.devRef_ne_of_ne (by decide) : (Proc.devRef .tc main_v3_1 : DevRef τ sig) ≠ Proc.devRef .tc main_v3_2),
    Function.update_of_ne (StableHlo.devRef_ne_of_ne (by decide) : (Proc.devRef .tc main_v3_1 : DevRef τ sig) ≠ Proc.devRef .tc main_v3_3), Function.update_self]
theorem W3_o6 (c : Dev nD) : W3 m c main_v3_2 = o6 m c := by
  simp only [W3, Function.update_of_ne (StableHlo.devRef_ne_of_ne (by decide) : (Proc.devRef .tc main_v3_2 : DevRef τ sig) ≠ Proc.devRef .tc main_v3_3), Function.update_self]
theorem W3_o7 (c : Dev nD) : W3 m c main_v3_3 = o7 m c := by
  simp only [W3, Function.update_self]

/-- Region 1's arrays at exit are the exit valuation read at them: the four inputs unchanged, the four results. -/
theorem hF1 (c : Dev nD) (w : Fin cfg1.W) : (dat1 (E2 m) c).arrAt w cfg1.N = E3 m c (Pipeline.arrRef spec1 w) := by
  match w with
  | ⟨0, _⟩ => exact (((dat1 (E2 m) c).arrAt_in 0 rfl _).trans (A_eq1 (E2 m) c 0)).trans (W3_of m c main_v0 (by decide)).symm
  | ⟨1, _⟩ => exact (((dat1 (E2 m) c).arrAt_in 1 rfl _).trans (A_eq1 (E2 m) c 1)).trans (W3_of m c main_v0 (by decide)).symm
  | ⟨2, _⟩ => exact (((dat1 (E2 m) c).arrAt_in 2 rfl _).trans (A_eq1 (E2 m) c 2)).trans (W3_of m c main_v1 (by decide)).symm
  | ⟨3, _⟩ => exact (((dat1 (E2 m) c).arrAt_in 3 rfl _).trans (A_eq1 (E2 m) c 3)).trans (W3_of m c main_v2 (by decide)).symm
  | ⟨4, _⟩ => exact (W3_o4 m c).symm
  | ⟨5, _⟩ => exact (W3_o5 m c).symm
  | ⟨6, _⟩ => exact (W3_o6 m c).symm
  | ⟨7, _⟩ => exact (W3_o7 m c).symm
theorem hrest1 (c : Dev nD) : ∀ b, b ∉ Finset.univ.image (Pipeline.arrRef spec1) → E3 m c b = E2 m c b := by
  intro b hb
  refine W3_of m c b fun hmem => hb ?_
  simp only [List.mem_cons, List.mem_nil_iff, or_false] at hmem
  rcases hmem with rfl | rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩
  · exact Finset.mem_image.mpr ⟨7, Finset.mem_univ _, rfl⟩

/-! ## The arguments end as launched -/

/-- What a host stretch does not write it leaves. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c main_arg0 = m ((c : Thread nD τ).loc main_arg0) :=
  (W4_of m c main_arg0 (by decide)).trans <| (W3_of m c main_arg0 (by decide)).trans <| (W2_of m c main_arg0 (by decide)).trans <|
    (W1_arr m c 0).trans (((dat0 (E0 m) c).arrAt_in 0 rfl _).trans (A_eq0 (E0 m) c 0))
theorem W4_main_arg1 (c : Dev nD) : W4 m c main_arg1 = m ((c : Thread nD τ).loc main_arg1) :=
  (W4_of m c main_arg1 (by decide)).trans <| (W3_of m c main_arg1 (by decide)).trans <| (W2_of m c main_arg1 (by decide)).trans <|
    W1_of_ne m c main_arg1 (by decide)

/-! ## The proof data family and the thread state -/

abbrev adm' : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer as launched, left at the first boundary. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The proof-data family's configuration for region 1 is the printed one: the two spellings of a datum's arrays and of
    its arrays after n points are the same terms. -/
theorem cfg_arrays (c : Dev nD) (Fa : (w : Fin cfg1.W) → Buf (Elt F) ((cfg1.win w).arr.view.loc (c.tc : Thread nD τ))) :
    ((dat1 (E2 m) c).arrays Fa : sProp 𝕄) = (Dat.arrays (cfg := Pipeline.pin (pcfgs (F := F)) adm' 1) (dat1 (E2 m) c) Fa) := rfl
set_option backward.isDefEq.respectTransparency.types false in
theorem cfg_arrAt (c : Dev nD) (w : Fin cfg1.W) :
    (dat1 (E2 m) c).arrAt w cfg1.N = Dat.arrAt (cfg := Pipeline.pin (pcfgs (F := F)) adm' 1) (dat1 (E2 m) c) w cfg1.N := rfl

/-- Region 1's arrays at exit, any family reading the third boundary: the distinct buffers behind them, whole. -/
theorem exit1_gen (c : Dev nD) (Fa : (w : Fin cfg1.W) → Buf (Elt F) ((cfg1.win w).arr.view.loc (c.tc : Thread nD τ)))
    (hF : ∀ w, Fa w = E3 m c (Pipeline.arrRef spec1 w)) :
    (dat1 (E2 m) c).arrays Fa ⊢ (Pipeline.arrBufs (Ix := Unit) (Name := ℕ) (U := UR sig nD τ) (Lvl := ℕ) spec1 c (E3 m c) : sProp 𝕄) :=
  bufs_of_arrays1 (E2 m) c (E3 m c) Fa hF
/-- The same at what the write-backs leave. -/
theorem exit1_bufs (c : Dev nD) :
    (dat1 (E2 m) c).arrays (fun w => (dat1 (E2 m) c).arrAt w cfg1.N)
      ⊢ (Pipeline.arrBufs (Ix := Unit) (Name := ℕ) (U := UR sig nD τ) (Lvl := ℕ) spec1 c (E3 m c) : sProp 𝕄) :=
  exit1_gen m c _ (hF1 m c)

set_option maxHeartbeats 1000000 in
set_option backward.isDefEq.respectTransparency.types false in
/-- Region 1's exit, the arrays' part: its arrays at what the write-backs leave and the other unscoped buffers as
    entered are every unscoped buffer at the third boundary — stated for any datum equal to region 1's, so that the
    launch instantiates it at the proof-data family's own spelling. -/
theorem exit1 (c : Dev nD) (D : Dat τ (Elt F) Unit ℕ (UR sig nD τ) ℕ (Pipeline.pin (pcfgs (F := F)) adm' 1) c)
    (hD : D = dat1 (E2 m) c) (N' : ℕ) (hN : N' = cfg1.N) :
    (iprop(D.arrays (D.arrAt · N') ∗ Pipeline.unscopedRest spec1 c (E2 m c)) : sProp 𝕄)
      ⊢ StableHlo.held (c : Thread nD τ) (Pipeline.ucRefs τ sig) (W3 m c) := by
  subst hD; subst hN
  have hsplit := Pipeline.unscopedBufs_split₀ (Ix := Unit) (Name := ℕ) (U := UR sig nD τ) (Lvl := ℕ) (Pipeline.pin (pcfgs (F := F)) adm') 1 winFacts₀1.arr_unscoped c (E3 m c)
  rw [Pipeline.unscopedBufs_held] at hsplit
  have hrestEq : (Pipeline.unscopedRest (Ix := Unit) (Name := ℕ) (U := UR sig nD τ) (Lvl := ℕ) spec1 c (E2 m c) : sProp 𝕄)
      = Pipeline.unscopedRest spec1 c (E3 m c) := by
    unfold Pipeline.unscopedRest
    exact bigSep_congr fun b hb => by rw [hrest1 m c b (Finset.mem_sdiff.mp hb).2]
  have e : (Dat.arrays (cfg := Pipeline.pin (pcfgs (F := F)) adm' 1) (dat1 (E2 m) c)
        (fun w => Dat.arrAt (cfg := Pipeline.pin (pcfgs (F := F)) adm' 1) (dat1 (E2 m) c) w cfg1.N) : sProp 𝕄)
      = (dat1 (E2 m) c).arrays (fun w => (dat1 (E2 m) c).arrAt w cfg1.N) :=
    (congrArg (Dat.arrays (cfg := Pipeline.pin (pcfgs (F := F)) adm' 1) (dat1 (E2 m) c)) (funext fun w => (cfg_arrAt m c w).symm)).trans
      (cfg_arrays m c _).symm
  have h1 : ((dat1 (E2 m) c).arrays (fun w => (dat1 (E2 m) c).arrAt w cfg1.N) : sProp 𝕄)
      ⊢ Pipeline.arrBufs (Ix := Unit) (Name := ℕ) (U := UR sig nD τ) (Lvl := ℕ) spec1 c (E3 m c) := exit1_bufs m c
  have h2 : (iprop((dat1 (E2 m) c).arrays (fun w => (dat1 (E2 m) c).arrAt w cfg1.N) ∗ Pipeline.unscopedRest spec1 c (E3 m c)) : sProp 𝕄)
      ⊢ iprop(Pipeline.arrBufs (Ix := Unit) (Name := ℕ) (U := UR sig nD τ) (Lvl := ℕ) spec1 c (E3 m c) ∗ Pipeline.unscopedRest spec1 c (E3 m c)) :=
    sep_mono h1 .rfl
  have hsplit1 : (StableHlo.held (c : Thread nD τ) (Pipeline.ucRefs τ sig) (W3 m c) : sProp 𝕄)
      = iprop(Pipeline.arrBufs (Ix := Unit) (Name := ℕ) (U := UR sig nD τ) (Lvl := ℕ) spec1 c (E3 m c) ∗ Pipeline.unscopedRest spec1 c (E3 m c)) := hsplit
  rw [e, hrestEq, hsplit1]
  exact h2

set_option backward.isDefEq.respectTransparency.types false in
/-- Region 1 over the thread state: entered from the second boundary, left at the third. Its arrays are split out of
    the unscoped buffers with the shared operand's share halved, and joined back at the exit. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.unscopedBufs_split₀ (Ix := Unit) (Name := ℕ) (U := UR sig nD τ) (Lvl := ℕ) (Pipeline.pin (pcfgs (F := F)) adm') 1 winFacts₀1.arr_unscoped c (E2 m c)
    rw [Pipeline.unscopedBufs_held] at hsplit
    have harrs := arrays1_of_bufs (E2 m) c (E2 m c) ((dat1 (E2 m) c).arrAt · 0) (fun w => A_eq1 (E2 m) c w)
    show iprop(iprop(StableHlo.held (c : Thread nD τ) (Pipeline.ucRefs τ sig) (W2 m c) ∗ R c) ∗ emp ∗ levAts L lv)
      ⊢ |={Set.univ}=> iprop((dat1 (E2 m) c).arrays ((dat1 (E2 m) c).arrAt · 0) ∗ Pipeline.prefHeld (pcfgs (F := F) 1).pre c (fun _ => fullShare) (adm' 1).1
        ∗ (dat1 (E2 m) c).owesAt () 0 ∗ (∃ r, prngReg c r) ∗ Pipeline.unscopedRest spec1 c (E2 m c))
    have hsplit' : StableHlo.held (c : Thread nD τ) (Pipeline.ucRefs τ sig) (W2 m c)
        ⊢ (iprop((dat1 (E2 m) c).arrays ((dat1 (E2 m) c).arrAt · 0) ∗ Pipeline.unscopedRest spec1 c (E2 m c)) : sProp 𝕄) := by
      rw [hsplit]; exact sep_mono harrs .rfl
    iintro ⟨⟨Hub, Hp, HO⟩, -, -⟩
    ihave H := hsplit' $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld (pcfgs (F := F) 1).pre c (fun _ => fullShare) (adm' 1).1 ∗ Pipeline.scopedRest spec1 c) ⊢ (dat1 (E2 m) c).Φ 0
    have h := hin1 (E2 m) c
    unfold Pipeline.ΦA at h
    iintro ⟨Hp, -, Hr⟩
    iapply h
    isplitl [Hr]; · iexact Hr
    iexact Hp
  hout c := by
    rw [Pipeline.ownSems0_none]
    show (dat1 (E2 m) c).Φ (Fin.last cfg1.N) ⊢ iprop((∃ r, prngReg c r) ∗ emp ∗ Pipeline.scopedRest spec1 c)
    have h := hout1 (E2 m) c
    unfold Pipeline.ΦA at h
    iintro HΦ
    ihave H := h $$ HΦ
    icases H with ⟨Hr, Hp⟩
    isplitl [Hp]; · iexact Hp
    isplitr; · iempintro
    iexact Hr
  hexit c := by
    iintro ⟨Ha, HO, HY, Hrest⟩
    imodintro
    isplitl [Ha Hrest]
    · iapply (exit1 m c (pdats m 1 c) rfl (Pipeline.pin (pcfgs (F := F)) adm' 1).N rfl); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩; isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m c),
    (h c _ (mem_uc main_arg1 (by decide))).trans (W4_main_arg1 m c)⟩) (run_all m ρ)

end Cert.KernelIdeal.Hand

end
-- ==== Proof.Spec.lean ====
/-
  What both programs compute, as plain functions over the extended reals of the feature rows x (8192 rows of 128
  entries) and the labels lab (8192 words).

  Z is the row normalisation: each entry divided by the larger of its row's Euclidean norm and the floor constant
  (the f32 word nearest 1e-12, read at its exact binary value). For normalised rows z, G is their Gram matrix and Ex
  the exponential of twice G. A pair (r, c) is "pos" when the labels agree and r ≠ c, "neg" when the labels differ.
  NUM and DEN are the row sums of Ex over the pos and over the neg pairs, POS and NEG the row sums of G over them.
  The loss is the mean over the rows of -log ((NUM + ε) / (DEN + NUM)); the two other results are the totals of
  POS and of NEG over 8192², the number of pairs.
-/
import Idealize.ShloMosaic.PureOps.Ideal
import Idealize.ShloMosaic.Lib.ValueIdx

noncomputable section

namespace Cert.Spec

open Idealize.ShloMosaic

/-- The floor of the norm: the f32 word 0x2B8CBCCC at its exact value. -/
def floorC : EReal := Ideal.ofBits .f32 0x2B8CBCCC#32
/-- The temperature's reciprocal, 2: the f32 word 0x40000000. -/
def two : EReal := Ideal.ofBits .f32 0x40000000#32
/-- The loss's ε: the f32 word 0x322BCC77 at its exact value. -/
def eps8 : EReal := Ideal.ofBits .f32 0x322BCC77#32
/-- 8192, the number of rows. -/
def c8192 : EReal := Ideal.ofBits .f32 0x46000000#32
/-- 8192², the number of pairs. -/
def c2p26 : EReal := Ideal.ofBits .f32 0x4C800000#32

/-! ## The normalisation -/

/-- Row r's sum of squares. -/
def sq (x : Fin 8192 → Fin 128 → EReal) (r : Fin 8192) : EReal := ∑ d : Fin 128, x r d * x r d

/-- The normalised rows. -/
def Z (x : Fin 8192 → Fin 128 → EReal) (r : Fin 8192) (d : Fin 128) : EReal :=
  Ideal.div (x r d) (max (Ideal.sqrt (sq x r)) floorC)

/-! ## The pairwise quantities, of normalised rows z and labels lab -/

variable (z : Fin 8192 → Fin 128 → EReal) (lab : Fin 8192 → BitVec 32)

/-- The Gram matrix. -/
def G (r c : Fin 8192) : EReal := ∑ d : Fin 128, z r d * z c d
/-- The exponential of the similarity over the temperature. -/
def Ex (r c : Fin 8192) : EReal := Ideal.exp (G z r c * two)

/-- Same label, different position. -/
def pos (r c : Fin 8192) : Prop := lab r = lab c ∧ r ≠ c
/-- Different labels. -/
def neg (r c : Fin 8192) : Prop := lab r ≠ lab c

instance (r c : Fin 8192) : Decidable (pos lab r c) := by unfold pos; infer_instance
instance (r c : Fin 8192) : Decidable (neg lab r c) := by unfold neg; infer_instance

def NUM (r : Fin 8192) : EReal := ∑ c : Fin 8192, if pos lab r c then Ex z r c else 0
def DEN (r : Fin 8192) : EReal := ∑ c : Fin 8192, if neg lab r c then Ex z r c else 0
def POS (r : Fin 8192) : EReal := ∑ c : Fin 8192, if pos lab r c then G z r c else 0
def NEG (r : Fin 8192) : EReal := ∑ c : Fin 8192, if neg lab r c then G z r c else 0

/-! ## The closing expressions -/

/-- The mean over the rows of -log ((num + ε) / (den + num)). -/
def lossOf (num den : Fin 8192 → EReal) : EReal :=
  Ideal.div (∑ r : Fin 8192, -(Ideal.log (Ideal.div (num r + eps8) (den r + num r)))) c8192
/-- A column's total over the number of pairs. -/
def meanOf (f : Fin 8192 → EReal) : EReal := Ideal.div (∑ r : Fin 8192, f r) c2p26

/-- A row sum over 8192 columns is the sum over the 16 column tiles of the tile's 512 columns: the grouping of a
    finite sum in a commutative monoid. -/
theorem sum_tiles {M : Type*} [AddCommMonoid M] (f : Fin 8192 → M) :
    ∑ c : Fin 8192, f c = ∑ j : Fin 16, ∑ k : Fin 512, f ⟨512 * j.val + k.val, by omega⟩ := by
  rw [← Equiv.sum_comp (finProdFinEquiv : Fin 16 × Fin 512 ≃ Fin 8192) f, Fintype.sum_prod_type]
  refine Finset.sum_congr rfl fun j _ => Finset.sum_congr rfl fun k _ => congrArg f (Fin.ext ?_)
  show k.val + 512 * j.val = 512 * j.val + k.val
  omega

end Cert.Spec

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KI.ValZ.lean ====
/-
  Region 0's output array at the extended reals: after the eight write-backs the array of normalised rows holds,
  at row r and entry d, the feature entry divided by the larger of its row's Euclidean norm and the floor constant.
  Each grid point writes back the 1024-row block it normalised; the eight blocks tile the array.
-/
import proofs.«124807_j51797305589975_1_alg».proof.Proof.KI.Reg0
import proofs.«124807_j51797305589975_1_alg».proof.Proof.Spec
import proofs.«124807_j51797305589975_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## The payload at an index -/

/-- The sum over the 128 entries of a row: the one-axis reduction read at row p. -/
theorem rowSum_apply (v : FVec Ideal S1024x128 .f32) (h : S1024x128.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ d : Fin 128, v (ix2 p d) := by
  refine (Ideal.multiReduction_add_single v 0x00000000#32 h hφ hacc (ix1 p)).trans ?_
  refine Finset.sum_congr rfl fun d _ => congrArg v ?_
  funext a; apply Fin.ext
  match a with
  | ⟨0, _⟩ => rfl
  | ⟨1, _⟩ => rfl

/-- The normalisation payload of a 1024 × 128 block, at row p and entry d: the entry over the larger of the row's
    Euclidean norm and the floor constant. -/
theorem pay_apply (x0 : Vec Ideal S1024x128 .f32) (p : Fin 1024) (d : Fin 128) :
    (k0_pay1 x0 : S1024x128.Idx → EReal) (ix2 p d)
      = Ideal.div (x0 (ix2 p d)) (max (Ideal.sqrt (∑ d' : Fin 128, x0 (ix2 p d') * x0 (ix2 p d'))) Cert.Spec.floorC) := by
  unfold k0_pay1
  show Ideal.div (x0 (ix2 p d)) (broadcastTo S1024x128 _ broadcasts_S1024x1_S1024x128 (ix2 p d)) = _
  rw [Keepdims.broadcastTo_a1_ab_apply]
  show Ideal.div _ (max (Ideal.sqrt (shapeCast S1024x1 _ shapeCasts_S1024_S1024x1 (ix2 p (0 : Fin 1)))) (Ideal.ofBits .f32 0x2B8CBCCC#32)) = _
  rw [Keepdims.shapeCast_a_a1_apply, rowSum_apply]
  rfl

/-! ## The blocks in the arrays -/

/-- The block index maps over the grid: at point t both windows' blocks are block row t, block column 0; and the grid
    has eight points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ t.val < 8 :=
  (by decide +kernel : ∀ t : Fin grid0.N, _)

/-- The input block at point t holds rows 1024·t … 1024·t + 1023 of the feature array. -/
theorem xblk_apply (V : Entry Ideal) (c : Dev nD) (t : Fin cfg0.N) (p : Fin 1024) (d : Fin 128)
    (h : 1024 * t.val + p.val < 8192) :
    (xblk V c t : S1024x128.Idx → EReal) (ix2 p d)
      = (V c main_arg0 : S8192x128.Idx → EReal) (ix2 (⟨1024 * t.val + p.val, h⟩ : Fin 8192) d) := by
  show (V c main_arg0 : S8192x128.Idx → EReal) (((cfg0.win 0).blk t).view.emb (ix2 p d)) = _
  congr 1
  obtain ⟨e0, e1, -, -, -⟩ := idx_facts t
  funext a; apply Fin.ext
  match a with
  | ⟨0, _⟩ => show win0_0.index t (0 : Fin 2) * 1024 + 1 * p.val = 1024 * t.val + p.val; omega
  | ⟨1, _⟩ => show win0_0.index t (1 : Fin 2) * 128 + 1 * d.val = d.val; omega

/-- The output block at point t sits at rows 1024·t … 1024·t + 1023 of the output array. -/
theorem oblk_emb (t : Fin cfg0.N) (p : Fin 1024) (d : Fin 128) (h : 1024 * t.val + p.val < 8192) :
    ((cfg0.win 1).blk t).view.emb (ix2 p d) = (ix2 (⟨1024 * t.val + p.val, h⟩ : Fin 8192) d : S8192x128.Idx) := by
  obtain ⟨-, -, e0, e1, -⟩ := idx_facts t
  funext a; apply Fin.ext
  match a with
  | ⟨0, _⟩ => show win0_1.index t (0 : Fin 2) * 1024 + 1 * p.val = 1024 * t.val + p.val; omega
  | ⟨1, _⟩ => show win0_1.index t (1 : Fin 2) * 128 + 1 * d.val = d.val; omega

/-- The normalised rows of a feature array, as one function of the array index. -/
def zOf (x : S8192x128.Idx → EReal) : S8192x128.Idx → EReal :=
  fun i => Cert.Spec.Z (fun r d => x (ix2 r d)) ⟨(i 0).val, idx2_lt0 i⟩ ⟨(i 1).val, idx2_lt1 i⟩

theorem zOf_apply (x : S8192x128.Idx → EReal) (r : Fin 8192) (d : Fin 128) :
    zOf x (ix2 r d) = Cert.Spec.Z (fun r d => x (ix2 r d)) r d := rfl

/-- What point t writes back is block t of the normalised rows of the feature array. -/
theorem flushed_eq (V : Entry Ideal) (c : Dev nD) (t : Fin cfg0.N) :
    (dat0 V c).flushed 1 t = ((cfg0.win 1).blk t).view.read (Elt Ideal) (zOf (V c main_arg0)) := by
  show (cfg0.win 1).cut (grid0.coords t) ((dat0 V c).after 1 t) = _
  rw [after0_1]
  funext j
  obtain ⟨p, d, rfl⟩ : ∃ (p : Fin 1024) (d : Fin 128), j = ix2 p d := ⟨j 0, j 1, eq_ix2 j⟩
  have ht : t.val < 8 := (idx_facts t).2.2.2.2
  have h : 1024 * t.val + p.val < 8192 := by have := p.isLt; omega
  show (k0_pay1 (xblk V c t) : S1024x128.Idx → EReal) (ix2 p d) = zOf (V c main_arg0) (((cfg0.win 1).blk t).view.emb (ix2 p d))
  rw [pay_apply, oblk_emb t p d h, zOf_apply]
  unfold Cert.Spec.Z Cert.Spec.sq
  simp only [xblk_apply V c t _ _ h]

/-- An index of the output array is in point t's block iff each coordinate is in the block's range on its axis. -/
theorem mem_blk (t : Fin cfg0.N) (i : S8192x128.Idx) :
    i ∈ ((cfg0.win 1).blk t).view.set ↔ ∀ a : Fin 2, win0_1.index t a * S1024x128.size a ≤ (i a).val
      ∧ (i a).val < win0_1.index t a * S1024x128.size a + S1024x128.size a := by
  show i ∈ ((View.whole main_v0).slice (win0_1.rect t)).set ↔ _
  rw [View.set_slice_whole, Rect.mem_set_unit]
  exact Iff.rfl

/-- The eight blocks tile the output array: row r lies in the block of point r / 1024. -/
theorem cover (i : S8192x128.Idx) : ∃ t : Fin cfg0.N, (cfg0.win 1).flush t = true ∧ i ∈ ((cfg0.win 1).blk t).view.set := by
  have hi0 : (i 0).val < 8192 := (i 0).isLt
  have hi1 : (i 1).val < 128 := (i 1).isLt
  have hN : grid0.N = 8 := N_0
  let t : Fin cfg0.N := ⟨(i 0).val / 1024, by show (i 0).val / 1024 < grid0.N; omega⟩
  obtain ⟨-, -, e0, e1, -⟩ := idx_facts t
  have e0' : win0_1.index t (0 : Fin 2) = (i 0).val / 1024 := e0
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 128 ≤ (i 1).val ∧ (i 1).val < win0_1.index t (1 : Fin 2) * 128 + 128; omega

/-- The array of normalised rows as region 0 leaves it, entry by entry, from the entry contents' feature array. -/
theorem zArr_eq (V : Entry Ideal) (c : Dev nD) (r : Fin 8192) (d : Fin 128) :
    ((dat0 V c).arrAt 1 cfg0.N : S8192x128.Idx → EReal) (ix2 r d)
      = Cert.Spec.Z (fun r d => (V c main_arg0 : S8192x128.Idx → EReal) (ix2 r d)) r d :=
  (congrFun ((dat0 V c).arrAt_eq_of_cover 1 (zOf (V c main_arg0)) (fun t _ => flushed_eq V c t) cover) (ix2 r d)).trans
    (zOf_apply _ r d)

end Cert.KernelIdeal.Val

end
-- ==== Proof.KI.ValTile.lean ====
/-
  One grid point's update of the four accumulators, read at a row p of the tile, at the extended reals.
  With q the row tile's 512 normalised rows, k the column tile's, ql and kl their labels, and (i₀, i₁) the tile's
  coordinates: the similarity of rows p and c is the sum over the 128 entries of q p d · k c d; the pair is "pos"
  when the labels agree and the global positions 512·i₀ + p and 512·i₁ + c differ, "neg" when the labels differ.
  Each accumulator gains the tile's row sum of its quantity: the exponential of twice the similarity over the pos
  pairs, over the neg pairs; the similarity itself over the pos pairs, over the neg pairs. A masked-out entry
  contributes zero.

  The road: each intermediate of the update is read at one entry (p, c) of the 512 × 512 tile.
    · the block product of q with the transpose of k, accumulated from zero, is the similarity (a sum over the one
      contracted coordinate, re-indexed by that coordinate);
    · the label comparison is a one-bit word that is 1 exactly when the two labels are equal; the position
      comparison likewise, and two positions below 8192 are equal as 32-bit words exactly when they are equal as
      numbers; "exclusive or with 1" negates a bit and "and" conjoins two;
    · a select on a bit that is 1 exactly when a proposition holds is the if-then-else on that proposition;
    · a sum along the second axis, kept as a column, reads at row p the sum over the 512 columns.
-/
import proofs.«124807_j51797305589975_1_alg».proof.Proof.KI.Base
import proofs.«124807_j51797305589975_1_alg».proof.Proof.Spec
import proofs.«124807_j51797305589975_1_alg».proof.Proof.LibKeepdims
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (i : grid1.Coords) (q k : Vec Ideal S512x128 .bf16) (ql : Vec Ideal S512x1 .i32) (kl : Vec Ideal S1x512 .i32) (a : Acc Ideal)

/-- The similarity of row p of the row tile and row c of the column tile. -/
def sim (p c : Fin 512) : EReal := ∑ d : Fin 128, (q : S512x128.Idx → EReal) (ix2 p d) * (k : S512x128.Idx → EReal) (ix2 c d)
/-- Same label, different global position. -/
def tpos (p c : Fin 512) : Prop :=
  (ql : S512x1.Idx → BitVec 32) (ix2 p 0) = (kl : S1x512.Idx → BitVec 32) (ix2 0 c) ∧ 512 * (i 0).val + p.val ≠ 512 * (i 1).val + c.val
/-- Different labels. -/
def tneg (p c : Fin 512) : Prop := (ql : S512x1.Idx → BitVec 32) (ix2 p 0) ≠ (kl : S1x512.Idx → BitVec 32) (ix2 0 c)

instance (p c : Fin 512) : Decidable (tpos i ql kl p c) := by unfold tpos; infer_instance
instance (p c : Fin 512) : Decidable (tneg ql kl p c) := by unfold tneg; infer_instance

namespace Tile

/-! ## The block product at an entry -/

/-- The product's operand indices, axis by axis: at output entry j and contraction position e the left operand is read
    at (j₀, e) and the right operand at (e, j₁). -/
theorem dot_lhs_0 (j : S512x512.Idx) (e : dot_S512x128_S128x512_S512x512_1_0_0_1_n_n.contr.Idx) :
    (dot_S512x128_S128x512_S512x512_1_0_0_1_n_n.lhsIdx j e 0).val = (j 0).val := by
  simp [DotDims.lhsIdx, dot_S512x128_S128x512_S512x512_1_0_0_1_n_n]; rfl
theorem dot_lhs_1 (j : S512x512.Idx) (e : dot_S512x128_S128x512_S512x512_1_0_0_1_n_n.contr.Idx) :
    (dot_S512x128_S128x512_S512x512_1_0_0_1_n_n.lhsIdx j e 1).val = (e ⟨0, by decide⟩).val :=
  DotDims.lhsIdx_val_of_single _ rfl j e
theorem dot_rhs_0 (j : S512x512.Idx) (e : dot_S512x128_S128x512_S512x512_1_0_0_1_n_n.contr.Idx) :
    (dot_S512x128_S128x512_S512x512_1_0_0_1_n_n.rhsIdx j e 0).val = (e ⟨0, by decide⟩).val :=
  DotDims.rhsIdx_val_of_single _ rfl j e
theorem dot_rhs_1 (j : S512x512.Idx) (e : dot_S512x128_S128x512_S512x512_1_0_0_1_n_n.contr.Idx) :
    (dot_S512x128_S128x512_S512x512_1_0_0_1_n_n.rhsIdx j e 1).val = (j 1).val := by
  simp [DotDims.rhsIdx, dot_S512x128_S128x512_S512x512_1_0_0_1_n_n]; rfl

/-- The product of q with the transpose of k, from a zero accumulator, at (p, c): the similarity of rows p and c. The sum
    over the contraction index is re-indexed by its one coordinate d; the left factor is q at (p, d), the right factor
    the transpose at (d, c), which is k at (c, d). -/
theorem pay5_apply (p c : Fin 512) : (k1_pay5 q k : S512x512.Idx → EReal) (ix2 p c) = sim q k p c := by
  unfold k1_pay5 sim
  rw [shapeCast_self, shapeCast_self]
  refine (Ideal.matmul_constant_zero_apply dot_S512x128_S128x512_S512x512_1_0_0_1_n_n none _ _ _).trans ?_
  rw [← Equiv.sum_comp (contrEquiv1 dot_S512x128_S128x512_S512x512_1_0_0_1_n_n 128 rfl rfl).symm]
  refine Finset.sum_congr rfl fun d _ => ?_
  have cv := contrEquiv1_symm_val dot_S512x128_S128x512_S512x512_1_0_0_1_n_n 128 rfl rfl d
  have hl : dot_S512x128_S128x512_S512x512_1_0_0_1_n_n.lhsIdx (ix2 p c)
      ((contrEquiv1 dot_S512x128_S128x512_S512x512_1_0_0_1_n_n 128 rfl rfl).symm d) = ix2 p d := by
    funext ax; apply Fin.ext
    match ax with
    | ⟨0, _⟩ => exact dot_lhs_0 _ _
    | ⟨1, _⟩ => exact (dot_lhs_1 _ _).trans cv
  have hr : dot_S512x128_S128x512_S512x512_1_0_0_1_n_n.rhsIdx (ix2 p c)
      ((contrEquiv1 dot_S512x128_S128x512_S512x512_1_0_0_1_n_n 128 rfl rfl).symm d) = ix2 d c := by
    funext ax; apply Fin.ext
    match ax with
    | ⟨0, _⟩ => exact (dot_rhs_0 _ _).trans cv
    | ⟨1, _⟩ => exact dot_rhs_1 _ _
  rw [hl, hr, transpose_ix2_apply]

/-- The exponential of the similarity over the temperature, at (p, c): the product's entry times the constant 2, then
    the exponential. -/
theorem pay9_apply (p c : Fin 512) :
    (k1_pay9 q k : S512x512.Idx → EReal) (ix2 p c) = Ideal.exp (sim q k p c * Cert.Spec.two) := by
  unfold k1_pay9
  show Ideal.exp ((k1_pay5 q k : S512x512.Idx → EReal) (ix2 p c) * Ideal.ofBits .f32 0x40000000#32) = _
  rw [pay5_apply]; rfl

/-! ## The masks at an entry -/

/-- The label comparison at (p, c): row p's label, spread along the row, against column c's, spread down the column. -/
theorem pay6_apply (p c : Fin 512) : (k1_pay6 (F := Ideal) ql kl) (ix2 p c)
    = IntOp.cmpi .eq ((ql : S512x1.Idx → BitVec 32) (ix2 p 0)) ((kl : S1x512.Idx → BitVec 32) (ix2 0 c)) := by
  unfold k1_pay6
  show IntOp.cmpi .eq (broadcastTo S512x512 (shapeCast S512x1 ql shapeCasts_S512x1_S512x1) broadcasts_S512x1_S512x512 (ix2 p c))
      (broadcastTo S512x512 (shapeCast S1x512 kl shapeCasts_S1x512_S1x512) broadcasts_S1x512_S512x512 (ix2 p c)) = _
  rw [shapeCast_self, shapeCast_self, Keepdims.broadcastTo_a1_ab_apply, broadcastTo_1b_ab_apply]

/-- Its bit is 1 exactly when the two labels are equal. -/
theorem pay6_one_iff (p c : Fin 512) : (k1_pay6 (F := Ideal) ql kl) (ix2 p c) = 1#1
    ↔ (ql : S512x1.Idx → BitVec 32) (ix2 p 0) = (kl : S1x512.Idx → BitVec 32) (ix2 0 c) := by
  rw [pay6_apply]; exact StableHlo.Predicate.cmpi_eq_iff

/-- On one-bit words, x and (y exclusive-or 1) is 1 exactly when x is 1 and y is not. -/
theorem and_not_bit (x y : BitVec 1) : IntOp.andi x (IntOp.xori y 1#1) = 1#1 ↔ x = 1#1 ∧ ¬ y = 1#1 := by
  rcases BitVec.eq_zero_or_eq_one x with hx | hx <;> rcases BitVec.eq_zero_or_eq_one y with hy | hy <;> subst hx <;> subst hy <;> decide
/-- On one-bit words, y exclusive-or 1 is 1 exactly when y is not. -/
theorem not_bit (y : BitVec 1) : IntOp.xori y 1#1 = 1#1 ↔ ¬ y = 1#1 := by
  rcases BitVec.eq_zero_or_eq_one y with hy | hy <;> subst hy <;> decide

/-- The global position 512·t + p of row p of tile t, computed in 32-bit words, has that value: it is below 8192, far
    from wrapping. -/
theorem gid_toNat (t : ℕ) (ht : t < 16) (p : Fin 512) :
    (IntOp.addi (Scalar.muli (BitVec.ofNat 32 t) 512#32) (BitVec.ofNat 32 p.val)).toNat = 512 * t + p.val := by
  unfold IntOp.addi Scalar.muli IntOp.muli
  simp only [BitVec.toNat_add, BitVec.toNat_mul, BitVec.toNat_ofNat]
  have := p.isLt
  omega

/-- Two global positions are equal as words exactly when they are equal as numbers. -/
theorem gid_eq_iff (s t : ℕ) (hs : s < 16) (ht : t < 16) (p c : Fin 512) :
    IntOp.addi (Scalar.muli (BitVec.ofNat 32 s) 512#32) (BitVec.ofNat 32 p.val)
      = IntOp.addi (Scalar.muli (BitVec.ofNat 32 t) 512#32) (BitVec.ofNat 32 c.val) ↔ 512 * s + p.val = 512 * t + c.val := by
  rw [← BitVec.toNat_inj, gid_toNat _ hs, gid_toNat _ ht]

/-- The "pos" mask at (p, c): labels equal, and not (row position = column position), the positions being the tile's
    offset plus the coordinate along the axis. -/
theorem pay7_one_iff (p c : Fin 512) : (k1_pay7 (F := Ideal) i ql kl) (ix2 p c) = 1#1 ↔ tpos i ql kl p c := by
  have h0 : (i 0).val < 16 := (i 0).isLt
  have h1 : (i 1).val < 16 := (i 1).isLt
  unfold k1_pay7 tpos
  show IntOp.andi (k1_pay6 (F := Ideal) ql kl (ix2 p c))
      (IntOp.xori (IntOp.cmpi .eq
        (IntOp.addi (Scalar.muli (BitVec.ofNat 32 (i 0).val) 512#32) (iota .tc S512x512 32 [0] iota_S512x512_d0_w32 (ix2 p c)))
        (IntOp.addi (Scalar.muli (BitVec.ofNat 32 (i 1).val) 512#32) (iota .tc S512x512 32 [1] iota_S512x512_d1_w32 (ix2 p c)))) 1#1) = 1#1 ↔ _
  rw [and_not_bit, pay6_one_iff, StableHlo.Predicate.cmpi_eq_iff, iota_single_apply, iota_single_apply]
  show _ ∧ ¬ (IntOp.addi (Scalar.muli (BitVec.ofNat 32 (i 0).val) 512#32) (BitVec.ofNat 32 p.val)
      = IntOp.addi (Scalar.muli (BitVec.ofNat 32 (i 1).val) 512#32) (BitVec.ofNat 32 c.val)) ↔ _
  rw [gid_eq_iff _ _ h0 h1]

/-- The "neg" mask at (p, c): not (labels equal). -/
theorem pay8_one_iff (p c : Fin 512) : (k1_pay8 (F := Ideal) ql kl) (ix2 p c) = 1#1 ↔ tneg ql kl p c := by
  unfold k1_pay8 tneg
  show IntOp.xori (k1_pay6 (F := Ideal) ql kl (ix2 p c)) 1#1 = 1#1 ↔ _
  rw [not_bit, pay6_one_iff]

/-! ## A masked row sum kept as a column -/

/-- The source index over row p with column c inserted is (p, c). -/
theorem lift_row (p c : Fin 512) : (reduces_S512x512_S512 : S512x512.Reduces [1] S512).lift (ix1 p) c = ix2 p c := by
  funext ax; apply Fin.ext
  match ax with
  | ⟨0, _⟩ => rfl
  | ⟨1, _⟩ => rfl

/-- For a mask m whose bit along row p is 1 exactly where P holds, and values v that are f along row p: the sum along the
    second axis of "v where m, else zero", from a zero initial value and kept as a column, reads at row p the sum over
    the 512 columns of f where P holds and zero elsewhere. -/
theorem rowsum_apply (m : IVec S512x512 1) (v : FVec Ideal S512x512 .f32) (P : Fin 512 → Prop) [DecidablePred P]
    (f : Fin 512 → EReal) (p : Fin 512) (hm : ∀ c, m (ix2 p c) = 1#1 ↔ P c) (hv : ∀ c, v (ix2 p c) = f c) :
    shapeCast S512x1 (multiReduction (F := Ideal) .add [1] S512 (select m v (broadcast S512x512 (Scalar.ofBits (F := Ideal) .f32 0x00000000#32)))
        0x00000000#32 reduces_S512x512_S512 (.inl rfl) rfl) shapeCasts_S512_S512x1 (ix2 p 0)
      = ∑ c : Fin 512, if P c then f c else 0 := by
  rw [Keepdims.shapeCast_a_a1_apply]
  refine (Ideal.multiReduction_add_single _ _ reduces_S512x512_S512 _ _ (ix1 p)).trans ?_
  show ∑ c : Fin 512, select m v (broadcast S512x512 (Scalar.ofBits (F := Ideal) .f32 0x00000000#32))
      ((reduces_S512x512_S512 : S512x512.Reduces [1] S512).lift (ix1 p) c) = _
  refine Finset.sum_congr rfl fun c _ => ?_
  rw [lift_row, select_apply, broadcast_apply, hv]
  by_cases hP : P c
  · rw [(hm c).mpr hP, select_one, if_pos hP]
  · rw [eq_zero_of_ne_one (fun h => hP ((hm c).mp h)), select_zero, if_neg hP]
    exact Ideal.ofBits_zero_f32

/-- A column filled with the zero word reads 0 at every row. -/
theorem zero_col_apply (p : Fin 512) :
    shapeCast S512x1 (broadcast S512x1 (Scalar.ofBits (F := Ideal) .f32 0x00000000#32)) shapeCasts_S512x1_S512x1 (ix2 p 0) = (0 : EReal) := by
  rw [shapeCast_self]; exact Ideal.ofBits_zero_f32

end Tile

/-! ## The four accumulators after the update, at row p -/

theorem step_num (p : Fin 512) : ((step i q k ql kl a).1 : S512x1.Idx → EReal) (ix2 p 0)
    = (a.1 : S512x1.Idx → EReal) (ix2 p 0) + ∑ c : Fin 512, if tpos i ql kl p c then Ideal.exp (sim q k p c * Cert.Spec.two) else 0 := by
  show (k1_pay12 (k1_pay10 i q k ql kl) a.1 : S512x1.Idx → EReal) (ix2 p 0) = _
  unfold k1_pay12 k1_pay10
  rw [shapeCast_self]
  exact congrArg (fun x => (a.1 : S512x1.Idx → EReal) (ix2 p 0) + x)
    (Tile.rowsum_apply (k1_pay7 i ql kl) (k1_pay9 q k) (fun c => tpos i ql kl p c) (fun c => Ideal.exp (sim q k p c * Cert.Spec.two)) p
      (Tile.pay7_one_iff i ql kl p) (Tile.pay9_apply q k p))
theorem step_den (p : Fin 512) : ((step i q k ql kl a).2.1 : S512x1.Idx → EReal) (ix2 p 0)
    = (a.2.1 : S512x1.Idx → EReal) (ix2 p 0) + ∑ c : Fin 512, if tneg ql kl p c then Ideal.exp (sim q k p c * Cert.Spec.two) else 0 := by
  show (k1_pay13 (k1_pay11 q k ql kl) a.2.1 : S512x1.Idx → EReal) (ix2 p 0) = _
  unfold k1_pay13 k1_pay11
  rw [shapeCast_self]
  exact congrArg (fun x => (a.2.1 : S512x1.Idx → EReal) (ix2 p 0) + x)
    (Tile.rowsum_apply (k1_pay8 ql kl) (k1_pay9 q k) (fun c => tneg ql kl p c) (fun c => Ideal.exp (sim q k p c * Cert.Spec.two)) p
      (Tile.pay8_one_iff ql kl p) (Tile.pay9_apply q k p))
theorem step_pos (p : Fin 512) : ((step i q k ql kl a).2.2.1 : S512x1.Idx → EReal) (ix2 p 0)
    = (a.2.2.1 : S512x1.Idx → EReal) (ix2 p 0) + ∑ c : Fin 512, if tpos i ql kl p c then sim q k p c else 0 := by
  show (k1_pay14 (k1_pay5 q k) (k1_pay7 i ql kl) a.2.2.1 : S512x1.Idx → EReal) (ix2 p 0) = _
  unfold k1_pay14
  rw [shapeCast_self]
  exact congrArg (fun x => (a.2.2.1 : S512x1.Idx → EReal) (ix2 p 0) + x)
    (Tile.rowsum_apply (k1_pay7 i ql kl) (k1_pay5 q k) (fun c => tpos i ql kl p c) (fun c => sim q k p c) p
      (Tile.pay7_one_iff i ql kl p) (Tile.pay5_apply q k p))
theorem step_neg (p : Fin 512) : ((step i q k ql kl a).2.2.2 : S512x1.Idx → EReal) (ix2 p 0)
    = (a.2.2.2 : S512x1.Idx → EReal) (ix2 p 0) + ∑ c : Fin 512, if tneg ql kl p c then sim q k p c else 0 := by
  show (k1_pay15 (k1_pay5 q k) (k1_pay8 ql kl) a.2.2.2 : S512x1.Idx → EReal) (ix2 p 0) = _
  unfold k1_pay15
  rw [shapeCast_self]
  exact congrArg (fun x => (a.2.2.2 : S512x1.Idx → EReal) (ix2 p 0) + x)
    (Tile.rowsum_apply (k1_pay8 ql kl) (k1_pay5 q k) (fun c => tneg ql kl p c) (fun c => sim q k p c) p
      (Tile.pay8_one_iff ql kl p) (Tile.pay5_apply q k p))

/-- The reset contents are zero. -/
theorem acc0_zero (p : Fin 512) : ((acc0 (F := Ideal)).1 : S512x1.Idx → EReal) (ix2 p 0) = 0 ∧ ((acc0 (F := Ideal)).2.1 : S512x1.Idx → EReal) (ix2 p 0) = 0
    ∧ ((acc0 (F := Ideal)).2.2.1 : S512x1.Idx → EReal) (ix2 p 0) = 0 ∧ ((acc0 (F := Ideal)).2.2.2 : S512x1.Idx → EReal) (ix2 p 0) = 0 :=
  ⟨Tile.zero_col_apply p, Tile.zero_col_apply p, Tile.zero_col_apply p, Tile.zero_col_apply p⟩

end Cert.KernelIdeal.Val

end
-- ==== Proof.KI.ValAcc.lean ====
/-
  Region 1's four result columns at the extended reals, from its entry contents: if the operand array holds the
  normalised rows z, the column of labels lab at (r, 0) and the row of labels lab at (0, c), then after the 256 grid
  points result column k holds at row r the row sum over all 8192 columns of its quantity (NUM, DEN, POS, NEG of
  the specification). Row r = 512·i + p is written back once, at the last column tile of row tile i, with what
  the accumulator holds there: the sum over the 16 column tiles of the tiles' partial row sums, each tile's 512
  columns being the global columns 512·j + c.
-/
import proofs.«124807_j51797305589975_1_alg».proof.Proof.KI.Reg1
import proofs.«124807_j51797305589975_1_alg».proof.Proof.KI.ValTile
import proofs.«124807_j51797305589975_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : Entry Ideal) (c : Dev nD) (z : Fin 8192 → Fin 128 → EReal) (lab : Fin 8192 → BitVec 32)

namespace AccSum

/-! ## Where each block sits

A grid point t is the pair (row tile, column tile) = (t / 16, t % 16). The row tile's rows, its labels and the four
result blocks sit at block row t / 16; the column tile's rows and its labels at block index t % 16. -/

/-- The grid coordinates and the block indices of the four operand windows at every point. -/
theorem idx_in : ∀ t : Fin cfg1.N,
    (grid1.coords t 0).val = t.val / 16 ∧ (grid1.coords t 1).val = t.val % 16
    ∧ win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16 :=
  (by decide +kernel : ∀ t : Fin grid1.N, _)

/-- The block indices of the four result windows at every point. -/
theorem idx_out : ∀ t : Fin cfg1.N,
    win1_4.index t (0 : Fin 2) = t.val / 16 ∧ win1_4.index t (1 : Fin 2) = 0
    ∧ win1_5.index t (0 : Fin 2) = t.val / 16 ∧ win1_5.index t (1 : Fin 2) = 0
    ∧ win1_6.index t (0 : Fin 2) = t.val / 16 ∧ win1_6.index t (1 : Fin 2) = 0
    ∧ win1_7.index t (0 : Fin 2) = t.val / 16 ∧ win1_7.index t (1 : Fin 2) = 0 :=
  (by decide +kernel : ∀ t : Fin grid1.N, _)

/-- The grid has 16 · 16 = 256 points. -/
theorem N1 : cfg1.N = 256 := N_1

/-- Global row 512·(t / 16) + p of the row tile at point t. -/
abbrev grow (t : Fin cfg1.N) (p : Fin 512) : Fin 8192 := ⟨512 * (t.val / 16) + p.val, by have := t.isLt; have := N1; omega⟩
/-- Global row 512·(t % 16) + p of the column tile at point t. -/
abbrev gcol (t : Fin cfg1.N) (p : Fin 512) : Fin 8192 := ⟨512 * (t.val % 16) + p.val, by omega⟩

/-- Row p of the row tile's block is row 512·(t / 16) + p of the operand array. -/
theorem qblk_apply (t : Fin cfg1.N) (p : Fin 512) (d : Fin 128) :
    (qblk V c t : S512x128.Idx → EReal) (ix2 p d) = (V c main_v0 : S8192x128.Idx → EReal) (ix2 (grow t p) d) := by
  obtain ⟨-, -, e0, e1, -⟩ := idx_in t
  unfold qblk iblk1
  rw [View.read_apply]
  show (V c main_v0 : S8192x128.Idx → EReal) _ = (V c main_v0 : S8192x128.Idx → EReal) _
  congr 1
  funext a
  apply Fin.ext
  match a with
  | ⟨0, _⟩ => show win1_0.index t (0 : Fin 2) * 512 + 1 * p.val = 512 * (t.val / 16) + p.val; rw [e0]; omega
  | ⟨1, _⟩ => show win1_0.index t (1 : Fin 2) * 128 + 1 * d.val = d.val; rw [e1]; omega

/-- Row p of the column tile's block is row 512·(t % 16) + p of the operand array. -/
theorem kblk_apply (t : Fin cfg1.N) (p : Fin 512) (d : Fin 128) :
    (kblk V c t : S512x128.Idx → EReal) (ix2 p d) = (V c main_v0 : S8192x128.Idx → EReal) (ix2 (gcol t p) d) := by
  obtain ⟨-, -, -, -, e0, e1, -⟩ := idx_in t
  unfold kblk iblk1
  rw [View.read_apply]
  show (V c main_v0 : S8192x128.Idx → EReal) _ = (V c main_v0 : S8192x128.Idx → EReal) _
  congr 1
  funext a
  apply Fin.ext
  match a with
  | ⟨0, _⟩ => show win1_1.index t (0 : Fin 2) * 512 + 1 * p.val = 512 * (t.val % 16) + p.val; rw [e0]; omega
  | ⟨1, _⟩ => show win1_1.index t (1 : Fin 2) * 128 + 1 * d.val = d.val; rw [e1]; omega

/-- Entry p of the row tile's label column is the label column's entry 512·(t / 16) + p. -/
theorem qlab_apply (t : Fin cfg1.N) (p : Fin 512) :
    (qlab V c t : S512x1.Idx → BitVec 32) (ix2 p 0) = (V c main_v1 : S8192x1.Idx → BitVec 32) (ix2 (grow t p) 0) := by
  obtain ⟨-, -, -, -, -, -, e0, e1, -⟩ := idx_in t
  unfold qlab iblk1
  rw [View.read_apply]
  show (V c main_v1 : S8192x1.Idx → BitVec 32) _ = (V c main_v1 : S8192x1.Idx → BitVec 32) _
  congr 1
  funext a
  apply Fin.ext
  match a with
  | ⟨0, _⟩ => show win1_2.index t (0 : Fin 2) * 512 + 1 * p.val = 512 * (t.val / 16) + p.val; rw [e0]; omega
  | ⟨1, _⟩ => show win1_2.index t (1 : Fin 2) * 1 + 1 * 0 = 0; rw [e1]

/-- Entry p of the column tile's label row is the label row's entry 512·(t % 16) + p. -/
theorem klab_apply (t : Fin cfg1.N) (p : Fin 512) :
    (klab V c t : S1x512.Idx → BitVec 32) (ix2 0 p) = (V c main_v2 : S1x8192.Idx → BitVec 32) (ix2 0 (gcol t p)) := by
  obtain ⟨-, -, -, -, -, -, -, -, e0, e1⟩ := idx_in t
  unfold klab iblk1
  rw [View.read_apply]
  show (V c main_v2 : S1x8192.Idx → BitVec 32) _ = (V c main_v2 : S1x8192.Idx → BitVec 32) _
  congr 1
  funext a
  apply Fin.ext
  match a with
  | ⟨0, _⟩ => show win1_3.index t (0 : Fin 2) * 1 + 1 * 0 = 0; rw [e0]
  | ⟨1, _⟩ => show win1_3.index t (1 : Fin 2) * 512 + 1 * p.val = 512 * (t.val % 16) + p.val; rw [e1]; omega

/-! ## One tile's quantities are the specification's, at the global positions -/

section Tile
variable (hz : ∀ r d, (V c main_v0 : S8192x128.Idx → EReal) (ix2 r d) = z r d)
  (hl1 : ∀ r, (V c main_v1 : S8192x1.Idx → BitVec 32) (ix2 r 0) = lab r)
  (hl2 : ∀ r, (V c main_v2 : S1x8192.Idx → BitVec 32) (ix2 0 r) = lab r)
include hz in
/-- The tile's similarity of rows p and k is the Gram matrix's entry at the global rows. -/
theorem sim_eq (t : Fin cfg1.N) (p k : Fin 512) :
    sim (qblk V c t) (kblk V c t) p k = Cert.Spec.G z (grow t p) (gcol t k) := by
  unfold sim Cert.Spec.G
  refine Finset.sum_congr rfl fun d _ => ?_
  rw [qblk_apply, kblk_apply, hz, hz]

include hl1 hl2 in
/-- The tile's "same label, different position" is the specification's at the global positions. -/
theorem tpos_iff (t : Fin cfg1.N) (p k : Fin 512) :
    tpos (grid1.coords t) (qlab V c t) (klab V c t) p k ↔ Cert.Spec.pos lab (grow t p) (gcol t k) := by
  obtain ⟨g0, g1, -⟩ := idx_in t
  unfold tpos Cert.Spec.pos
  rw [qlab_apply, klab_apply, hl1, hl2, g0, g1]
  exact and_congr Iff.rfl (not_congr (Fin.ext_iff (a := grow t p) (b := gcol t k)).symm)

include hl1 hl2 in
/-- The tile's "different labels" is the specification's at the global positions. -/
theorem tneg_iff (t : Fin cfg1.N) (p k : Fin 512) :
    tneg (qlab V c t) (klab V c t) p k ↔ Cert.Spec.neg lab (grow t p) (gcol t k) := by
  unfold tneg Cert.Spec.neg
  rw [qlab_apply, klab_apply, hl1, hl2]

end Tile

/-! ## The accumulators along a row tile -/

/-- Column tile j's part of a row's sum over the 8192 columns (zero past the sixteenth tile). -/
def tileSum (f : Fin 8192 → EReal) (j : ℕ) : EReal :=
  if h : j < 16 then ∑ k : Fin 512, f ⟨512 * j + k.val, by omega⟩ else 0

/-- The sixteen tiles' parts add up to the row's sum. -/
theorem sum_tileSum (f : Fin 8192 → EReal) : ∑ j ∈ Finset.range 16, tileSum f j = ∑ k : Fin 8192, f k := by
  rw [Cert.Spec.sum_tiles f, Finset.sum_range]
  refine Finset.sum_congr rfl fun j _ => ?_
  unfold tileSum
  rw [dif_pos j.isLt]

/-- The accumulators after a point depend on the point's number only. -/
theorem scAt_congr (n n' : ℕ) (e : n = n') (h : n < cfg1.N) (h' : n' < cfg1.N) : scAt V c n h = scAt V c n' h' := by
  subst e; rfl

/-- If a component of the accumulators is zero at the reset and each grid point t adds to its row p the part of column
    tile t % 16 of row 512·(t / 16) + p's sum of f, then after column tile j of row tile i it holds, at row p, the sum
    of the parts of column tiles 0 … j: by induction on j, the reset at j = 0, the carried contents after. -/
theorem scAt_sum (π : Acc Ideal → S512x1.Idx → EReal) (f : Fin 8192 → Fin 8192 → EReal)
    (h0 : ∀ p : Fin 512, π acc0 (ix2 p 0) = 0)
    (hstep : ∀ (t : Fin cfg1.N) (a : Acc Ideal) (p : Fin 512) (r : Fin 8192), r.val = 512 * (t.val / 16) + p.val →
      π (step (grid1.coords t) (qblk V c t) (kblk V c t) (qlab V c t) (klab V c t) a) (ix2 p 0)
        = π a (ix2 p 0) + tileSum (f r) (t.val % 16))
    (i : Fin 16) (p : Fin 512) (r : Fin 8192) (hr : r.val = 512 * i.val + p.val) (j : ℕ) :
    ∀ (hj : 16 * i.val + j < cfg1.N), j < 16 →
      π (scAt V c (16 * i.val + j) hj) (ix2 p 0) = ∑ j' ∈ Finset.range (j + 1), tileSum (f r) j' := by
  induction j with
  | zero =>
    intro hj _
    have e := scAt_reset V c ⟨16 * i.val + 0, hj⟩ (by show (16 * i.val + 0) % 16 = 0; omega)
    refine (congrArg (fun a => π a (ix2 p 0)) e).trans ?_
    show π (step (grid1.coords ⟨16 * i.val + 0, hj⟩) (qblk V c ⟨16 * i.val + 0, hj⟩) (kblk V c ⟨16 * i.val + 0, hj⟩)
      (qlab V c ⟨16 * i.val + 0, hj⟩) (klab V c ⟨16 * i.val + 0, hj⟩) acc0) (ix2 p 0) = _
    rw [hstep ⟨16 * i.val + 0, hj⟩ acc0 p r (by show r.val = 512 * ((16 * i.val + 0) / 16) + p.val; omega), h0 p,
      Finset.sum_range_one, zero_add]
    exact congrArg (tileSum (f r)) (by show (16 * i.val + 0) % 16 = 0; omega)
  | succ j ih =>
    intro hj hlt
    have hj' : 16 * i.val + j < cfg1.N := by omega
    have e := scAt_acc V c ⟨16 * i.val + (j + 1), hj⟩ (by show ¬ (16 * i.val + (j + 1)) % 16 = 0; omega)
    have e' : scAt V c (16 * i.val + (j + 1) - 1) (Nat.lt_of_le_of_lt (Nat.sub_le _ _) hj) = scAt V c (16 * i.val + j) hj' :=
      scAt_congr V c _ _ (by omega) _ _
    refine (congrArg (fun a => π a (ix2 p 0)) (e.trans (congrArg (step (grid1.coords ⟨16 * i.val + (j + 1), hj⟩)
      (qblk V c ⟨16 * i.val + (j + 1), hj⟩) (kblk V c ⟨16 * i.val + (j + 1), hj⟩) (qlab V c ⟨16 * i.val + (j + 1), hj⟩)
      (klab V c ⟨16 * i.val + (j + 1), hj⟩)) e'))).trans ?_
    show π (step (grid1.coords ⟨16 * i.val + (j + 1), hj⟩) (qblk V c ⟨16 * i.val + (j + 1), hj⟩) (kblk V c ⟨16 * i.val + (j + 1), hj⟩)
      (qlab V c ⟨16 * i.val + (j + 1), hj⟩) (klab V c ⟨16 * i.val + (j + 1), hj⟩) (scAt V c (16 * i.val + j) hj')) (ix2 p 0) = _
    rw [hstep ⟨16 * i.val + (j + 1), hj⟩ (scAt V c (16 * i.val + j) hj') p r
      (by show r.val = 512 * ((16 * i.val + (j + 1)) / 16) + p.val; omega), ih hj' (by omega), Finset.sum_range_succ _ (j + 1)]
    exact congrArg (fun n => (∑ j' ∈ Finset.range (j + 1), tileSum (f r) j') + tileSum (f r) n)
      (by show (16 * i.val + (j + 1)) % 16 = j + 1; omega)

/-- So after the last column tile of a row tile the component holds, at row p, row 512·(t / 16) + p's whole sum. -/
theorem scAt_total (π : Acc Ideal → S512x1.Idx → EReal) (f : Fin 8192 → Fin 8192 → EReal)
    (h0 : ∀ p : Fin 512, π acc0 (ix2 p 0) = 0)
    (hstep : ∀ (t : Fin cfg1.N) (a : Acc Ideal) (p : Fin 512) (r : Fin 8192), r.val = 512 * (t.val / 16) + p.val →
      π (step (grid1.coords t) (qblk V c t) (kblk V c t) (qlab V c t) (klab V c t) a) (ix2 p 0)
        = π a (ix2 p 0) + tileSum (f r) (t.val % 16))
    (t : Fin cfg1.N) (h15 : t.val % 16 = 15) (p : Fin 512) (r : Fin 8192) (hr : r.val = 512 * (t.val / 16) + p.val) :
    π (scAt V c t.val t.isLt) (ix2 p 0) = ∑ k : Fin 8192, f r k := by
  have hN := N1
  have ht := t.isLt
  have hj : 16 * (t.val / 16) + 15 < cfg1.N := by omega
  have h := scAt_sum V c π f h0 hstep ⟨t.val / 16, by omega⟩ p r hr 15 hj (by omega)
  rw [sum_tileSum] at h
  exact (congrArg (fun a => π a (ix2 p 0)) (scAt_congr V c t.val (16 * (t.val / 16) + 15) (by omega) t.isLt hj)).trans h

/-! ## The four components' updates, in the specification's terms -/

section Steps
variable (hz : ∀ r d, (V c main_v0 : S8192x128.Idx → EReal) (ix2 r d) = z r d)
  (hl1 : ∀ r, (V c main_v1 : S8192x1.Idx → BitVec 32) (ix2 r 0) = lab r)
  (hl2 : ∀ r, (V c main_v2 : S1x8192.Idx → BitVec 32) (ix2 0 r) = lab r)

include hz hl1 hl2 in
/-- The first component gains, at row p, column tile t % 16's part of row 512·(t / 16) + p's sum of the exponentials over
    the same-label off-diagonal pairs. -/
theorem num_step (t : Fin cfg1.N) (a : Acc Ideal) (p : Fin 512) (r : Fin 8192) (hr : r.val = 512 * (t.val / 16) + p.val) :
    ((step (grid1.coords t) (qblk V c t) (kblk V c t) (qlab V c t) (klab V c t) a).1 : S512x1.Idx → EReal) (ix2 p 0)
      = (a.1 : S512x1.Idx → EReal) (ix2 p 0)
        + tileSum (fun k => if Cert.Spec.pos lab r k then Cert.Spec.Ex z r k else 0) (t.val % 16) := by
  obtain rfl : r = grow t p := Fin.ext hr
  refine (step_num (grid1.coords t) (qblk V c t) (kblk V c t) (qlab V c t) (klab V c t) a p).trans ?_
  refine congrArg (fun x => (a.1 : S512x1.Idx → EReal) (ix2 p 0) + x) ?_
  unfold tileSum
  rw [dif_pos (by omega)]
  refine Finset.sum_congr rfl fun k _ => ?_
  refine if_congr (tpos_iff V c lab hl1 hl2 t p k) ?_ rfl
  unfold Cert.Spec.Ex
  rw [sim_eq V c z hz t p k]

include hz hl1 hl2 in
/-- The second component gains the tile's part of the row's sum of the exponentials over the different-label pairs. -/
theorem den_step (t : Fin cfg1.N) (a : Acc Ideal) (p : Fin 512) (r : Fin 8192) (hr : r.val = 512 * (t.val / 16) + p.val) :
    ((step (grid1.coords t) (qblk V c t) (kblk V c t) (qlab V c t) (klab V c t) a).2.1 : S512x1.Idx → EReal) (ix2 p 0)
      = (a.2.1 : S512x1.Idx → EReal) (ix2 p 0)
        + tileSum (fun k => if Cert.Spec.neg lab r k then Cert.Spec.Ex z r k else 0) (t.val % 16) := by
  obtain rfl : r = grow t p := Fin.ext hr
  refine (step_den (grid1.coords t) (qblk V c t) (kblk V c t) (qlab V c t) (klab V c t) a p).trans ?_
  refine congrArg (fun x => (a.2.1 : S512x1.Idx → EReal) (ix2 p 0) + x) ?_
  unfold tileSum
  rw [dif_pos (by omega)]
  refine Finset.sum_congr rfl fun k _ => ?_
  refine if_congr (tneg_iff V c lab hl1 hl2 t p k) ?_ rfl
  unfold Cert.Spec.Ex
  rw [sim_eq V c z hz t p k]

include hz hl1 hl2 in
/-- The third component gains the tile's part of the row's sum of the similarities over the same-label off-diagonal pairs. -/
theorem pos_step (t : Fin cfg1.N) (a : Acc Ideal) (p : Fin 512) (r : Fin 8192) (hr : r.val = 512 * (t.val / 16) + p.val) :
    ((step (grid1.coords t) (qblk V c t) (kblk V c t) (qlab V c t) (klab V c t) a).2.2.1 : S512x1.Idx → EReal) (ix2 p 0)
      = (a.2.2.1 : S512x1.Idx → EReal) (ix2 p 0)
        + tileSum (fun k => if Cert.Spec.pos lab r k then Cert.Spec.G z r k else 0) (t.val % 16) := by
  obtain rfl : r = grow t p := Fin.ext hr
  refine (step_pos (grid1.coords t) (qblk V c t) (kblk V c t) (qlab V c t) (klab V c t) a p).trans ?_
  refine congrArg (fun x => (a.2.2.1 : S512x1.Idx → EReal) (ix2 p 0) + x) ?_
  unfold tileSum
  rw [dif_pos (by omega)]
  refine Finset.sum_congr rfl fun k _ => ?_
  exact if_congr (tpos_iff V c lab hl1 hl2 t p k) (sim_eq V c z hz t p k) rfl

include hz hl1 hl2 in
/-- The fourth component gains the tile's part of the row's sum of the similarities over the different-label pairs. -/
theorem neg_step (t : Fin cfg1.N) (a : Acc Ideal) (p : Fin 512) (r : Fin 8192) (hr : r.val = 512 * (t.val / 16) + p.val) :
    ((step (grid1.coords t) (qblk V c t) (kblk V c t) (qlab V c t) (klab V c t) a).2.2.2 : S512x1.Idx → EReal) (ix2 p 0)
      = (a.2.2.2 : S512x1.Idx → EReal) (ix2 p 0)
        + tileSum (fun k => if Cert.Spec.neg lab r k then Cert.Spec.G z r k else 0) (t.val % 16) := by
  obtain rfl : r = grow t p := Fin.ext hr
  refine (step_neg (grid1.coords t) (qblk V c t) (kblk V c t) (qlab V c t) (klab V c t) a p).trans ?_
  refine congrArg (fun x => (a.2.2.2 : S512x1.Idx → EReal) (ix2 p 0) + x) ?_
  unfold tileSum
  rw [dif_pos (by omega)]
  refine Finset.sum_congr rfl fun k _ => ?_
  exact if_congr (tneg_iff V c lab hl1 hl2 t p k) (sim_eq V c z hz t p k) rfl

end Steps

/-! ## From the written-back blocks to the result columns -/

/-- Result window 4: a staged column X whose row p is Gf at row 512·(t / 16) + p is, cut for the write-back, the
    block at point t of the column "Gf at every row". -/
theorem cut_read4 (t : Fin cfg1.N) (X : S512x1.Idx → EReal) (Gf : Fin 8192 → EReal)
    (hX : ∀ (p : Fin 512) (r : Fin 8192), r.val = 512 * (t.val / 16) + p.val → X (ix2 p 0) = Gf r) :
    (cfg1.win 4).cut (grid1.coords t) X
      = ((cfg1.win 4).blk t).view.read (Elt Ideal) (fun i : S8192x1.Idx => Gf ⟨(i 0).val, idx2_lt0 i⟩) := by
  have e0 : win1_4.index t (0 : Fin 2) = t.val / 16 := by have h := idx_out t; tauto
  funext y
  have h0 : (y 0).val < 512 := (y 0).isLt
  have h1 : (y 1).val < 1 := (y 1).isLt
  have ey : ((cfg1.win 4).xinj (grid1.coords t) y : S512x1.Idx) = ix2 (⟨(y 0).val, h0⟩ : Fin 512) (0 : Fin 1) := by
    funext a
    apply Fin.ext
    match a with
    | ⟨0, _⟩ => rfl
    | ⟨1, _⟩ => show (y 1).val = 0; omega
  rw [View.read_apply]
  refine (congrArg X ey).trans ?_
  refine hX ⟨(y 0).val, h0⟩ _ ?_
  show win1_4.index t (0 : Fin 2) * 512 + 1 * (y 0).val = 512 * (t.val / 16) + (y 0).val
  rw [e0]; omega

/-- Every row of result column 0 is in the block written back at the last column tile of its row tile. -/
theorem cover4 (i : S8192x1.Idx) : ∃ t : Fin cfg1.N, (cfg1.win 4).flush t = true ∧ i ∈ ((cfg1.win 4).blk t).view.set := by
  have hN := N1
  have hi0 : (i 0).val < 8192 := idx2_lt0 i
  have hi1 : (i 1).val < 1 := idx2_lt1 i
  have ht : 16 * ((i 0).val / 512) + 15 < cfg1.N := by omega
  have e0 : win1_4.index ⟨16 * ((i 0).val / 512) + 15, ht⟩ (0 : Fin 2) = (16 * ((i 0).val / 512) + 15) / 16 := by
    have h := idx_out ⟨16 * ((i 0).val / 512) + 15, ht⟩; tauto
  have e1 : win1_4.index ⟨16 * ((i 0).val / 512) + 15, ht⟩ (1 : Fin 2) = 0 := by
    have h := idx_out ⟨16 * ((i 0).val / 512) + 15, ht⟩; tauto
  refine ⟨⟨16 * ((i 0).val / 512) + 15, ht⟩, (flush1_4 _).mpr (by show (16 * ((i 0).val / 512) + 15) % 16 = 15; omega), ?_⟩
  show i ∈ ((View.whole main_v3_0).slice (win1_4.rect ⟨16 * ((i 0).val / 512) + 15, ht⟩)).set
  rw [View.set_slice_whole, Rect.mem_set_unit]
  intro a
  match a with
  | ⟨0, _⟩ =>
    show win1_4.index ⟨16 * ((i 0).val / 512) + 15, ht⟩ (0 : Fin 2) * 512 ≤ (i 0).val
      ∧ (i 0).val < win1_4.index ⟨16 * ((i 0).val / 512) + 15, ht⟩ (0 : Fin 2) * 512 + 512
    rw [e0]; omega
  | ⟨1, _⟩ =>
    show win1_4.index ⟨16 * ((i 0).val / 512) + 15, ht⟩ (1 : Fin 2) * 1 ≤ (i 1).val
      ∧ (i 1).val < win1_4.index ⟨16 * ((i 0).val / 512) + 15, ht⟩ (1 : Fin 2) * 1 + 1
    rw [e1]; omega

/-- Result window 5: a staged column X whose row p is Gf at row 512·(t / 16) + p is, cut for the write-back, the
    block at point t of the column "Gf at every row". -/
theorem cut_read5 (t : Fin cfg1.N) (X : S512x1.Idx → EReal) (Gf : Fin 8192 → EReal)
    (hX : ∀ (p : Fin 512) (r : Fin 8192), r.val = 512 * (t.val / 16) + p.val → X (ix2 p 0) = Gf r) :
    (cfg1.win 5).cut (grid1.coords t) X
      = ((cfg1.win 5).blk t).view.read (Elt Ideal) (fun i : S8192x1.Idx => Gf ⟨(i 0).val, idx2_lt0 i⟩) := by
  have e0 : win1_5.index t (0 : Fin 2) = t.val / 16 := by have h := idx_out t; tauto
  funext y
  have h0 : (y 0).val < 512 := (y 0).isLt
  have h1 : (y 1).val < 1 := (y 1).isLt
  have ey : ((cfg1.win 5).xinj (grid1.coords t) y : S512x1.Idx) = ix2 (⟨(y 0).val, h0⟩ : Fin 512) (0 : Fin 1) := by
    funext a
    apply Fin.ext
    match a with
    | ⟨0, _⟩ => rfl
    | ⟨1, _⟩ => show (y 1).val = 0; omega
  rw [View.read_apply]
  refine (congrArg X ey).trans ?_
  refine hX ⟨(y 0).val, h0⟩ _ ?_
  show win1_5.index t (0 : Fin 2) * 512 + 1 * (y 0).val = 512 * (t.val / 16) + (y 0).val
  rw [e0]; omega

/-- Every row of result column 1 is in the block written back at the last column tile of its row tile. -/
theorem cover5 (i : S8192x1.Idx) : ∃ t : Fin cfg1.N, (cfg1.win 5).flush t = true ∧ i ∈ ((cfg1.win 5).blk t).view.set := by
  have hN := N1
  have hi0 : (i 0).val < 8192 := idx2_lt0 i
  have hi1 : (i 1).val < 1 := idx2_lt1 i
  have ht : 16 * ((i 0).val / 512) + 15 < cfg1.N := by omega
  have e0 : win1_5.index ⟨16 * ((i 0).val / 512) + 15, ht⟩ (0 : Fin 2) = (16 * ((i 0).val / 512) + 15) / 16 := by
    have h := idx_out ⟨16 * ((i 0).val / 512) + 15, ht⟩; tauto
  have e1 : win1_5.index ⟨16 * ((i 0).val / 512) + 15, ht⟩ (1 : Fin 2) = 0 := by
    have h := idx_out ⟨16 * ((i 0).val / 512) + 15, ht⟩; tauto
  refine ⟨⟨16 * ((i 0).val / 512) + 15, ht⟩, (flush1_5 _).mpr (by show (16 * ((i 0).val / 512) + 15) % 16 = 15; omega), ?_⟩
  show i ∈ ((View.whole main_v3_1).slice (win1_5.rect ⟨16 * ((i 0).val / 512) + 15, ht⟩)).set
  rw [View.set_slice_whole, Rect.mem_set_unit]
  intro a
  match a with
  | ⟨0, _⟩ =>
    show win1_5.index ⟨16 * ((i 0).val / 512) + 15, ht⟩ (0 : Fin 2) * 512 ≤ (i 0).val
      ∧ (i 0).val < win1_5.index ⟨16 * ((i 0).val / 512) + 15, ht⟩ (0 : Fin 2) * 512 + 512
    rw [e0]; omega
  | ⟨1, _⟩ =>
    show win1_5.index ⟨16 * ((i 0).val / 512) + 15, ht⟩ (1 : Fin 2) * 1 ≤ (i 1).val
      ∧ (i 1).val < win1_5.index ⟨16 * ((i 0).val / 512) + 15, ht⟩ (1 : Fin 2) * 1 + 1
    rw [e1]; omega

/-- Result window 6: a staged column X whose row p is Gf at row 512·(t / 16) + p is, cut for the write-back, the
    block at point t of the column "Gf at every row". -/
theorem cut_read6 (t : Fin cfg1.N) (X : S512x1.Idx → EReal) (Gf : Fin 8192 → EReal)
    (hX : ∀ (p : Fin 512) (r : Fin 8192), r.val = 512 * (t.val / 16) + p.val → X (ix2 p 0) = Gf r) :
    (cfg1.win 6).cut (grid1.coords t) X
      = ((cfg1.win 6).blk t).view.read (Elt Ideal) (fun i : S8192x1.Idx => Gf ⟨(i 0).val, idx2_lt0 i⟩) := by
  have e0 : win1_6.index t (0 : Fin 2) = t.val / 16 := by have h := idx_out t; tauto
  funext y
  have h0 : (y 0).val < 512 := (y 0).isLt
  have h1 : (y 1).val < 1 := (y 1).isLt
  have ey : ((cfg1.win 6).xinj (grid1.coords t) y : S512x1.Idx) = ix2 (⟨(y 0).val, h0⟩ : Fin 512) (0 : Fin 1) := by
    funext a
    apply Fin.ext
    match a with
    | ⟨0, _⟩ => rfl
    | ⟨1, _⟩ => show (y 1).val = 0; omega
  rw [View.read_apply]
  refine (congrArg X ey).trans ?_
  refine hX ⟨(y 0).val, h0⟩ _ ?_
  show win1_6.index t (0 : Fin 2) * 512 + 1 * (y 0).val = 512 * (t.val / 16) + (y 0).val
  rw [e0]; omega

/-- Every row of result column 2 is in the block written back at the last column tile of its row tile. -/
theorem cover6 (i : S8192x1.Idx) : ∃ t : Fin cfg1.N, (cfg1.win 6).flush t = true ∧ i ∈ ((cfg1.win 6).blk t).view.set := by
  have hN := N1
  have hi0 : (i 0).val < 8192 := idx2_lt0 i
  have hi1 : (i 1).val < 1 := idx2_lt1 i
  have ht : 16 * ((i 0).val / 512) + 15 < cfg1.N := by omega
  have e0 : win1_6.index ⟨16 * ((i 0).val / 512) + 15, ht⟩ (0 : Fin 2) = (16 * ((i 0).val / 512) + 15) / 16 := by
    have h := idx_out ⟨16 * ((i 0).val / 512) + 15, ht⟩; tauto
  have e1 : win1_6.index ⟨16 * ((i 0).val / 512) + 15, ht⟩ (1 : Fin 2) = 0 := by
    have h := idx_out ⟨16 * ((i 0).val / 512) + 15, ht⟩; tauto
  refine ⟨⟨16 * ((i 0).val / 512) + 15, ht⟩, (flush1_6 _).mpr (by show (16 * ((i 0).val / 512) + 15) % 16 = 15; omega), ?_⟩
  show i ∈ ((View.whole main_v3_2).slice (win1_6.rect ⟨16 * ((i 0).val / 512) + 15, ht⟩)).set
  rw [View.set_slice_whole, Rect.mem_set_unit]
  intro a
  match a with
  | ⟨0, _⟩ =>
    show win1_6.index ⟨16 * ((i 0).val / 512) + 15, ht⟩ (0 : Fin 2) * 512 ≤ (i 0).val
      ∧ (i 0).val < win1_6.index ⟨16 * ((i 0).val / 512) + 15, ht⟩ (0 : Fin 2) * 512 + 512
    rw [e0]; omega
  | ⟨1, _⟩ =>
    show win1_6.index ⟨16 * ((i 0).val / 512) + 15, ht⟩ (1 : Fin 2) * 1 ≤ (i 1).val
      ∧ (i 1).val < win1_6.index ⟨16 * ((i 0).val / 512) + 15, ht⟩ (1 : Fin 2) * 1 + 1
    rw [e1]; omega

/-- Result window 7: a staged column X whose row p is Gf at row 512·(t / 16) + p is, cut for the write-back, the
    block at point t of the column "Gf at every row". -/
theorem cut_read7 (t : Fin cfg1.N) (X : S512x1.Idx → EReal) (Gf : Fin 8192 → EReal)
    (hX : ∀ (p : Fin 512) (r : Fin 8192), r.val = 512 * (t.val / 16) + p.val → X (ix2 p 0) = Gf r) :
    (cfg1.win 7).cut (grid1.coords t) X
      = ((cfg1.win 7).blk t).view.read (Elt Ideal) (fun i : S8192x1.Idx => Gf ⟨(i 0).val, idx2_lt0 i⟩) := by
  have e0 : win1_7.index t (0 : Fin 2) = t.val / 16 := by have h := idx_out t; tauto
  funext y
  have h0 : (y 0).val < 512 := (y 0).isLt
  have h1 : (y 1).val < 1 := (y 1).isLt
  have ey : ((cfg1.win 7).xinj (grid1.coords t) y : S512x1.Idx) = ix2 (⟨(y 0).val, h0⟩ : Fin 512) (0 : Fin 1) := by
    funext a
    apply Fin.ext
    match a with
    | ⟨0, _⟩ => rfl
    | ⟨1, _⟩ => show (y 1).val = 0; omega
  rw [View.read_apply]
  refine (congrArg X ey).trans ?_
  refine hX ⟨(y 0).val, h0⟩ _ ?_
  show win1_7.index t (0 : Fin 2) * 512 + 1 * (y 0).val = 512 * (t.val / 16) + (y 0).val
  rw [e0]; omega

/-- Every row of result column 3 is in the block written back at the last column tile of its row tile. -/
theorem cover7 (i : S8192x1.Idx) : ∃ t : Fin cfg1.N, (cfg1.win 7).flush t = true ∧ i ∈ ((cfg1.win 7).blk t).view.set := by
  have hN := N1
  have hi0 : (i 0).val < 8192 := idx2_lt0 i
  have hi1 : (i 1).val < 1 := idx2_lt1 i
  have ht : 16 * ((i 0).val / 512) + 15 < cfg1.N := by omega
  have e0 : win1_7.index ⟨16 * ((i 0).val / 512) + 15, ht⟩ (0 : Fin 2) = (16 * ((i 0).val / 512) + 15) / 16 := by
    have h := idx_out ⟨16 * ((i 0).val / 512) + 15, ht⟩; tauto
  have e1 : win1_7.index ⟨16 * ((i 0).val / 512) + 15, ht⟩ (1 : Fin 2) = 0 := by
    have h := idx_out ⟨16 * ((i 0).val / 512) + 15, ht⟩; tauto
  refine ⟨⟨16 * ((i 0).val / 512) + 15, ht⟩, (flush1_7 _).mpr (by show (16 * ((i 0).val / 512) + 15) % 16 = 15; omega), ?_⟩
  show i ∈ ((View.whole main_v3_3).slice (win1_7.rect ⟨16 * ((i 0).val / 512) + 15, ht⟩)).set
  rw [View.set_slice_whole, Rect.mem_set_unit]
  intro a
  match a with
  | ⟨0, _⟩ =>
    show win1_7.index ⟨16 * ((i 0).val / 512) + 15, ht⟩ (0 : Fin 2) * 512 ≤ (i 0).val
      ∧ (i 0).val < win1_7.index ⟨16 * ((i 0).val / 512) + 15, ht⟩ (0 : Fin 2) * 512 + 512
    rw [e0]; omega
  | ⟨1, _⟩ =>
    show win1_7.index ⟨16 * ((i 0).val / 512) + 15, ht⟩ (1 : Fin 2) * 1 ≤ (i 1).val
      ∧ (i 1).val < win1_7.index ⟨16 * ((i 0).val / 512) + 15, ht⟩ (1 : Fin 2) * 1 + 1
    rw [e1]; omega

end AccSum

open AccSum

/-! ## The four result columns

Each column's blocks are written back at the last column tile of each row tile and tile the column, so the column ends
holding, at every row, what the accumulator held there: the row's whole sum of the column's quantity. -/

/-- Result column 0 holds NUM: each row's sum of the exponentials over the same-label off-diagonal pairs. -/
theorem o4_eq (hz : ∀ r d, (V c main_v0 : S8192x128.Idx → EReal) (ix2 r d) = z r d)
    (hl1 : ∀ r, (V c main_v1 : S8192x1.Idx → BitVec 32) (ix2 r 0) = lab r)
    (hl2 : ∀ r, (V c main_v2 : S1x8192.Idx → BitVec 32) (ix2 0 r) = lab r) (r : Fin 8192) :
    ((dat1 V c).arrAt 4 cfg1.N : S8192x1.Idx → EReal) (ix2 r 0) = Cert.Spec.NUM z lab r := by
  have hG : ∀ t, (cfg1.win 4).flush t = true → (dat1 V c).flushed 4 t
      = ((cfg1.win 4).blk t).view.read (Elt Ideal) (fun i : S8192x1.Idx => Cert.Spec.NUM z lab ⟨(i 0).val, idx2_lt0 i⟩) := fun t hf => by
    show (cfg1.win 4).cut (grid1.coords t) ((dat1 V c).after 4 t) = _
    rw [after1_4]
    exact cut_read4 t _ (Cert.Spec.NUM z lab) fun p r hr =>
      scAt_total V c (fun a => (a.1 : S512x1.Idx → EReal)) (fun r k => if Cert.Spec.pos lab r k then Cert.Spec.Ex z r k else 0)
        (fun p => (acc0_zero p).1) (num_step V c z lab hz hl1 hl2) t ((flush1_4 t).mp hf) p r hr
  exact congrFun ((dat1 V c).arrAt_eq_of_cover 4 _ hG cover4) (ix2 r 0)
/-- Result column 1 holds DEN: each row's sum of the exponentials over the different-label pairs. -/
theorem o5_eq (hz : ∀ r d, (V c main_v0 : S8192x128.Idx → EReal) (ix2 r d) = z r d)
    (hl1 : ∀ r, (V c main_v1 : S8192x1.Idx → BitVec 32) (ix2 r 0) = lab r)
    (hl2 : ∀ r, (V c main_v2 : S1x8192.Idx → BitVec 32) (ix2 0 r) = lab r) (r : Fin 8192) :
    ((dat1 V c).arrAt 5 cfg1.N : S8192x1.Idx → EReal) (ix2 r 0) = Cert.Spec.DEN z lab r := by
  have hG : ∀ t, (cfg1.win 5).flush t = true → (dat1 V c).flushed 5 t
      = ((cfg1.win 5).blk t).view.read (Elt Ideal) (fun i : S8192x1.Idx => Cert.Spec.DEN z lab ⟨(i 0).val, idx2_lt0 i⟩) := fun t hf => by
    show (cfg1.win 5).cut (grid1.coords t) ((dat1 V c).after 5 t) = _
    rw [after1_5]
    exact cut_read5 t _ (Cert.Spec.DEN z lab) fun p r hr =>
      scAt_total V c (fun a => (a.2.1 : S512x1.Idx → EReal)) (fun r k => if Cert.Spec.neg lab r k then Cert.Spec.Ex z r k else 0)
        (fun p => (acc0_zero p).2.1) (den_step V c z lab hz hl1 hl2) t ((flush1_5 t).mp hf) p r hr
  exact congrFun ((dat1 V c).arrAt_eq_of_cover 5 _ hG cover5) (ix2 r 0)
/-- Result column 2 holds POS: each row's sum of the similarities over the same-label off-diagonal pairs. -/
theorem o6_eq (hz : ∀ r d, (V c main_v0 : S8192x128.Idx → EReal) (ix2 r d) = z r d)
    (hl1 : ∀ r, (V c main_v1 : S8192x1.Idx → BitVec 32) (ix2 r 0) = lab r)
    (hl2 : ∀ r, (V c main_v2 : S1x8192.Idx → BitVec 32) (ix2 0 r) = lab r) (r : Fin 8192) :
    ((dat1 V c).arrAt 6 cfg1.N : S8192x1.Idx → EReal) (ix2 r 0) = Cert.Spec.POS z lab r := by
  have hG : ∀ t, (cfg1.win 6).flush t = true → (dat1 V c).flushed 6 t
      = ((cfg1.win 6).blk t).view.read (Elt Ideal) (fun i : S8192x1.Idx => Cert.Spec.POS z lab ⟨(i 0).val, idx2_lt0 i⟩) := fun t hf => by
    show (cfg1.win 6).cut (grid1.coords t) ((dat1 V c).after 6 t) = _
    rw [after1_6]
    exact cut_read6 t _ (Cert.Spec.POS z lab) fun p r hr =>
      scAt_total V c (fun a => (a.2.2.1 : S512x1.Idx → EReal)) (fun r k => if Cert.Spec.pos lab r k then Cert.Spec.G z r k else 0)
        (fun p => (acc0_zero p).2.2.1) (pos_step V c z lab hz hl1 hl2) t ((flush1_6 t).mp hf) p r hr
  exact congrFun ((dat1 V c).arrAt_eq_of_cover 6 _ hG cover6) (ix2 r 0)
/-- Result column 3 holds NEG: each row's sum of the similarities over the different-label pairs. -/
theorem o7_eq (hz : ∀ r d, (V c main_v0 : S8192x128.Idx → EReal) (ix2 r d) = z r d)
    (hl1 : ∀ r, (V c main_v1 : S8192x1.Idx → BitVec 32) (ix2 r 0) = lab r)
    (hl2 : ∀ r, (V c main_v2 : S1x8192.Idx → BitVec 32) (ix2 0 r) = lab r) (r : Fin 8192) :
    ((dat1 V c).arrAt 7 cfg1.N : S8192x1.Idx → EReal) (ix2 r 0) = Cert.Spec.NEG z lab r := by
  have hG : ∀ t, (cfg1.win 7).flush t = true → (dat1 V c).flushed 7 t
      = ((cfg1.win 7).blk t).view.read (Elt Ideal) (fun i : S8192x1.Idx => Cert.Spec.NEG z lab ⟨(i 0).val, idx2_lt0 i⟩) := fun t hf => by
    show (cfg1.win 7).cut (grid1.coords t) ((dat1 V c).after 7 t) = _
    rw [after1_7]
    exact cut_read7 t _ (Cert.Spec.NEG z lab) fun p r hr =>
      scAt_total V c (fun a => (a.2.2.2 : S512x1.Idx → EReal)) (fun r k => if Cert.Spec.neg lab r k then Cert.Spec.G z r k else 0)
        (fun p => (acc0_zero p).2.2.2) (neg_step V c z lab hz hl1 hl2) t ((flush1_7 t).mp hf) p r hr
  exact congrFun ((dat1 V c).arrAt_eq_of_cover 7 _ hG cover7) (ix2 r 0)

end Cert.KernelIdeal.Val

end
-- ==== Proof.KI.ValTail.lean ====
/-
  The kernel program's three results at the extended reals, read off the last boundary of the run.
  Region 1 is entered with the normalised rows Z of the features in its operand array (region 0's output, untouched
  by the two label broadcasts), the labels as a column and as a row; so its four result columns are NUM, DEN, POS,
  NEG of the specification. The closing host operations reshape each column to a vector, form
  -log ((NUM + ε) / (DEN + NUM)) row by row, sum it and divide by 8192; and sum POS and NEG and divide by 8192².
-/
import proofs.«124807_j51797305589975_1_alg».proof.Proof.KI.Launch
import proofs.«124807_j51797305589975_1_alg».proof.Proof.KI.ValZ
import proofs.«124807_j51797305589975_1_alg».proof.Proof.KI.ValAcc
import proofs.«124807_j51797305589975_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (c : Dev nD)

/-- The feature rows and the labels of core c's launch memory, as functions of their coordinates. -/
def xOf : Fin 8192 → Fin 128 → EReal := fun r d => (m ((c : Thread nD τ).loc main_arg0) : S8192x128.Idx → EReal) (ix2 r d)
def labOf : Fin 8192 → BitVec 32 := fun r => (m ((c : Thread nD τ).loc main_arg1) : S8192.Idx → BitVec 32) (ix1 r)

/-! ## What region 1 is entered with -/

namespace Entry2

/-- Region 1's operand array is region 0's output array as its write-backs left it: the two label broadcasts write
    other buffers. -/
theorem z_arr : E2 m c main_v0 = (dat0 (E0 m) c).arrAt 1 cfg0.N :=
  (W2_of m c main_v0 (by decide)).trans (W1_arr m c 1)

/-- The label vector is still the launch memory's when the broadcasts read it: region 0 writes only its own arrays. -/
theorem lab_arr : W1 m c (Proc.devRef .tc main_arg1) = m ((c : Thread nD τ).loc main_arg1) :=
  W1_of_ne m c main_arg1 (by decide)

/-- The label column is the broadcast of the label vector along axis 0. -/
theorem l1_term : (E2 m c main_v1 : S8192x1.Idx → BitVec 32)
    = broadcastInDim S8192x1 ![0] bcast_S8192_S8192x1_0 (W1 m c (Proc.devRef .tc main_arg1) : S8192.Idx → BitVec 32) := by
  show StableHlo.after hostOps1 _ (Proc.devRef .tc main_v1) = _
  after_results

/-- The label row is the broadcast of the label vector along axis 1. -/
theorem l2_term : (E2 m c main_v2 : S1x8192.Idx → BitVec 32)
    = broadcastInDim S1x8192 ![1] bcast_S8192_S1x8192_1 (W1 m c (Proc.devRef .tc main_arg1) : S8192.Idx → BitVec 32) := by
  show StableHlo.after hostOps1 _ (Proc.devRef .tc main_v2) = _
  after_results

end Entry2

theorem E2_z (r : Fin 8192) (d : Fin 128) : (E2 m c main_v0 : S8192x128.Idx → EReal) (ix2 r d) = Cert.Spec.Z (xOf m c) r d :=
  (congrFun (Entry2.z_arr m c) (ix2 r d)).trans (zArr_eq (E0 m) c r d)
theorem E2_l1 (r : Fin 8192) : (E2 m c main_v1 : S8192x1.Idx → BitVec 32) (ix2 r 0) = labOf m c r := by
  rw [Entry2.l1_term, Entry2.lab_arr]
  exact broadcastInDim_apply _ bcast_S8192_S8192x1_0 _ (ix2 r 0) (ix1 r) (fun a => match a with
    | ⟨0, _⟩ => by show r.val = if (8192 : Nat) = 1 then 0 else r.val; rw [if_neg (by decide)])
theorem E2_l2 (r : Fin 8192) : (E2 m c main_v2 : S1x8192.Idx → BitVec 32) (ix2 0 r) = labOf m c r := by
  rw [Entry2.l2_term, Entry2.lab_arr]
  exact broadcastInDim_apply _ bcast_S8192_S1x8192_1 _ (ix2 0 r) (ix1 r) (fun a => match a with
    | ⟨0, _⟩ => by show r.val = if (8192 : Nat) = 1 then 0 else r.val; rw [if_neg (by decide)])

/-! ## The closing host operations, read at their one index -/

namespace Tail

/-- A sum over the indices of a vector of 8192 entries is the sum over its coordinate. -/
theorem sum_ix1 {M : Type*} [AddCommMonoid M] (f : S8192.Idx → M) : ∑ j : S8192.Idx, f j = ∑ r : Fin 8192, f (ix1 r) :=
  Fintype.sum_equiv ⟨fun j => j 0, fun r => ix1 r, fun j => (eq_ix1 j).symm, fun _ => rfl⟩ f (fun r => f (ix1 r))
    fun j => congrArg f (eq_ix1 j)

/-- A column of 8192 rows as a vector. -/
abbrev colVec (o : S8192x1.Idx → EReal) : FVec Ideal S8192 .f32 := fun j => shapeCast S8192 o shapeCasts_S8192x1_S8192 j

/-- Read at r it is the column at (r, 0): the same row-major position. -/
theorem col_apply (o : S8192x1.Idx → EReal) (r : Fin 8192) : colVec o (ix1 r) = o (ix2 r 0) := by
  refine shapeCast_apply o _ (ix1 r) (ix2 r 0) ?_
  rw [Shape.rowMajor_val_two, Shape.rowMajor_val_one]
  show r.val * 1 + 0 = r.val
  omega

/-- The sum of a vector from the zero word, divided by the word w. -/
abbrev meanVec (x : FVec Ideal S8192 .f32) (w : BitVec 32) : S_.Idx → EReal :=
  Host.divf (Host.reduceAdd x (constant (F := Ideal) S_ .f32 0x00000000#32) reducesTo_S8192_S_d0 h_S_) (constant (F := Ideal) S_ .f32 w)

/-- It is the plain sum over the rows divided by w's value. -/
theorem div_reduce (x : FVec Ideal S8192 .f32) (w : BitVec 32) (i : S_.Idx) :
    meanVec x w i = Ideal.div (∑ r : Fin 8192, x (ix1 r)) (Ideal.ofBits .f32 w) := by
  show Ideal.div (Ideal.hostReduceAdd reducesTo_S8192_S_d0 x (Ideal.ofBits .f32 0x00000000#32) i) (Ideal.ofBits .f32 w) = _
  rw [Ideal.hostReduceAdd_total reducesTo_S8192_S_d0 (fun b => b.elim0) x _ i, Ideal.ofBits_zero_f32, zero_add, sum_ix1]

/-- The loss vector of two columns a, b and the word of ε: row by row minus the logarithm of (a + ε) / (b + a). -/
abbrev lossVec (a b : S8192x1.Idx → EReal) (w : BitVec 32) : FVec Ideal S8192 .f32 :=
  Host.negf (Host.log (Host.divf
    (addf (colVec a) (broadcastInDim S8192 ![] bcast_S_S8192 (constant (F := Ideal) S_ .f32 w)))
    (addf (colVec b) (colVec a))))

theorem loss_row (a b : S8192x1.Idx → EReal) (w : BitVec 32) (r : Fin 8192) (na nb : EReal)
    (ha : a (ix2 r 0) = na) (hb : b (ix2 r 0) = nb) :
    lossVec a b w (ix1 r) = -(Ideal.log (Ideal.div (na + Ideal.ofBits .f32 w) (nb + na))) := by
  show -(Ideal.log (Ideal.div (colVec a (ix1 r) + Ideal.ofBits .f32 w) (colVec b (ix1 r) + colVec a (ix1 r)))) = _
  rw [col_apply, col_apply, ha, hb]

end Tail

/-! ## The results -/

theorem k_loss : (W4 m c main_v15 : S_.Idx → EReal)
    = fun _ => Cert.Spec.lossOf (Cert.Spec.NUM (Cert.Spec.Z (xOf m c)) (labOf m c)) (Cert.Spec.DEN (Cert.Spec.Z (xOf m c)) (labOf m c)) := by
  show StableHlo.after hostOps2 (W3 m c) (Proc.devRef .tc main_v15) = _
  after_results
  rw [W3_o4, W3_o5]
  have h4 : ∀ r, (o4 m c : S8192x1.Idx → EReal) (ix2 r 0) = Cert.Spec.NUM (Cert.Spec.Z (xOf m c)) (labOf m c) r :=
    fun r => o4_eq (E2 m) c (Cert.Spec.Z (xOf m c)) (labOf m c) (E2_z m c) (E2_l1 m c) (E2_l2 m c) r
  have h5 : ∀ r, (o5 m c : S8192x1.Idx → EReal) (ix2 r 0) = Cert.Spec.DEN (Cert.Spec.Z (xOf m c)) (labOf m c) r :=
    fun r => o5_eq (E2 m) c (Cert.Spec.Z (xOf m c)) (labOf m c) (E2_z m c) (E2_l1 m c) (E2_l2 m c) r
  generalize o4 m c = a at h4 ⊢
  generalize o5 m c = b at h5 ⊢
  funext i
  show Tail.meanVec (Tail.lossVec a b 0x322BCC77#32) 0x46000000#32 i = _
  refine (Tail.div_reduce _ _ i).trans ?_
  unfold Cert.Spec.lossOf
  refine congrArg (Ideal.div · _) (Finset.sum_congr rfl fun r _ => ?_)
  exact Tail.loss_row a b _ r _ _ (h4 r) (h5 r)
theorem k_mpos : (W4 m c main_v17 : S_.Idx → EReal) = fun _ => Cert.Spec.meanOf (Cert.Spec.POS (Cert.Spec.Z (xOf m c)) (labOf m c)) := by
  show StableHlo.after hostOps2 (W3 m c) (Proc.devRef .tc main_v17) = _
  after_results
  rw [W3_o6]
  have h : ∀ r, (o6 m c : S8192x1.Idx → EReal) (ix2 r 0) = Cert.Spec.POS (Cert.Spec.Z (xOf m c)) (labOf m c) r :=
    fun r => o6_eq (E2 m) c (Cert.Spec.Z (xOf m c)) (labOf m c) (E2_z m c) (E2_l1 m c) (E2_l2 m c) r
  generalize o6 m c = a at h ⊢
  funext i
  show Tail.meanVec (Tail.colVec a) 0x4C800000#32 i = _
  refine (Tail.div_reduce _ _ i).trans ?_
  unfold Cert.Spec.meanOf
  refine congrArg (Ideal.div · _) (Finset.sum_congr rfl fun r _ => ?_)
  exact (Tail.col_apply a r).trans (h r)
theorem k_mneg : (W4 m c main_v19 : S_.Idx → EReal) = fun _ => Cert.Spec.meanOf (Cert.Spec.NEG (Cert.Spec.Z (xOf m c)) (labOf m c)) := by
  show StableHlo.after hostOps2 (W3 m c) (Proc.devRef .tc main_v19) = _
  after_results
  rw [W3_o7]
  have h : ∀ r, (o7 m c : S8192x1.Idx → EReal) (ix2 r 0) = Cert.Spec.NEG (Cert.Spec.Z (xOf m c)) (labOf m c) r :=
    fun r => o7_eq (E2 m) c (Cert.Spec.Z (xOf m c)) (labOf m c) (E2_z m c) (E2_l1 m c) (E2_l2 m c) r
  generalize o7 m c = a at h ⊢
  funext i
  show Tail.meanVec (Tail.colVec a) 0x4C800000#32 i = _
  refine (Tail.div_reduce _ _ i).trans ?_
  unfold Cert.Spec.meanOf
  refine congrArg (Ideal.div · _) (Finset.sum_congr rfl fun r _ => ?_)
  exact (Tail.col_apply a r).trans (h r)

end Cert.KernelIdeal.Val

end
-- ==== Proof.Ref.RefVal.lean ====
/-
  The reference's three results at the extended reals are the specification's closing expressions of the feature
  rows and labels: its row normalisation is Z, its Gram matrix of the normalised rows G, its division by the
  temperature 1/2 the product with 2, its two 0/1 masks (a compare widened to a float, multiplied in) the
  "pos" and "neg" selections — a masked-out entry contributes 0 · e = 0 —, its row sums NUM and DEN, and its two
  means over all 8192² pairs the totals of the row sums POS and NEG over the number of pairs.
-/
import proofs.«124807_j51797305589975_1_alg».proof.Proof.Gen.ReferenceIdeal.Run
import proofs.«124807_j51797305589975_1_alg».proof.Proof.Gen.ReferenceIdeal.Read
import proofs.«124807_j51797305589975_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

variable (x0 : (⟨S8192x128, .f32⟩ : BufTy).Contents (Elt Ideal)) (x1 : (⟨S8192, .i32⟩ : BufTy).Contents (Elt Ideal))

/-- The feature rows and the labels as functions of their coordinates. -/
def xOf : Fin 8192 → Fin 128 → EReal := fun r d => (x0 : S8192x128.Idx → EReal) (ix2 r d)
def labOf : Fin 8192 → BitVec 32 := fun r => (x1 : S8192.Idx → BitVec 32) (ix1 r)

/-! ## Constants, words and masks -/

/-- The temperature 1/2 and its reciprocal 2, at their exact values. -/
theorem ofBits_half : Ideal.ofBits .f32 0x3F000000#32 = (((1 / 2 : ℝ)) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Dividing by the temperature 1/2 is multiplying by 2, on every extended real. -/
theorem div_half (s : EReal) : Ideal.div s (Ideal.ofBits .f32 0x3F000000#32) = s * Cert.Spec.two := by
  unfold Cert.Spec.two
  rw [ofBits_half, ofBits_two, Ideal.div_coe (by norm_num) s]
  norm_num

/-- Two positions below 8192 have the same 32-bit word only if they are the same position. -/
theorem word_eq_iff (m n : Fin 8192) : BitVec.ofNat 32 m.val = BitVec.ofNat 32 n.val ↔ m = n := by
  constructor
  · intro h
    have h' := congrArg BitVec.toNat h
    simp only [BitVec.toNat_ofNat] at h'
    apply Fin.ext
    have hm := m.isLt; have hn := n.isLt
    omega
  · rintro rfl; rfl

/-- The "labels agree off the diagonal" mask, widened to a float, is 1 on the pos pairs and 0 elsewhere. -/
theorem mask_pos (a b : BitVec 32) (m n : Fin 8192) :
    (FloatOps.uitofp (F := Ideal) .f32 (IntOp.andi (IntOp.cmpi .eq a b) (~~~(IntOp.cmpi .eq (IntOp.addi (BitVec.ofNat 32 m.val) 0#32) (BitVec.ofNat 32 n.val)))) : EReal)
      = if (b = a ∧ m ≠ n) then 1 else 0 := by
  show (((IntOp.andi (IntOp.cmpi .eq a b) (~~~(IntOp.cmpi .eq (IntOp.addi (BitVec.ofNat 32 m.val) 0#32) (BitVec.ofNat 32 n.val)))).toNat : ℝ) : EReal) = _
  have hw := word_eq_iff m n
  by_cases hab : a = b <;> by_cases hmn : m = n
  · subst hab; subst hmn; simp [IntOp.cmpi, IntOp.andi, IntOp.addi]
  · have hne : ¬ BitVec.ofNat 32 m.val = BitVec.ofNat 32 n.val := fun h => hmn (hw.mp h)
    have hb : (BitVec.ofNat 32 m.val == BitVec.ofNat 32 n.val) = false := beq_eq_false_iff_ne.mpr hne
    subst hab; simp [IntOp.cmpi, IntOp.andi, IntOp.addi, hb, hmn]
  · subst hmn; have hba : ¬ b = a := fun h => hab h.symm
    simp [IntOp.cmpi, IntOp.andi, IntOp.addi, hab, hba]
  · have hba : ¬ b = a := fun h => hab h.symm
    simp [IntOp.cmpi, IntOp.andi, IntOp.addi, hab, hba]

/-- The "labels differ" mask, widened, is 1 on the neg pairs and 0 elsewhere. -/
theorem mask_neg (a b : BitVec 32) :
    (FloatOps.uitofp (F := Ideal) .f32 (IntOp.cmpi .ne a b) : EReal) = if b ≠ a then 1 else 0 := by
  show (((IntOp.cmpi .ne a b).toNat : ℝ) : EReal) = _
  by_cases hab : a = b
  · subst hab; simp [IntOp.cmpi]
  · have hba : ¬ b = a := fun h => hab h.symm
    simp [IntOp.cmpi, hab, hba]

/-- A sum over a rank-1 index set is the sum over its coordinate. -/
theorem sum_ix1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]; rfl

/-! ## The normalisation and the Gram matrix -/

/-- The row sum's operand index at row r of the normalisation: the keepdims column and its broadcast back over the
    row only carry the row coordinate. -/
theorem idx_norm (r : Fin 8192) (d k : Fin 128) :
    idx_main_call0_v1 (idx_main_call0_v2 (idx_main_v3 (ix2 r d))) k = ix2 r k :=
  funext fun a => Fin.ext (by match a with | ⟨0, _⟩ => rfl | ⟨1, _⟩ => rfl)

/-- The reference's normalised rows. -/
theorem ref_z (r : Fin 8192) (d : Fin 128) : (val_main_v4 (F := Ideal) x0 : S8192x128.Idx → EReal) (ix2 r d) = Cert.Spec.Z (xOf x0) r d := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, idx_norm, Ideal.hostDivf_def, Ideal.maximumf_def, Ideal.hostUnary_sqrt_def,
    Ideal.mulf_def, Ideal.ofBits_def, Ideal.ofBits_zero_f32, zero_add]
  rfl
/-- The Gram matrix's operand indices at (r, c): the left factor is row r, and the right factor, read through the
    transpose, row c. -/
theorem lidx_gram (r c : Fin 8192) (k : Fin 128) : lidx_main_v6 (ix2 r c) k = ix2 r k :=
  funext fun a => Fin.ext (by match a with | ⟨0, _⟩ => rfl | ⟨1, _⟩ => rfl)
theorem ridx_gram (r c : Fin 8192) (k : Fin 128) : idx_main_v5 (ridx_main_v6 (ix2 r c) k) = ix2 c k :=
  funext fun a => Fin.ext (by match a with | ⟨0, _⟩ => rfl | ⟨1, _⟩ => rfl)

/-- Its Gram matrix. -/
theorem ref_g (r c : Fin 8192) : (val_main_v6 (F := Ideal) x0 : S8192x8192.Idx → EReal) (ix2 r c) = Cert.Spec.G (Cert.Spec.Z (xOf x0)) r c := by
  rw [val_main_v6_apply]
  simp only [val_main_v5_apply, lidx_gram, ridx_gram, ref_z]
  rfl
/-! ## The pairwise stages at a pair (r, k) -/

/-- Where the label broadcasts and the row sums read their operands at (r, k): the column's label at k, the row's at r. -/
theorem idx_row28 (r k : Fin 8192) : idx_main_v28 (ix1 r) k = ix2 r k := funext fun a => Fin.ext (by match a with | ⟨0, _⟩ => rfl | ⟨1, _⟩ => rfl)
theorem idx_row30 (r k : Fin 8192) : idx_main_v30 (ix1 r) k = ix2 r k := funext fun a => Fin.ext (by match a with | ⟨0, _⟩ => rfl | ⟨1, _⟩ => rfl)
theorem idx_col18 (r k : Fin 8192) : idx_main_v7 (idx_main_v18 (ix2 r k)) = ix1 k := funext fun a => Fin.ext (by match a with | ⟨0, _⟩ => rfl)
theorem idx_row19 (r k : Fin 8192) : idx_main_v8 (idx_main_v19 (ix2 r k)) = ix1 r := funext fun a => Fin.ext (by match a with | ⟨0, _⟩ => rfl)
theorem idx_col9 (r k : Fin 8192) : idx_main_v7 (idx_main_v9 (ix2 r k)) = ix1 k := funext fun a => Fin.ext (by match a with | ⟨0, _⟩ => rfl)
theorem idx_row10 (r k : Fin 8192) : idx_main_v8 (idx_main_v10 (ix2 r k)) = ix1 r := funext fun a => Fin.ext (by match a with | ⟨0, _⟩ => rfl)

/-- The exponential of the similarity over the temperature. -/
theorem ref_ex (r k : Fin 8192) : (val_main_v26 (F := Ideal) x0 : S8192x8192.Idx → EReal) (ix2 r k) = Cert.Spec.Ex (Cert.Spec.Z (xOf x0)) r k := by
  rw [val_main_v26_apply, val_main_v25_apply, val_main_v24_apply, val_main_cst_0_apply, ref_g]
  simp only [Ideal.hostUnary_exp_def, Ideal.hostDivf_def, Ideal.ofBits_def, div_half]
  rfl

/-- The widened "labels agree off the diagonal" mask is the indicator of the pos pairs. -/
theorem ref_maskpos (r k : Fin 8192) :
    (val_main_v23 (F := Ideal) x1 : S8192x8192.Idx → EReal) (ix2 r k) = if Cert.Spec.pos (labOf x1) r k then 1 else 0 := by
  rw [val_main_v23_apply, val_main_v22_apply, val_main_v20_apply, val_main_v21_apply, val_main_v17_apply, val_main_v16_apply,
    val_main_v18_apply, val_main_v19_apply, val_main_v7_apply, val_main_v8_apply, val_main_v13_apply, val_main_v14_apply,
    val_main_v15_apply, val_main_c_apply, idx_col18, idx_row19]
  exact (mask_pos (x1 (ix1 k)) (x1 (ix1 r)) r k).trans (if_congr Iff.rfl rfl rfl)

/-- The widened "labels differ" mask is the indicator of the neg pairs. -/
theorem ref_maskneg (r k : Fin 8192) :
    (val_main_v12 (F := Ideal) x1 : S8192x8192.Idx → EReal) (ix2 r k) = if Cert.Spec.neg (labOf x1) r k then 1 else 0 := by
  rw [val_main_v12_apply, val_main_v11_apply, val_main_v9_apply, val_main_v10_apply, val_main_v7_apply, val_main_v8_apply,
    idx_col9, idx_row10]
  exact (mask_neg (x1 (ix1 k)) (x1 (ix1 r))).trans (if_congr Iff.rfl rfl rfl)

/-- Its row sums of the masked exponentials. -/
theorem ref_num (r : Fin 8192) : (val_main_v28 (F := Ideal) x0 x1 : S8192.Idx → EReal) (ix1 r) = Cert.Spec.NUM (Cert.Spec.Z (xOf x0)) (labOf x1) r := by
  rw [val_main_v28_apply, val_main_cst_1_apply]
  simp only [idx_row28, val_main_v27_apply, ref_maskpos, ref_ex, Ideal.mulf_def, Ideal.ofBits_def, Ideal.ofBits_zero_f32, zero_add]
  unfold Cert.Spec.NUM
  refine Finset.sum_congr rfl fun k _ => ?_
  by_cases h : Cert.Spec.pos (labOf x1) r k
  · rw [if_pos h, if_pos h, one_mul]
  · rw [if_neg h, if_neg h, zero_mul]
theorem ref_den (r : Fin 8192) : (val_main_v30 (F := Ideal) x0 x1 : S8192.Idx → EReal) (ix1 r) = Cert.Spec.DEN (Cert.Spec.Z (xOf x0)) (labOf x1) r := by
  rw [val_main_v30_apply, val_main_cst_2_apply]
  simp only [idx_row30, val_main_v29_apply, ref_maskneg, ref_ex, Ideal.mulf_def, Ideal.ofBits_def, Ideal.ofBits_zero_f32, zero_add]
  unfold Cert.Spec.DEN
  refine Finset.sum_congr rfl fun k _ => ?_
  by_cases h : Cert.Spec.neg (labOf x1) r k
  · rw [if_pos h, if_pos h, one_mul]
  · rw [if_neg h, if_neg h, zero_mul]

/-- The three results. -/
theorem ref_loss : val_main_v38 (F := Ideal) x0 x1 = fun _ => Cert.Spec.lossOf (Cert.Spec.NUM (Cert.Spec.Z (xOf x0)) (labOf x1)) (Cert.Spec.DEN (Cert.Spec.Z (xOf x0)) (labOf x1)) := by
  funext i
  rw [val_main_v38_apply, val_main_v37_apply, val_main_cst_5_apply, val_main_cst_4_apply, sum_ix1]
  simp only [val_main_v36_apply, val_main_v35_apply, val_main_v34_apply, val_main_v32_apply, val_main_v33_apply, val_main_v31_apply,
    val_main_cst_3_apply, ref_num, ref_den, Ideal.hostDivf_def, Ideal.hostUnary_log_def, Ideal.hostNegf_def, Ideal.negf_def,
    Ideal.addf_def, Ideal.ofBits_def, Ideal.ofBits_zero_f32, zero_add]
  rfl
theorem ref_mpos : val_main_v41 (F := Ideal) x0 x1 = fun _ => Cert.Spec.meanOf (Cert.Spec.POS (Cert.Spec.Z (xOf x0)) (labOf x1)) := by
  funext i
  rw [val_main_v41_apply, val_main_v40_apply, val_main_cst_7_apply, val_main_cst_6_apply, sum_idx2]
  simp only [val_main_v39_apply, ref_g, ref_maskpos, Ideal.hostDivf_def, Ideal.mulf_def, Ideal.ofBits_def, Ideal.ofBits_zero_f32, zero_add]
  unfold Cert.Spec.meanOf Cert.Spec.POS Cert.Spec.c2p26
  refine congrArg (Ideal.div · _) (Finset.sum_congr rfl fun r _ => Finset.sum_congr rfl fun k _ => ?_)
  by_cases h : Cert.Spec.pos (labOf x1) r k
  · rw [if_pos h, if_pos h, mul_one]
  · rw [if_neg h, if_neg h, mul_zero]
theorem ref_mneg : val_main_v44 (F := Ideal) x0 x1 = fun _ => Cert.Spec.meanOf (Cert.Spec.NEG (Cert.Spec.Z (xOf x0)) (labOf x1)) := by
  funext i
  rw [val_main_v44_apply, val_main_v43_apply, val_main_cst_9_apply, val_main_cst_8_apply, sum_idx2]
  simp only [val_main_v42_apply, ref_g, ref_maskneg, Ideal.hostDivf_def, Ideal.mulf_def, Ideal.ofBits_def, Ideal.ofBits_zero_f32, zero_add]
  unfold Cert.Spec.meanOf Cert.Spec.NEG Cert.Spec.c2p26
  refine congrArg (Ideal.div · _) (Finset.sum_congr rfl fun r _ => Finset.sum_congr rfl fun k _ => ?_)
  by_cases h : Cert.Spec.neg (labOf x1) r k
  · rw [if_pos h, if_pos h, mul_one]
  · rw [if_neg h, if_neg h, mul_zero]

end Cert.ReferenceIdeal.RefValue

end
-- ==== Proof.lean ====
/-
  The claim, assembled.

  The kernel program runs two kernel regions around two stretches of host operations; the run (KI/Launch.lean for the
  idealized program, KB/Launch.lean for the word-level one, the same text at the two float instances) names the
  contents of every buffer at the end, whence the two frames. The reference is a host program; its frame is its run
  with the results dropped. The idealization rewrote nothing, so "preserves" asks nothing.
  At the extended reals both programs' three results are the specification's closing expressions (Spec.lean) of
  the feature rows and labels: the kernel's by the values of its two regions (the normalised rows Z; the row sums
  NUM, DEN, POS, NEG accumulated tile by tile) and its closing host operations, the reference's operation by
  operation. The two agree on every admitted memory because the arguments agree.
-/
import proofs.«124807_j51797305589975_1_alg».proof.Defs
import proofs.«124807_j51797305589975_1_alg».proof.Proof.Gen.Kernel
import proofs.«124807_j51797305589975_1_alg».proof.Proof.Gen.KernelIdeal
import proofs.«124807_j51797305589975_1_alg».proof.Proof.Gen.ReferenceIdeal
import proofs.«124807_j51797305589975_1_alg».proof.Proof.Gen.Pre_finite_inputs
import proofs.«124807_j51797305589975_1_alg».proof.Proof.Gen.ReferenceIdeal.Run
import proofs.«124807_j51797305589975_1_alg».proof.Proof.Gen.ReferenceIdeal.Read
import proofs.«124807_j51797305589975_1_alg».proof.Proof.KB.Launch
import proofs.«124807_j51797305589975_1_alg».proof.Proof.KI.Launch
import proofs.«124807_j51797305589975_1_alg».proof.Proof.KI.ValTail
import proofs.«124807_j51797305589975_1_alg».proof.Proof.Ref.RefVal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

open Cert.KernelIdeal.Val in
/-- Both programs end with the loss and the two means of the specification, of the kernel program's feature rows and
    labels; the reference's are the same functions of ITS arguments, which agree with the kernel program's. -/
theorem algebraic : Cert.algebraic_KernelIdeal_ReferenceIdeal := by
  intro m ρ m' ρ' _ hagree
  refine ⟨fun c => fun _ => Cert.Spec.lossOf (Cert.Spec.NUM (Cert.Spec.Z (xOf m c)) (labOf m c)) (Cert.Spec.DEN (Cert.Spec.Z (xOf m c)) (labOf m c)),
    fun c => fun _ => Cert.Spec.meanOf (Cert.Spec.POS (Cert.Spec.Z (xOf m c)) (labOf m c)),
    fun c => fun _ => Cert.Spec.meanOf (Cert.Spec.NEG (Cert.Spec.Z (xOf m c)) (labOf m c)), ?_, ?_⟩
  · refine (θ_run Cert.KernelIdeal.defs _ _).mono (fun _ h c => ⟨?_, ?_, ?_, ?_, ?_⟩) (Cert.KernelIdeal.Hand.run_all (F := Ideal) m ρ)
    · exact (h c _ (Cert.KernelIdeal.Hand.mem_uc Cert.KernelIdeal.main_v15 (by decide))).trans (k_loss m c)
    · exact (h c _ (Cert.KernelIdeal.Hand.mem_uc Cert.KernelIdeal.main_v17 (by decide))).trans (k_mpos m c)
    · exact (h c _ (Cert.KernelIdeal.Hand.mem_uc Cert.KernelIdeal.main_v19 (by decide))).trans (k_mneg m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
  · refine (θ_run Cert.ReferenceIdeal.defs _ _).mono (fun _ h c => ⟨?_, ?_, ?_, (h c).2.2.2.1, (h c).2.2.2.2⟩)
      (Cert.ReferenceIdeal.Value.run (F := Ideal) m' ρ')
    · rw [(h c).1, Cert.ReferenceIdeal.Read.val_main_v38_eq, Cert.ReferenceIdeal.RefValue.ref_loss, (hagree c).1, (hagree c).2]; rfl
    · rw [(h c).2.1, Cert.ReferenceIdeal.Read.val_main_v41_eq, Cert.ReferenceIdeal.RefValue.ref_mpos, (hagree c).1, (hagree c).2]; rfl
    · rw [(h c).2.2.1, Cert.ReferenceIdeal.Read.val_main_v44_eq, Cert.ReferenceIdeal.RefValue.ref_mneg, (hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
